-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x8 : Shape := ⟨2, ![1600000, 8]⟩
abbrev S2x1600000 : Shape := ⟨2, ![2, 1600000]⟩
abbrev S8x16 : Shape := ⟨2, ![8, 16]⟩
abbrev S32x4 : Shape := ⟨2, ![32, 4]⟩
abbrev S4x128x128 : Shape := ⟨3, ![4, 128, 128]⟩
abbrev S128 : Shape := ⟨1, ![128]⟩
abbrev S128x64 : Shape := ⟨2, ![128, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x8 : S_.BroadcastsInDim S1600000x8 (![] : Fin 0 → Fin S1600000x8.rank)
  reducesTo_S1600000x8_S_d0_1 : S1600000x8.ReducesTo [0, 1] S_
  bcast_S_S8x16 : S_.BroadcastsInDim S8x16 (![] : Fin 0 → Fin S8x16.rank)
  reducesTo_S8x16_S_d0_1 : S8x16.ReducesTo [0, 1] S_
  bcast_S_S32x4 : S_.BroadcastsInDim S32x4 (![] : Fin 0 → Fin S32x4.rank)
  reducesTo_S32x4_S_d0_1 : S32x4.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_v64 : IVec S_ 1) (main_v68 : IVec S1600000 1) : IVec S_ 1 :=
  let main_c_25 : IVec S_ 1 := constantI S_ 1 1#1
  let main_v69 : IVec S_ 1 := (fun x v => Host.reduce IntOp.andi x v reducesTo_S1600000_S_d0 h_S_) main_v68 main_c_25
  let main_v70 : IVec S_ 1 := andi main_v64 main_v69
  main_v70

def fn_part3 {F : FTy → Type} [FloatOps F] (main_arg2 : IVec S2x1600000 32) (main_arg12 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : IVec S1x1600000 32 := (extractStridedSlice S1x1600000 ![0, 0] · slices_S2x1600000_S1x1600000_0_0) main_arg2
  let main_v60 : IVec S1600000 32 := shapeCast S1600000 main_v59 shapeCasts_S1x1600000_S1600000
  let main_c_22 : IVec S_ 32 := constantI S_ 32 4294867296#32
  let main_v61 : IVec S1600000 32 := broadcastInDim S1600000 ![] bcast_S_S1600000 main_c_22
  let main_v62 : IVec S1600000 1 := cmpi .sge main_v60 main_v61
  let main_c_23 : IVec S_ 1 := constantI S_ 1 1#1
  let main_v63 : IVec S_ 1 := (fun x v => Host.reduce IntOp.andi x v reducesTo_S1600000_S_d0 h_S_) main_v62 main_c_23
  let main_v64 : IVec S_ 1 := andi main_v58 main_v63
  let main_v65 : IVec S1x1600000 32 := (extractStridedSlice S1x1600000 ![0, 0] · slices_S2x1600000_S1x1600000_0_0) main_arg2
  let main_v66 : IVec S1600000 32 := shapeCast S1600000 main_v65 shapeCasts_S1x1600000_S1600000
  let main_c_24 : IVec S_ 32 := constantI S_ 32 100000#32
  let main_v67 : IVec S1600000 32 := broadcastInDim S1600000 ![] bcast_S_S1600000 main_c_24
  let main_v68 : IVec S1600000 1 := cmpi .slt main_v66 main_v67
  fn_part4 (F := F) main_v64 main_v68

def fn_part2 {F : FTy → Type} [FloatOps F] (main_arg2 : IVec S2x1600000 32) (main_arg8 : FVec F S128 .f32) (main_arg9 : FVec F S128x64 .f32) (main_arg10 : FVec F S64 .f32) (main_arg11 : FVec F S128x64 .f32) (main_arg12 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg2 main_arg12 main_v48 main_v49 main_v50

def fn_part1 {F : FTy → Type} [FloatOps F] (main_arg2 : IVec S2x1600000 32) (main_arg5 : FVec F S8x16 .f32) (main_arg6 : FVec F S32x4 .f32) (main_arg7 : FVec F S4x128x128 .f32) (main_arg8 : FVec F S128 .f32) (main_arg9 : FVec F S128x64 .f32) (main_arg10 : FVec F S64 .f32) (main_arg11 : FVec F S128x64 .f32) (main_arg12 : FVec F S64 .f32) (main_v13 : IVec S_ 1) (main_v16 : IVec S8x16 1) : IVec S_ 1 :=
  let main_c_5 : IVec S_ 1 := constantI S_ 1 1#1
  let main_v17 : IVec S_ 1 := (fun x v => Host.reduce IntOp.andi x v reducesTo_S8x16_S_d0_1 h_S_) main_v16 main_c_5
  let main_v18 : IVec S_ 1 := andi main_v13 main_v17
  let main_v19 : FVec F S8x16 .f32 := Host.absf main_arg5
  let main_cst_6 : FVec F S_ .f32 := constant S_ .f32 0x7F800000#32
  let main_v20 : FVec F S8x16 .f32 := broadcastInDim S8x16 ![] bcast_S_S8x16 main_cst_6
  let main_v21 : IVec S8x16 1 := cmpf .olt main_v19 main_v20
  let main_c_7 : IVec S_ 1 := constantI S_ 1 1#1
  let main_v22 : IVec S_ 1 := (fun x v => Host.reduce IntOp.andi x v reducesTo_S8x16_S_d0_1 h_S_) main_v21 main_c_7
  let main_v23 : IVec S_ 1 := andi main_v18 main_v22
  let main_v24 : FVec F S32x4 .f32 := Host.absf main_arg6
  let main_cst_8 : FVec F S_ .f32 := constant S_ .f32 0x7F800000#32
  let main_v25 : FVec F S32x4 .f32 := broadcastInDim S32x4 ![] bcast_S_S32x4 main_cst_8
  let main_v26 : IVec S32x4 1 := cmpf .olt main_v24 main_v25
  let main_c_9 : IVec S_ 1 := constantI S_ 1 1#1
  let main_v27 : IVec S_ 1 := (fun x v => Host.reduce IntOp.andi x v reducesTo_S32x4_S_d0_1 h_S_) main_v26 main_c_9
  let main_v28 : IVec S_ 1 := andi main_v23 main_v27
  let main_v29 : FVec F S4x128x128 .f32 := Host.absf main_arg7
  let main_cst_10 : FVec F S_ .f32 := constant S_ .f32 0x7F800000#32
  let main_v30 : FVec F S4x128x128 .f32 := broadcastInDim S4x128x128 ![] bcast_S_S4x128x128 main_cst_10
  let main_v31 : IVec S4x128x128 1 := cmpf .olt main_v29 main_v30
  let main_c_11 : IVec S_ 1 := constantI S_ 1 1#1
  let main_v32 : IVec S_ 1 := (fun x v => Host.reduce IntOp.andi x v reducesTo_S4x128x128_S_d0_1_2 h_S_) main_v31 main_c_11
  let main_v33 : IVec S_ 1 := andi main_v28 main_v32
  fn_part2 (F := F) main_arg2 main_arg8 main_arg9 main_arg10 main_arg11 main_arg12 main_v33

def fn {F : FTy → Type} [FloatOps F] (main_arg0 : FVec F S100000x128 .f32) (main_arg1 : FVec F S1600000x8 .f32) (main_arg2 : IVec S2x1600000 32) (main_arg3 : FVec F S8x16 .f32) (main_arg4 : FVec F S8x16 .f32) (main_arg5 : FVec F S8x16 .f32) (main_arg6 : FVec F S32x4 .f32) (main_arg7 : FVec F S4x128x128 .f32) (main_arg8 : FVec F S128 .f32) (main_arg9 : FVec F S128x64 .f32) (main_arg10 : FVec F S64 .f32) (main_arg11 : FVec F S128x64 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x8 .f32 := Host.absf main_arg1
  let main_cst_0 : FVec F S_ .f32 := constant S_ .f32 0x7F800000#32
  let main_v5 : FVec F S1600000x8 .f32 := broadcastInDim S1600000x8 ![] bcast_S_S1600000x8 main_cst_0
  let main_v6 : IVec S1600000x8 1 := cmpf .olt main_v4 main_v5
  let main_c_1 : IVec S_ 1 := constantI S_ 1 1#1
  let main_v7 : IVec S_ 1 := (fun x v => Host.reduce IntOp.andi x v reducesTo_S1600000x8_S_d0_1 h_S_) main_v6 main_c_1
  let main_v8 : IVec S_ 1 := andi main_v3 main_v7
  let main_v9 : FVec F S8x16 .f32 := Host.absf main_arg3
  let main_cst_2 : FVec F S_ .f32 := constant S_ .f32 0x7F800000#32
  let main_v10 : FVec F S8x16 .f32 := broadcastInDim S8x16 ![] bcast_S_S8x16 main_cst_2
  let main_v11 : IVec S8x16 1 := cmpf .olt main_v9 main_v10
  let main_c_3 : IVec S_ 1 := constantI S_ 1 1#1
  let main_v12 : IVec S_ 1 := (fun x v => Host.reduce IntOp.andi x v reducesTo_S8x16_S_d0_1 h_S_) main_v11 main_c_3
  let main_v13 : IVec S_ 1 := andi main_v8 main_v12
  let main_v14 : FVec F S8x16 .f32 := Host.absf main_arg4
  let main_cst_4 : FVec F S_ .f32 := constant S_ .f32 0x7F800000#32
  let main_v15 : FVec F S8x16 .f32 := broadcastInDim S8x16 ![] bcast_S_S8x16 main_cst_4
  let main_v16 : IVec S8x16 1 := cmpf .olt main_v14 main_v15
  fn_part1 (F := F) main_arg2 main_arg5 main_arg6 main_arg7 main_arg8 main_arg9 main_arg10 main_arg11 main_arg12 main_v13 main_v16
-- ==== Kernel.lean ====
abbrev S100000x128 : Shape := ⟨2, ![100000, 128]⟩
abbrev S1600000x8 : Shape := ⟨2, ![1600000, 8]⟩
abbrev S2x1600000 : Shape := ⟨2, ![2, 1600000]⟩
abbrev S8x16 : Shape := ⟨2, ![8, 16]⟩
abbrev S32x4 : Shape := ⟨2, ![32, 4]⟩
abbrev S4x128x128 : Shape := ⟨3, ![4, 128, 128]⟩
abbrev S128 : Shape := ⟨1, ![128]⟩
abbrev S128x64 : Shape := ⟨2, ![128, 64]⟩
abbrev S64 : Shape := ⟨1, ![64]⟩
abbrev S16x4 : Shape := ⟨2, ![16, 4]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S16000x8 : Shape := ⟨2, ![16000, 8]⟩
abbrev S16000x128 : Shape := ⟨2, ![16000, 128]⟩
abbrev S16000x16 : Shape := ⟨2, ![16000, 16]⟩
abbrev S16000x4 : Shape := ⟨2, ![16000, 4]⟩
abbrev S1x128x128 : Shape := ⟨3, ![1, 128, 128]⟩
abbrev S128x128 : Shape := ⟨2, ![128, 128]⟩
abbrev S16000x1 : Shape := ⟨2, ![16000, 1]⟩
abbrev S1x128 : Shape := ⟨2, ![1, 128]⟩
abbrev S1x64 : Shape := ⟨2, ![1, 64]⟩
abbrev S100000x192 : Shape := ⟨2, ![100000, 192]⟩
abbrev S10000x128 : Shape := ⟨2, ![10000, 128]⟩
abbrev S10000x192 : Shape := ⟨2, ![10000, 192]⟩
abbrev S10000x64 : Shape := ⟨2, ![10000, 64]⟩

abbrev nBuf : Space → Nat
  | .hbm => 51
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S1600000x8, .f32⟩
  | .hbm, ⟨2, _⟩ => ⟨S2x1600000, .i32⟩
  | .hbm, ⟨3, _⟩ => ⟨S8x16, .f32⟩
  | .hbm, ⟨4, _⟩ => ⟨S8x16, .f32⟩
  | .hbm, ⟨5, _⟩ => ⟨S8x16, .f32⟩
  | .hbm, ⟨6, _⟩ => ⟨S32x4, .f32⟩
  | .hbm, ⟨7, _⟩ => ⟨S4x128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S128x64, .f32⟩
  | .hbm, ⟨12, _⟩ => ⟨S64, .f32⟩
  | .hbm, ⟨13, _⟩ => ⟨S16x4, .f32⟩
  | .hbm, ⟨14, _⟩ => ⟨S16x4, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1, .i32⟩
  | .hbm, ⟨28, _⟩ => ⟨S_, .i32⟩
  | .hbm, ⟨29, _⟩ => ⟨S1600000x1, .i32⟩
  | .hbm, ⟨30, _⟩ => ⟨S1600000x1, .i1⟩
  | .hbm, ⟨31, _⟩ => ⟨S1x1, .i32⟩
  | .hbm, ⟨32, _⟩ => ⟨S1600000x1, .i32⟩
  | .hbm, ⟨33, _⟩ => ⟨S1600000x1, .i1⟩
  | .hbm, ⟨34, _⟩ => ⟨S1600000x1, .i1⟩
  | .hbm, ⟨35, _⟩ => ⟨S_, .i1⟩
  | .hbm, ⟨36, _⟩ => ⟨S1600000, .i1⟩
  | .hbm, ⟨37, _⟩ => ⟨S1600000x128, .f32⟩
  | .hbm, ⟨38, _⟩ => ⟨S1600000x128, .i1⟩
  | .hbm, ⟨39, _⟩ => ⟨S_, .f32⟩
  | .hbm, ⟨40, _⟩ => ⟨S1600000x128, .f32⟩
  | .hbm, ⟨41, _⟩ => ⟨S1600000x128, .f32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S1x128, .f32⟩
  | .hbm, ⟨48, _⟩ => ⟨S1x64, .f32⟩
  | .hbm, ⟨49, _⟩ => ⟨S1x64, .f32⟩
  | .hbm, ⟨50, _⟩ => ⟨S100000x192, .f32⟩
  | .local _ .vmem, ⟨0, _⟩ => ⟨S16000x8, .f32⟩
  | .local _ .vmem, ⟨1, _⟩ => ⟨S16000x8, .f32⟩
  | .local _ .vmem, ⟨2, _⟩ => ⟨S16000x128, .f32⟩
  | .local _ .vmem, ⟨3, _⟩ => ⟨S16000x128, .f32⟩
  | .local _ .vmem, ⟨4, _⟩ => ⟨S8x16, .f32⟩
  | .local _ .vmem, ⟨5, _⟩ => ⟨S8x16, .f32⟩
  | .local _ .vmem, ⟨6, _⟩ => ⟨S8x16, .f32⟩
  | .local _ .vmem, ⟨7, _⟩ => ⟨S16x4, .f32⟩
  | .local _ .vmem, ⟨8, _⟩ => ⟨S16x4, .f32⟩
  | .local _ .vmem, ⟨9, _⟩ => ⟨S4x128x128, .f32⟩
  | .local _ .vmem, ⟨10, _⟩ => ⟨S16000x128, .f32⟩
  | .local _ .vmem, ⟨11, _⟩ => ⟨S16000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S1x128, .f32⟩
  | .local _ .vmem, ⟨17, _⟩ => ⟨S128x64, .f32⟩
  | .local _ .vmem, ⟨18, _⟩ => ⟨S1x64, .f32⟩
  | .local _ .vmem, ⟨19, _⟩ => ⟨S128x64, .f32⟩
  | .local _ .vmem, ⟨20, _⟩ => ⟨S1x64, .f32⟩
  | .local _ .vmem, ⟨21, _⟩ => ⟨S10000x192, .f32⟩
  | .local _ .vmem, ⟨22, _⟩ => ⟨S10000x192, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v6 : Ref sig .tc := ⟨.hbm, 41, rfl⟩
abbrev main_v7 : Ref sig .tc := ⟨.hbm, 42, rfl⟩
abbrev main_cst : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x192 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S32x4_S16x4_0_0 : S32x4.Slices ![0, 0] S16x4
  slices_S32x4_S16x4_16_0 : S32x4.Slices ![16, 0] S16x4
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  inb_S16000x8_S16000x8_0_0 : ∀ a, (![0, 0] : Fin 2 → Nat) a + S16000x8.size a ≤ S16000x8.size a
  h_S16000x8 : 0 < S16000x8.numel
  inb_S8x16_S8x16_0_0 : ∀ a, (![0, 0] : Fin 2 → Nat) a + S8x16.size a ≤ S8x16.size a
  h_S8x16 : 0 < S8x16.numel
  inb_S16x4_S16x4_0_0 : ∀ a, (![0, 0] : Fin 2 → Nat) a + S16x4.size a ≤ S16x4.size a
  h_S16x4 : 0 < S16x4.numel
  shapeCasts_S16x4_S16x4 : S16x4.ShapeCasts S16x4
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  inb_S4x128x128_S4x128x128_0_0_0 : ∀ a, (![0, 0, 0] : Fin 3 → Nat) a + S4x128x128.size a ≤ S4x128x128.size a
  h_S4x128x128 : 0 < S4x128x128.numel
  slices_S4x128x128_o0_0_0_S1x128x128 : S4x128x128.Slices ![0, 0, 0] S1x128x128
  shapeCasts_S1x128x128_S128x128 : S1x128x128.ShapeCasts S128x128
  slices_S16000x4_o0_0_S16000x1 : S16000x4.Slices ![0, 0] S16000x1
  broadcasts_S16000x1_S16000x128 : S16000x1.Broadcasts S16000x128
  slices_S4x128x128_o1_0_0_S1x128x128 : S4x128x128.Slices ![1, 0, 0] S1x128x128
  slices_S16000x4_o0_1_S16000x1 : S16000x4.Slices ![0, 1] S16000x1
  slices_S4x128x128_o2_0_0_S1x128x128 : S4x128x128.Slices ![2, 0, 0] S1x128x128
  slices_S16000x4_o0_2_S16000x1 : S16000x4.Slices ![0, 2] S16000x1
  slices_S4x128x128_o3_0_0_S1x128x128 : S4x128x128.Slices ![3, 0, 0] S1x128x128
  slices_S16000x4_o0_3_S16000x1 : S16000x4.Slices ![0, 3] S16000x1
  bcast_S_S100000x128 : S_.BroadcastsInDim S100000x128 (![] : Fin 0 → Fin S100000x128.rank)
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x192_S10000x128_0_0 : ∀ a, (![0, 0] : Fin 2 → Nat) a + S10000x128.size a ≤ S10000x192.size a
  inb_S10000x192_S10000x64_0_128 : ∀ a, (![0, 128] : Fin 2 → Nat) a + S10000x64.size a ≤ S10000x192.size a
  h_S10000x64 : 0 < S10000x64.numel
  gather_S100000x128_S1600000x1_S1600000x128_1_0_n_n_0_1_1128_wf : GatherDims.WF S100000x128 S1600000x1 S1600000x128 [1] [0] [] [0] [] 1 ![1, 128]
  dot_S16000x8_S8x16_S16000x16_1_0_0_1_n_n_wf : DotDims.WF S16000x8 S8x16 S16000x16 [1] [0] [0] [1] [] []
  dot_S16000x16_S16x4_S16000x4_1_0_0_1_n_n_wf : DotDims.WF S16000x16 S16x4 S16000x4 [1] [0] [0] [1] [] []
  dot_S16000x128_S128x128_S16000x128_1_0_0_1_n_n_wf : DotDims.WF S16000x128 S128x128 S16000x128 [1] [0] [0] [1] [] []
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x8.size a ≤ S1600000x8.size a
  hwx0_0 : ∀ i : grid0.Coords, EltTy.bits .f32 = 32 ∨ (Rect.block (s := S1600000x8) S16000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x128.size a ≤ S1600000x128.size a
  hwx0_1 : ∀ i : grid0.Coords, EltTy.bits .f32 = 32 ∨ (Rect.block (s := S1600000x128) S16000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x16.size a ≤ S8x16.size a
  hwx0_2 : ∀ i : grid0.Coords, EltTy.bits .f32 = 32 ∨ (Rect.block (s := S8x16) S8x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x16.size a ≤ S8x16.size a
  hwx0_3 : ∀ i : grid0.Coords, EltTy.bits .f32 = 32 ∨ (Rect.block (s := S8x16) S8x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x16.size a ≤ S8x16.size a
  hwx0_4 : ∀ i : grid0.Coords, EltTy.bits .f32 = 32 ∨ (Rect.block (s := S8x16) S8x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x4.size a ≤ S16x4.size a
  hwx0_5 : ∀ i : grid0.Coords, EltTy.bits .f32 = 32 ∨ (Rect.block (s := S16x4) S16x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x4.size a ≤ S16x4.size a
  hwx0_6 : ∀ i : grid0.Coords, EltTy.bits .f32 = 32 ∨ (Rect.block (s := S16x4) S16x4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x128x128.size a ≤ S4x128x128.size a
  hwx0_7 : ∀ i : grid0.Coords, EltTy.bits .f32 = 32 ∨ (Rect.block (s := S4x128x128) S4x128x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16000x128.size a ≤ S1600000x128.size a
  hwx0_8 : ∀ i : grid0.Coords, EltTy.bits .f32 = 32 ∨ (Rect.block (s := S1600000x128) S16000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x192.size a ≤ S100000x192.size a
  hwx1_7 : ∀ i : grid1.Coords, EltTy.bits .f32 = 32 ∨ (Rect.block (s := S100000x192) S10000x192.size (cc1_transform_7 i) (hinb1_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S16000x8_S8x16_S16000x16_1_0_0_1_n_n : DotDims S16000x8 S8x16 S16000x16 where
  lhsContracting := [1]
  rhsContracting := [0]
  lhsNonContracting := [0]
  rhsNonContracting := [1]
  lhsBatch := []
  rhsBatch := []
  wf := dot_S16000x8_S8x16_S16000x16_1_0_0_1_n_n_wf
def dot_S16000x16_S16x4_S16000x4_1_0_0_1_n_n : DotDims S16000x16 S16x4 S16000x4 where
  lhsContracting := [1]
  rhsContracting := [0]
  lhsNonContracting := [0]
  rhsNonContracting := [1]
  lhsBatch := []
  rhsBatch := []
  wf := dot_S16000x16_S16x4_S16000x4_1_0_0_1_n_n_wf
def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg1) S16000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S16000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S8x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S8x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S16x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S16x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S16000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S10000x192.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000x8 : Shape := ⟨2, ![1600000, 8]⟩
abbrev S2x1600000 : Shape := ⟨2, ![2, 1600000]⟩
abbrev S8x16 : Shape := ⟨2, ![8, 16]⟩
abbrev S32x4 : Shape := ⟨2, ![32, 4]⟩
abbrev S4x128x128 : Shape := ⟨3, ![4, 128, 128]⟩
abbrev S128 : Shape := ⟨1, ![128]⟩
abbrev S128x64 : Shape := ⟨2, ![128, 64]⟩
abbrev S64 : Shape := ⟨1, ![64]⟩
abbrev S1600000x16 : Shape := ⟨2, ![1600000, 16]⟩
abbrev S_ : Shape := ⟨0, ![]⟩
abbrev S1600000x32 : Shape := ⟨2, ![1600000, 32]⟩
abbrev S1600000x4 : Shape := ⟨2, ![1600000, 4]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S100000x64 : Shape := ⟨2, ![100000, 64]⟩
abbrev S1x64 : Shape := ⟨2, ![1, 64]⟩
abbrev S100000x192 : Shape := ⟨2, ![100000, 192]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x8, .f32⟩
  | .hbm, ⟨2, _⟩ => ⟨S2x1600000, .i32⟩
  | .hbm, ⟨3, _⟩ => ⟨S8x16, .f32⟩
  | .hbm, ⟨4, _⟩ => ⟨S8x16, .f32⟩
  | .hbm, ⟨5, _⟩ => ⟨S8x16, .f32⟩
  | .hbm, ⟨6, _⟩ => ⟨S32x4, .f32⟩
  | .hbm, ⟨7, _⟩ => ⟨S4x128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S128x64, .f32⟩
  | .hbm, ⟨12, _⟩ => ⟨S64, .f32⟩
  | .hbm, ⟨13, _⟩ => ⟨S1600000x16, .f32⟩
  | .hbm, ⟨14, _⟩ => ⟨S_, .f32⟩
  | .hbm, ⟨15, _⟩ => ⟨S1600000x16, .f32⟩
  | .hbm, ⟨16, _⟩ => ⟨S1600000x16, .f32⟩
  | .hbm, ⟨17, _⟩ => ⟨S1600000x16, .f32⟩
  | .hbm, ⟨18, _⟩ => ⟨S1600000x16, .f32⟩
  | .hbm, ⟨19, _⟩ => ⟨S1600000x16, .f32⟩
  | .hbm, ⟨20, _⟩ => ⟨S1600000x16, .f32⟩
  | .hbm, ⟨21, _⟩ => ⟨S1600000x16, .f32⟩
  | .hbm, ⟨22, _⟩ => ⟨S1600000x32, .f32⟩
  | .hbm, ⟨23, _⟩ => ⟨S1600000x4, .f32⟩
  | .hbm, ⟨24, _⟩ => ⟨S_, .f32⟩
  | .hbm, ⟨25, _⟩ => ⟨S1600000x4, .f32⟩
  | .hbm, ⟨26, _⟩ => ⟨S1600000x4, .f32⟩
  | .hbm, ⟨27, _⟩ => ⟨S1x1600000, .i32⟩
  | .hbm, ⟨28, _⟩ => ⟨S1600000, .i32⟩
  | .hbm, ⟨29, _⟩ => ⟨S1x1600000, .i32⟩
  | .hbm, ⟨30, _⟩ => ⟨S1600000, .i32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S1600000x1, .f32⟩
  | .hbm, ⟨41, _⟩ => ⟨S1600000x128, .f32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S1x128x128, .f32⟩
  | .hbm, ⟨48, _⟩ => ⟨S128x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S1600000x1, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S1x128x128, .f32⟩
  | .hbm, ⟨61, _⟩ => ⟨S128x128, .f32⟩
  | .hbm, ⟨62, _⟩ => ⟨S100000x128, .f32⟩
  | .hbm, ⟨63, _⟩ => ⟨S100000x128, .f32⟩
  | .hbm, ⟨64, _⟩ => ⟨S1600000x1, .f32⟩
  | .hbm, ⟨65, _⟩ => ⟨S1600000x128, .f32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S1x128x128, .f32⟩
  | .hbm, ⟨72, _⟩ => ⟨S128x128, .f32⟩
  | .hbm, ⟨73, _⟩ => ⟨S100000x128, .f32⟩
  | .hbm, ⟨74, _⟩ => ⟨S100000x128, .f32⟩
  | .hbm, ⟨75, _⟩ => ⟨S1600000x1, .f32⟩
  | .hbm, ⟨76, _⟩ => ⟨S1600000x128, .f32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S1x128x128, .f32⟩
  | .hbm, ⟨83, _⟩ => ⟨S128x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S1x64, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S100000x192, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_call0_cst : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_cst : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_1 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_2 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_3 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call2_cst : Ref sig .tc := ⟨.hbm, 86, rfl⟩
abbrev main_call2_v0 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]

class Facts₀ : Prop where
  bcast_S_S1600000x16 : S_.BroadcastsInDim S1600000x16 (![] : Fin 0 → Fin S1600000x16.rank)
  concatenates_S1600000x16_S1600000x16_S1600000x32_d1 : Shape.Concatenates [S1600000x16, S1600000x16] S1600000x32 1
  bcast_S_S1600000x4 : S_.BroadcastsInDim S1600000x4 (![] : Fin 0 → Fin S1600000x4.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S1600000x4_S1600000x1_0_0 : S1600000x4.Slices ![0, 0] S1600000x1
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S1600000x4_S1600000x1_0_1 : S1600000x4.Slices ![0, 1] S1600000x1
  slices_S4x128x128_S1x128x128_1_0_0 : S4x128x128.Slices ![1, 0, 0] S1x128x128
  slices_S1600000x4_S1600000x1_0_2 : S1600000x4.Slices ![0, 2] S1600000x1
  slices_S4x128x128_S1x128x128_2_0_0 : S4x128x128.Slices ![2, 0, 0] S1x128x128
  slices_S1600000x4_S1600000x1_0_3 : S1600000x4.Slices ![0, 3] S1600000x1
  slices_S4x128x128_S1x128x128_3_0_0 : S4x128x128.Slices ![3, 0, 0] S1x128x128
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x128_S100000x64_S100000x192_d1 : Shape.Concatenates [S100000x128, S100000x64] S100000x192 1
  dot_S1600000x8_S8x16_S1600000x16_1_0_0_1_n_n_wf : DotDims.WF S1600000x8 S8x16 S1600000x16 [1] [0] [0] [1] [] []
  dot_S1600000x32_S32x4_S1600000x4_1_0_0_1_n_n_wf : DotDims.WF S1600000x32 S32x4 S1600000x4 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def dot_S1600000x8_S8x16_S1600000x16_1_0_0_1_n_n : DotDims S1600000x8 S8x16 S1600000x16 where
  lhsContracting := [1]
  rhsContracting := [0]
  lhsNonContracting := [0]
  rhsNonContracting := [1]
  lhsBatch := []
  rhsBatch := []
  wf := dot_S1600000x8_S8x16_S1600000x16_1_0_0_1_n_n_wf
def dot_S1600000x32_S32x4_S1600000x4_1_0_0_1_n_n : DotDims S1600000x32 S32x4 S1600000x4 where
  lhsContracting := [1]
  rhsContracting := [0]
  lhsNonContracting := [0]
  rhsNonContracting := [1]
  lhsBatch := []
  rhsBatch := []
  wf := dot_S1600000x32_S32x4_S1600000x4_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  THE SPECIFICATION: the result of the edge-weighted graph convolution as one function of the argument arrays, index
  by index over the extended reals, in the two arrangements the two programs compute it in.

  For an edge e with attribute row a_e (8 numbers): the linear part max(a_e·W1, 0) and the gated part
  tanh(a_e·W2)·tanh(a_e·W3) (16 numbers each) are multiplied into the 32×4 matrix W4 and rectified: four spectral
  coefficients c_{e,k}. The source row of edge e is x[src_e] (a negative index counts from the end; the row index is
  clamped into the table). Then, for a node n and an output feature j < 128,
    kernel    : max( Σ_{e : dst_e = n} Σ_k c_{e,k} · (Σ_d x[src_e]_d · C_{k,d,j})  +  b_j , 0 )
    reference : max( b_j + Σ_k Σ_d ( Σ_{e : dst_e = n} c_{e,k} · x[src_e]_d ) · C_{k,d,j} , 0 )
  (the sums over k written out as four terms added left to right), and for 128 ≤ j < 192 both give the gated skip
  tanh(x_n·S1 + s1)·tanh(x_n·S2 + s2) at column j − 128. The kernel multiplies the two halves of W4 separately and
  adds the two products; the reference multiplies the concatenated 32 columns at once.
-/
import Idealize.ShloMosaic.PureOps.Ideal
import Idealize.ShloMosaic.Lib.ValueIdx
import Mathlib.Algebra.BigOperators.Group.Finset.Basic
import Mathlib.Algebra.BigOperators.Fin

noncomputable section

open scoped BigOperators

namespace Cert.Spec

open Idealize.ShloMosaic Idealize.ShloMosaic.ValueIdx

/-- The number of nodes. -/
abbrev NN : Nat := 100000
/-- The number of edges. -/
abbrev EE : Nat := 1600000

/-- A vector, a matrix and a rank-3 array of extended reals, by their literal extents. -/
abbrev A1 (a : Nat) : Type := FVec Ideal ⟨1, ![a]⟩ .f32
abbrev A2 (a b : Nat) : Type := FVec Ideal ⟨2, ![a, b]⟩ .f32
abbrev A3 (a b c : Nat) : Type := FVec Ideal ⟨3, ![a, b, c]⟩ .f32
/-- A matrix of 32-bit words. -/
abbrev I2 (a b : Nat) : Type := IVec ⟨2, ![a, b]⟩ 32

/-! ## The edge coefficients -/

/-- The linear part of edge e, column j: max(a_e · W1[:, j], 0). -/
def lin {R : Nat} (ea : A2 R 8) (w1 : A2 8 16) (e : Fin R) (j : Fin 16) : EReal :=
  max (∑ i : Fin 8, ea (ix2 e i) * w1 (ix2 i j)) 0

/-- The gated part of edge e, column j: tanh(a_e · W2[:, j]) · tanh(a_e · W3[:, j]). -/
def gat {R : Nat} (ea : A2 R 8) (w2 w3 : A2 8 16) (e : Fin R) (j : Fin 16) : EReal :=
  Ideal.tanh (∑ i : Fin 8, ea (ix2 e i) * w2 (ix2 i j)) * Ideal.tanh (∑ i : Fin 8, ea (ix2 e i) * w3 (ix2 i j))

/-- The coefficients as the kernel computes them, from the two halves of W4 given as two 16×4 matrices. -/
def coefHalves {R : Nat} (ea : A2 R 8) (w1 w2 w3 : A2 8 16) (w4t w4b : A2 16 4) (e : Fin R) (k : Fin 4) : EReal :=
  max ((∑ j : Fin 16, lin ea w1 e j * w4t (ix2 j k)) + (∑ j : Fin 16, gat ea w2 w3 e j * w4b (ix2 j k))) 0

/-- The top half (rows 0 to 15) and the bottom half (rows 16 to 31) of W4. -/
def w4top (w4 : A2 32 4) : A2 16 4 := fun i => w4 (ix2 ⟨(i 0).val, by have := idx2_lt0 i; omega⟩ (i 1))
def w4bot (w4 : A2 32 4) : A2 16 4 := fun i => w4 (ix2 ⟨16 + (i 0).val, by have := idx2_lt0 i; omega⟩ (i 1))

/-- The 32 concatenated columns of edge e: the linear part, then the gated part. -/
def cat {R : Nat} (ea : A2 R 8) (w1 w2 w3 : A2 8 16) (e : Fin R) (j : Fin 32) : EReal :=
  if h : j.val < 16 then lin ea w1 e ⟨j.val, h⟩ else gat ea w2 w3 e ⟨j.val - 16, by have := j.isLt; omega⟩

/-- The coefficients as the reference computes them, from the whole of W4. -/
def coef {R : Nat} (ea : A2 R 8) (w1 w2 w3 : A2 8 16) (w4 : A2 32 4) (e : Fin R) (k : Fin 4) : EReal :=
  max (∑ j : Fin 32, cat ea w1 w2 w3 e j * w4 (ix2 j k)) 0

/-! ## The source rows -/

/-- The start word of edge e's row lookup: the source word, a negative one counted from the end. -/
def srcWord (idx : I2 2 EE) (e : Fin EE) : BitVec 32 :=
  if (idx (ix2 0 e)).toInt < 0 then idx (ix2 0 e) + 100000#32 else idx (ix2 0 e)

/-- The row a start word reads: the word as a signed number, clamped into [0, NN − 1]. -/
def rowOf (s : BitVec 32) : Fin NN := ⟨min s.toInt.toNat 99999, Nat.lt_of_le_of_lt (Nat.min_le_right _ _) (by decide)⟩

/-- The gathered source features: edge e, feature d. -/
def xj (x : A2 NN 128) (idx : I2 2 EE) : A2 EE 128 := fun i => x (ix2 (rowOf (srcWord idx (i 0))) (i 1))

/-- Every source word, after counting negatives from the end, names a row of the table. -/
def SrcInRange (idx : I2 2 EE) : Prop := ∀ e : Fin EE, 0 ≤ (srcWord idx e).toInt ∧ (srcWord idx e).toInt ≤ 99999

/-! ## The accumulating scatter by destination -/

/-- The sum, over the edges whose destination word read signed is n, of u at (e, q). -/
def segSum {D : Nat} (idx : I2 2 EE) (u : A2 EE D) : A2 NN D := fun i =>
  ∑ e ∈ Finset.univ.filter (fun e : Fin EE => (idx (ix2 1 e)).toInt = (((i 0).val : ℕ) : ℤ)), u (ix2 e (i 1))

/-! ## The kernel's arrangement -/

/-- The message of edge e at output feature j from coefficients c and gathered rows y:
    Σ_k c_{e,k} · (Σ_d y_{e,d} · C_{k,d,j}), the four terms added left to right. -/
def msg {R : Nat} (c : Fin R → Fin 4 → EReal) (y : A2 R 128) (cw : A3 4 128 128) : A2 R 128 := fun i =>
  c (i 0) 0 * (∑ d : Fin 128, y (ix2 (i 0) d) * cw (ix3 0 d (i 1)))
    + c (i 0) 1 * (∑ d : Fin 128, y (ix2 (i 0) d) * cw (ix3 1 d (i 1)))
    + c (i 0) 2 * (∑ d : Fin 128, y (ix2 (i 0) d) * cw (ix3 2 d (i 1)))
    + c (i 0) 3 * (∑ d : Fin 128, y (ix2 (i 0) d) * cw (ix3 3 d (i 1)))

/-- The gated skip at node n, column j: tanh(x_n · S1[:, j] + s1_j) · tanh(x_n · S2[:, j] + s2_j). -/
def skip {R : Nat} (x : A2 R 128) (sw1 : A2 128 64) (sb1 : Fin 64 → EReal) (sw2 : A2 128 64) (sb2 : Fin 64 → EReal)
    (n : Fin R) (j : Fin 64) : EReal :=
  Ideal.tanh ((∑ d : Fin 128, x (ix2 n d) * sw1 (ix2 d j)) + sb1 j)
    * Ideal.tanh ((∑ d : Fin 128, x (ix2 n d) * sw2 (ix2 d j)) + sb2 j)

/-- What the finalize region writes, from the node features, the scattered messages and the biases as rows:
    max(pre + b, 0) in columns 0 to 127, the gated skip in columns 128 to 191. -/
def fin {R : Nat} (x : A2 R 128) (pre : A2 R 128) (cb : Fin 128 → EReal) (sw1 : A2 128 64) (sb1 : Fin 64 → EReal)
    (sw2 : A2 128 64) (sb2 : Fin 64 → EReal) : A2 R 192 := fun i =>
  if h : (i 1).val < 128 then max (pre (ix2 (i 0) ⟨(i 1).val, h⟩) + cb ⟨(i 1).val, h⟩) 0
  else skip x sw1 sb1 sw2 sb2 (i 0) ⟨(i 1).val - 128, by have := idx2_lt1 i; omega⟩

/-- THE KERNEL'S RESULT as a function of the arguments. -/
def outK (x : A2 NN 128) (ea : A2 EE 8) (idx : I2 2 EE) (w1 w2 w3 : A2 8 16) (w4 : A2 32 4) (cw : A3 4 128 128)
    (cb : A1 128) (sw1 : A2 128 64) (sb1 : A1 64) (sw2 : A2 128 64) (sb2 : A1 64) : A2 NN 192 :=
  fin x (segSum idx (msg (coefHalves ea w1 w2 w3 (w4top w4) (w4bot w4)) (xj x idx) cw)) (fun j => cb (ix1 j))
    sw1 (fun j => sb1 (ix1 j)) sw2 (fun j => sb2 (ix1 j))

/-! ## The reference's arrangement -/

/-- The aggregated features of spectral coefficient k: node n, feature d ↦ Σ_{e : dst_e = n} c_{e,k} · x[src_e]_d. -/
def agg (c : Fin EE → Fin 4 → EReal) (y : A2 EE 128) (idx : I2 2 EE) (k : Fin 4) : A2 NN 128 :=
  segSum idx (fun i => c (i 0) k * y i)

/-- The reference's pre-activation at node n, output feature j:
    b_j + Σ_k Σ_d agg_k(n, d) · C_{k,d,j}, the four terms added left to right. -/
def preR (c : Fin EE → Fin 4 → EReal) (y : A2 EE 128) (idx : I2 2 EE) (cw : A3 4 128 128) (cb : Fin 128 → EReal)
    (n : Fin NN) (j : Fin 128) : EReal :=
  cb j + (∑ d : Fin 128, agg c y idx 0 (ix2 n d) * cw (ix3 0 d j))
    + (∑ d : Fin 128, agg c y idx 1 (ix2 n d) * cw (ix3 1 d j))
    + (∑ d : Fin 128, agg c y idx 2 (ix2 n d) * cw (ix3 2 d j))
    + (∑ d : Fin 128, agg c y idx 3 (ix2 n d) * cw (ix3 3 d j))

/-- THE REFERENCE'S RESULT as a function of the arguments. -/
def outR (x : A2 NN 128) (ea : A2 EE 8) (idx : I2 2 EE) (w1 w2 w3 : A2 8 16) (w4 : A2 32 4) (cw : A3 4 128 128)
    (cb : A1 128) (sw1 : A2 128 64) (sb1 : A1 64) (sw2 : A2 128 64) (sb2 : A1 64) : A2 NN 192 := fun i =>
  if h : (i 1).val < 128 then
    max (preR (coef ea w1 w2 w3 w4) (xj x idx) idx cw (fun j => cb (ix1 j)) (i 0) ⟨(i 1).val, h⟩) 0
  else skip x sw1 (fun j => sb1 (ix1 j)) sw2 (fun j => sb2 (ix1 j)) (i 0) ⟨(i 1).val - 128, by have := idx2_lt1 i; omega⟩

/-- An array all of whose entries are real numbers. -/
def Finite {s : Shape} (v : FVec Ideal s .f32) : Prop := ∀ i, ∃ r : ℝ, v i = (r : EReal)

end Cert.Spec

end
-- ==== Proof.Pre.lean ====
/-
  WHAT THE PRECONDITION SAYS: every entry of each float argument the distributive step needs is a real number, and every
  source index s of the first row of the edge index satisfies −100000 ≤ s < 100000, so that after a negative index is
  counted from the end it names one of the 100000 rows of the node table.
-/
import proofs.«418350_j18073222382240_3_alg».proof.Proof.Spec
import proofs.«418350_j18073222382240_3_alg».proof.Pre_finite_inputs
import Idealize.ShloMosaic.Lib.ReduceAll
import Idealize.ShloMosaic.Lib.StableHlo.Predicate
import Idealize.ShloMosaic.Lib.Pipeline.Value

noncomputable section

open scoped BigOperators

namespace Cert.PreFacts

open Idealize.ShloMosaic Idealize.ShloMosaic.ValueIdx Cert.Pre_finite_inputs

/-- The scalar shape has one index. -/
theorem subsingleton_scalar_idx : Subsingleton S_.Idx := ⟨fun a b => funext fun d => d.elim0⟩

attribute [local instance] subsingleton_scalar_idx

/-- The bit pattern of +inf denotes the top extended real. -/
theorem inf_bits : Ideal.ofBits .f32 0x7F800000#32 = (⊤ : EReal) := by
  simp [Ideal.ofBits, Ideal.ieee]

/-- An extended real whose absolute value max(x, −x) is below +inf is a real number. -/
theorem real_of_abs_lt_top (x : EReal) (hx : max x (-x) < ⊤) : ∃ r : ℝ, x = (r : EReal) := by
  induction x using EReal.rec with
  | bot => simp at hx
  | coe r => exact ⟨r, rfl⟩
  | top => simp at hx

/-- jnp.all(|x| < +inf) evaluated all ones: every entry of x is a real number. Any shape, any reduced axes. -/
theorem finite_of_mask {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi (cmpf .olt (Host.absf x) (broadcastInDim s ![] hb (constant (F := Ideal) S_ .f32 0x7F800000#32)))
      init hr hu ix0 = 1#1) : Spec.Finite x := by
  intro i
  have hi := Host.reduce_andi_all _ init hr hu ix0 e i
  have hi' : Ideal.cmp .olt (max (x i) (-(x i))) (Ideal.ofBits .f32 0x7F800000#32) = 1#1 := hi
  rw [inf_bits] at hi'
  simp only [Ideal.cmp, StableHlo.Predicate.ofBool_eq_one_iff, decide_eq_true_eq] at hi'
  exact real_of_abs_lt_top _ hi'

/-- Row 0 of the edge index, sliced out and flattened, read at edge e is the entry (0, e). -/
theorem row0_apply (a2 : IVec S2x1600000 32) (hs : S2x1600000.Slices ![0, 0] S1x1600000)
    (hc : S1x1600000.ShapeCasts S1600000) (e : Fin 1600000) :
    shapeCast S1600000 (extractStridedSlice S1x1600000 ![0, 0] a2 hs) hc (ix1 e) = a2 (ix2 0 e) := by
  refine (shapeCast_apply _ hc (ix1 e) (ix2 (0 : Fin 1) e) ?_).trans ?_
  · rw [Shape.rowMajor_val_two, Shape.rowMajor_val_one]
    show (0 : ℕ) * 1600000 + e.val = e.val
    omega
  · refine extractStridedSlice_apply _ a2 hs _ (ix2 0 e) fun a => ?_
    match a with
    | ⟨0, _⟩ => rfl
    | ⟨1, _⟩ => show e.val = 0 + e.val; omega

/-- A word s with −100000 ≤ s < 100000 (signed), a negative one moved up by 100000, lies in [0, 99999]. -/
theorem wrap_range (s : BitVec 32) (hge : IntOp.cmpi .sge s 4294867296#32 = 1#1) (hlt : IntOp.cmpi .slt s 100000#32 = 1#1) :
    0 ≤ (if s.toInt < 0 then s + 100000#32 else s).toInt ∧ (if s.toInt < 0 then s + 100000#32 else s).toInt ≤ 99999 := by
  have h1 : (4294867296#32 : BitVec 32).toInt = -100000 := by decide
  have h2 : (100000#32 : BitVec 32).toInt = 100000 := by decide
  simp only [IntOp.cmpi, StableHlo.Predicate.ofBool_eq_one_iff, BitVec.sle, BitVec.slt, decide_eq_true_eq, h1, h2] at hge hlt
  split
  · rename_i hneg
    rw [BitVec.toInt_add, h2, Int.bmod_eq_of_le_mul_two (by omega) (by omega)]
    omega
  · omega

/-- The two integer conjuncts evaluated all ones: the source indices are in range. -/
theorem src_of_masks (a2 : IVec S2x1600000 32) (hs : S2x1600000.Slices ![0, 0] S1x1600000)
    (hc : S1x1600000.ShapeCasts S1600000) (hb : S_.BroadcastsInDim S1600000 (![] : Fin 0 → Fin S1600000.rank))
    (hr : S1600000.ReducesTo [0] S_) (hu : 0 < S_.numel) (init1 init2 : IVec S_ 1)
    (hge : Host.reduce IntOp.andi (cmpi .sge (shapeCast S1600000 (extractStridedSlice S1x1600000 ![0, 0] a2 hs) hc)
      (broadcastInDim S1600000 ![] hb (constantI S_ 32 4294867296#32))) init1 hr hu ix0 = 1#1)
    (hlt : Host.reduce IntOp.andi (cmpi .slt (shapeCast S1600000 (extractStridedSlice S1x1600000 ![0, 0] a2 hs) hc)
      (broadcastInDim S1600000 ![] hb (constantI S_ 32 100000#32))) init2 hr hu ix0 = 1#1) : Spec.SrcInRange a2 := by
  intro e
  have g := Host.reduce_andi_all _ init1 hr hu ix0 hge (ix1 e)
  have l := Host.reduce_andi_all _ init2 hr hu ix0 hlt (ix1 e)
  have g' : IntOp.cmpi .sge (shapeCast S1600000 (extractStridedSlice S1x1600000 ![0, 0] a2 hs) hc (ix1 e)) 4294867296#32 = 1#1 := g
  have l' : IntOp.cmpi .slt (shapeCast S1600000 (extractStridedSlice S1x1600000 ![0, 0] a2 hs) hc (ix1 e)) 100000#32 = 1#1 := l
  rw [row0_apply] at g' l'
  exact wrap_range _ g' l'

/-- From the printed precondition evaluated all ones: the float arguments that enter products of sums are finite, and
    the source indices are in the range of the node table (counting negatives from the end). -/
theorem of_pre [Cert.Pre_finite_inputs.Facts] (a0 : FVec Ideal S100000x128 .f32) (a1 : FVec Ideal S1600000x8 .f32) (a2 : IVec S2x1600000 32)
    (a3 a4 a5 : FVec Ideal S8x16 .f32) (a6 : FVec Ideal S32x4 .f32) (a7 : FVec Ideal S4x128x128 .f32)
    (a8 : FVec Ideal S128 .f32) (a9 : FVec Ideal S128x64 .f32) (a10 : FVec Ideal S64 .f32)
    (a11 : FVec Ideal S128x64 .f32) (a12 : FVec Ideal S64 .f32)
    (h : Cert.Pre_finite_inputs.fn (F := Ideal) a0 a1 a2 a3 a4 a5 a6 a7 a8 a9 a10 a11 a12 = fun _ => 1#1) :
    Spec.Finite a0 ∧ Spec.Finite a1 ∧ Spec.Finite a3 ∧ Spec.Finite a4 ∧ Spec.Finite a5 ∧ Spec.Finite a6
      ∧ Spec.Finite a7 ∧ Spec.SrcInRange a2 := by
  have h0 := congrFun h ix0
  simp only [fn, fn_part1, fn_part2, fn_part3, fn_part4, andi, IntOp.andi_eq_one] at h0
  obtain ⟨⟨⟨⟨⟨⟨⟨⟨⟨⟨⟨⟨⟨h_0, h_1⟩, h_3⟩, h_4⟩, h_5⟩, h_6⟩, h_7⟩, -⟩, -⟩, -⟩, -⟩, -⟩, h_ge⟩, h_lt⟩ := h0
  exact ⟨finite_of_mask a0 _ _ _ _ h_0, finite_of_mask a1 _ _ _ _ h_1, finite_of_mask a3 _ _ _ _ h_3,
    finite_of_mask a4 _ _ _ _ h_4, finite_of_mask a5 _ _ _ _ h_5, finite_of_mask a6 _ _ _ _ h_6,
    finite_of_mask a7 _ _ _ _ h_7, src_of_masks a2 _ _ _ _ _ _ _ h_ge h_lt⟩

end Cert.PreFacts

end
-- ==== Proof.Bridge.lean ====
/-
  THE TWO ARRANGEMENTS AGREE on finite inputs. Two laws join them. (1) A sum over the 32 concatenated columns is the sum
  over the first 16 plus the sum over the last 16: the coefficients from the two halves of W4 are the coefficients from
  the whole of W4 (no finiteness needed). (2) For real numbers, products distribute over finite sums and finite sums
  commute:  Σ_{e∈S} Σ_k c_{e,k} · (Σ_d y_{e,d} · C_{k,d,j})  =  Σ_k Σ_d (Σ_{e∈S} c_{e,k} · y_{e,d}) · C_{k,d,j};
  on the extended reals this fails at infinities, which is where the precondition is used. The bias is added on the
  right by one side and on the left by the other: addition of extended reals is commutative and associative.
-/
import proofs.«418350_j18073222382240_3_alg».proof.Proof.Spec
import Idealize.ShloMosaic.Lib.ValueIdxCoords
import Mathlib.Data.EReal.Basic
import Mathlib.Data.EReal.Operations
import Mathlib.Algebra.BigOperators.Fin
import Mathlib.Algebra.BigOperators.Ring.Finset

noncomputable section

open scoped BigOperators

namespace Cert.Spec

open Idealize.ShloMosaic Idealize.ShloMosaic.ValueIdx

namespace Bridge

/-! ## Real numbers inside the extended reals -/

/-- The inclusion of the reals carries a finite sum to the sum of the inclusions. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- Zero is a real number. -/
theorem real_zero : ∃ r : ℝ, (0 : EReal) = r := ⟨0, rfl⟩

/-- A product of two real numbers is a real number. -/
theorem real_mul {a b : EReal} (ha : ∃ r : ℝ, a = r) (hb : ∃ r : ℝ, b = r) : ∃ r : ℝ, a * b = r := by
  obtain ⟨r, rfl⟩ := ha; obtain ⟨s, rfl⟩ := hb
  exact ⟨r * s, (EReal.coe_mul r s).symm⟩

/-- A sum of two real numbers is a real number. -/
theorem real_add {a b : EReal} (ha : ∃ r : ℝ, a = r) (hb : ∃ r : ℝ, b = r) : ∃ r : ℝ, a + b = r := by
  obtain ⟨r, rfl⟩ := ha; obtain ⟨s, rfl⟩ := hb
  exact ⟨r + s, (EReal.coe_add r s).symm⟩

/-- The larger of two real numbers is a real number. -/
theorem real_max {a b : EReal} (ha : ∃ r : ℝ, a = r) (hb : ∃ r : ℝ, b = r) : ∃ r : ℝ, max a b = r := by
  obtain ⟨r, rfl⟩ := ha; obtain ⟨s, rfl⟩ := hb
  exact ⟨max r s, (EReal.coe_strictMono.monotone.map_max).symm⟩

/-- The hyperbolic tangent of a real number is a real number. -/
theorem real_tanh {a : EReal} (ha : ∃ r : ℝ, a = r) : ∃ r : ℝ, Ideal.tanh a = r := by
  obtain ⟨r, rfl⟩ := ha
  exact ⟨Real.tanh r, rfl⟩

/-- A finite sum of real numbers is a real number. -/
theorem real_sum {ι : Type*} (s : Finset ι) (f : ι → EReal) (hf : ∀ i, ∃ r : ℝ, f i = r) : ∃ r : ℝ, ∑ i ∈ s, f i = r := by
  choose g hg using hf
  exact ⟨∑ i ∈ s, g i, by rw [coe_sum]; exact Finset.sum_congr rfl fun i _ => hg i⟩

/-! ## The two laws -/

/-- One spectral coefficient: for real numbers, Σ_{e∈S} c_e · (Σ_d y_{e,d} · C_d) = Σ_d (Σ_{e∈S} c_e · y_{e,d}) · C_d. -/
theorem sum_mul_sum_comm {ι κ : Type*} [Fintype κ] (S : Finset ι) (c : ι → EReal) (y : ι → κ → EReal) (C : κ → EReal)
    (hc : ∀ e, ∃ r : ℝ, c e = r) (hy : ∀ e d, ∃ r : ℝ, y e d = r) (hC : ∀ d, ∃ r : ℝ, C d = r) :
    ∑ e ∈ S, c e * (∑ d, y e d * C d) = ∑ d, (∑ e ∈ S, c e * y e d) * C d := by
  choose cr hcr using hc
  choose yr hyr using hy
  choose Cr hCr using hC
  have hL : ∑ e ∈ S, c e * (∑ d, y e d * C d) = ((∑ e ∈ S, cr e * (∑ d, yr e d * Cr d) : ℝ) : EReal) := by
    rw [coe_sum]
    refine Finset.sum_congr rfl fun e _ => ?_
    rw [EReal.coe_mul, coe_sum, hcr e]
    congr 1
    refine Finset.sum_congr rfl fun d _ => ?_
    rw [EReal.coe_mul, hyr e d, hCr d]
  have hR : ∑ d, (∑ e ∈ S, c e * y e d) * C d = ((∑ d, (∑ e ∈ S, cr e * yr e d) * Cr d : ℝ) : EReal) := by
    rw [coe_sum]
    refine Finset.sum_congr rfl fun d _ => ?_
    rw [EReal.coe_mul, coe_sum, hCr d]
    congr 1
    refine Finset.sum_congr rfl fun e _ => ?_
    rw [EReal.coe_mul, hcr e, hyr e d]
  rw [hL, hR]
  congr 1
  simp only [Finset.mul_sum, Finset.sum_mul]
  rw [Finset.sum_comm]
  simp only [mul_assoc]

/-- The four coefficients and the bias: the scattered messages plus the bias on the right are the bias plus the four
    aggregated terms on its right, for real coefficients, rows and weights and ANY bias. -/
theorem seg_bridge {ι κ : Type*} [Fintype κ] (S : Finset ι) (c : ι → Fin 4 → EReal) (y : ι → κ → EReal)
    (C : Fin 4 → κ → EReal) (b : EReal)
    (hc : ∀ e k, ∃ r : ℝ, c e k = r) (hy : ∀ e d, ∃ r : ℝ, y e d = r) (hC : ∀ k d, ∃ r : ℝ, C k d = r) :
    (∑ e ∈ S, (c e 0 * (∑ d, y e d * C 0 d) + c e 1 * (∑ d, y e d * C 1 d) + c e 2 * (∑ d, y e d * C 2 d)
        + c e 3 * (∑ d, y e d * C 3 d))) + b
      = b + (∑ d, (∑ e ∈ S, c e 0 * y e d) * C 0 d) + (∑ d, (∑ e ∈ S, c e 1 * y e d) * C 1 d)
        + (∑ d, (∑ e ∈ S, c e 2 * y e d) * C 2 d) + (∑ d, (∑ e ∈ S, c e 3 * y e d) * C 3 d) := by
  have key : ∀ k : Fin 4, ∑ e ∈ S, c e k * (∑ d, y e d * C k d) = ∑ d, (∑ e ∈ S, c e k * y e d) * C k d :=
    fun k => sum_mul_sum_comm S (fun e => c e k) y (C k) (fun e => hc e k) hy (hC k)
  rw [Finset.sum_add_distrib, Finset.sum_add_distrib, Finset.sum_add_distrib, key 0, key 1, key 2, key 3]
  rw [add_comm]
  simp only [add_assoc]

/-! ## The coefficients -/

/-- The coefficients from the two halves of W4 are the coefficients from the whole of W4. -/
theorem coefHalves_eq_coef {R : Nat} (ea : A2 R 8) (w1 w2 w3 : A2 8 16) (w4 : A2 32 4) (e : Fin R) (k : Fin 4) :
    coefHalves ea w1 w2 w3 (w4top w4) (w4bot w4) e k = coef ea w1 w2 w3 w4 e k := by
  unfold coefHalves coef
  refine congrArg (fun t => max t 0) ?_
  rw [Fin.sum_univ_add (a := 16) (b := 16) (fun j : Fin 32 => cat ea w1 w2 w3 e j * w4 (ix2 j k))]
  refine congrArg₂ (· + ·) ?_ ?_
  · refine Finset.sum_congr rfl fun j _ => ?_
    have hj : (Fin.castAdd 16 j).val < 16 := j.isLt
    unfold cat
    rw [dif_pos hj]
    rfl
  · refine Finset.sum_congr rfl fun j _ => ?_
    have hj : ¬ (Fin.natAdd 16 j).val < 16 := by simp [Fin.natAdd]
    unfold cat
    rw [dif_neg hj]
    have h1 : (⟨(Fin.natAdd 16 j).val - 16, by have := (Fin.natAdd 16 j).isLt; omega⟩ : Fin 16) = j := by
      apply Fin.ext; simp [Fin.natAdd]
    rw [h1]
    rfl

/-- Every coefficient is a real number when the edge attributes and the four matrices are finite. -/
theorem coef_real {R : Nat} (ea : A2 R 8) (w1 w2 w3 : A2 8 16) (w4 : A2 32 4)
    (hea : Finite ea) (hw1 : Finite w1) (hw2 : Finite w2) (hw3 : Finite w3) (hw4 : Finite w4) (e : Fin R) (k : Fin 4) :
    ∃ r : ℝ, coef ea w1 w2 w3 w4 e k = r := by
  unfold coef
  refine real_max (real_sum _ _ fun j => real_mul ?_ (hw4 _)) real_zero
  unfold cat
  split
  · unfold lin
    exact real_max (real_sum _ _ fun i => real_mul (hea _) (hw1 _)) real_zero
  · unfold gat
    exact real_mul (real_tanh (real_sum _ _ fun i => real_mul (hea _) (hw2 _)))
      (real_tanh (real_sum _ _ fun i => real_mul (hea _) (hw3 _)))

/-! ## One entry of the rectified block -/

/-- Node n, output feature q: the scattered messages plus the bias are the reference's pre-activation. -/
theorem pre_eq (c : Fin EE → Fin 4 → EReal) (y : A2 EE 128) (idx : I2 2 EE) (cw : A3 4 128 128) (cb : Fin 128 → EReal)
    (hc : ∀ e k, ∃ r : ℝ, c e k = r) (hy : Finite y) (hcw : Finite cw) (n : Fin NN) (q : Fin 128) :
    segSum idx (msg c y cw) (ix2 n q) + cb q = preR c y idx cw cb n q := by
  unfold preR agg segSum msg
  exact seg_bridge _ c (fun e d => y (ix2 e d)) (fun k d => cw (ix3 k d q)) (cb q) hc (fun e d => hy _) (fun k d => hcw _)

end Bridge

/-- The kernel's arrangement of the result is the reference's, when the node features, the edge attributes, the four
    edge-transform matrices and the convolution weights are finite. -/
theorem outK_eq_outR (x : A2 NN 128) (ea : A2 EE 8) (idx : I2 2 EE) (w1 w2 w3 : A2 8 16) (w4 : A2 32 4)
    (cw : A3 4 128 128) (cb : A1 128) (sw1 : A2 128 64) (sb1 : A1 64) (sw2 : A2 128 64) (sb2 : A1 64)
    (hx : Finite x) (hea : Finite ea) (hw1 : Finite w1) (hw2 : Finite w2) (hw3 : Finite w3) (hw4 : Finite w4)
    (hcw : Finite cw) :
    outK x ea idx w1 w2 w3 w4 cw cb sw1 sb1 sw2 sb2 = outR x ea idx w1 w2 w3 w4 cw cb sw1 sb1 sw2 sb2 := by
  have hcoef : coefHalves ea w1 w2 w3 (w4top w4) (w4bot w4) = coef ea w1 w2 w3 w4 :=
    funext fun e => funext fun k => Bridge.coefHalves_eq_coef ea w1 w2 w3 w4 e k
  have hxj : Finite (xj x idx) := fun i => hx _
  funext i
  obtain ⟨n, q, rfl⟩ : ∃ n q, i = ix2 n q := ⟨i 0, i 1, eq_ix2 i⟩
  unfold outK fin outR
  simp only [ix2_0, ix2_1]
  by_cases h : q.val < 128
  · rw [dif_pos h, dif_pos h, hcoef]
    exact congrArg (fun t => max t 0) (Bridge.pre_eq (coef ea w1 w2 w3 w4) (xj x idx) idx cw (fun j => cb (ix1 j))
      (Bridge.coef_real ea w1 w2 w3 w4 hea hw1 hw2 hw3 hw4) hxj hcw n ⟨q.val, h⟩)
  · rw [dif_neg h, dif_neg h]

end Cert.Spec

end
-- ==== Proof.LibRowGatherScatter.lean ====
/-
  GENERAL LEMMAS: two indexed host operations, the broadcasts that feed them, and two small companions, each READ AT AN
  INDEX over the extended reals, for ARBITRARY extents N (table rows), E (edges) and D (features).

  * the row gather (`x[idx]` of an [N, D] table at a column [E, 1] of start words: `rowGather`, `rowGather_apply`):
    result (e, q) is the table at (the start word of edge e read signed and clamped into the rows [0, N − 1], q);
  * the accumulating row scatter (`segment_sum` / `.at[idx].add` of [E, D] updates into an [N, D] operand at a column
    [E, 1] of start words: `rowScatter`, `rowScatter_resultIdx_iff`, `rowScatterAdd_apply`): update (e, q') lands at
    (the start word of edge e read signed and NOT clamped, q'), or nowhere when that is no row; so result (d, q) is the
    operand's entry plus the sum over the edges whose word, read signed, is d of update (e, q);
  * a scalar, a vector as a column, a column over the features, a vector as a row and a row over the rows, each
    broadcast read at an index (`bcastScalar_apply` … `bcastRows_apply`);
  * jnp's index normalisation as a select (`wrap_select`: a negative word counts from the end) and the maximum with a
    broadcast zero (`reluOps_apply`).
  Nothing here mentions a program: the dimension-number records are built from a well-formedness fact the caller has.
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

/-! ## The row gather -/

section Gather
variable {α : Type}

/-- The dimension numbers of a gather of whole rows of an [N, D] table at a column [E, 1] of start words:
    the row axis collapsed and indexed, the feature axis an offset axis. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, q): the table at the clamped signed start word of e, feature q. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same with the start word of e named: the form a caller uses when the start words are themselves computed. -/
theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

/-! ## The accumulating row scatter -/

section Scatter

/-- The dimension numbers of a scatter of whole rows [E, D] into an [N, D] operand at a column [E, 1] of start
    words: the feature axis a window axis, the row axis inserted and indexed. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

/-- On the row axis the window of update (e, q') starts at the start word of e, read signed … -/
theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the feature axis at 0. -/
theorem rowScatter_start_one (e : Fin E) (q' : Fin D) :
    (rowScatter N E D wf).start (ix2 e q') idx 1 = 0 := by
  unfold ScatterDims.start
  rw [dif_neg (show (1 : Fin 2) ∉ [(0 : Fin 2)] by decide)]

/-- The window coordinate of update (e, q') is 0 on the row axis … -/
theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

/-- … and q' on the feature axis. -/
theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

/-- Update (e, q') lands at (d, q) exactly when the start word of e, read signed, is d and q' = q. -/
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

/-- THE ACCUMULATING ROW SCATTER AT (d, q): the operand's entry plus the sum, over the edges whose start word read
    signed is d, of update (e, q). The sum over the rank-2 update indices that land at (d, q) is split by
    coordinates; in the inner sum over features only q' = q survives. -/
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

/-! ## Broadcasts read at an index -/

section Broadcasts
variable {α : Type}

/-- A scalar spread over any shape reads the scalar everywhere. -/
theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

/-- A vector as a column [E, 1], at (e, 0): the vector at e. -/
theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

/-- A column [E, 1] spread over D features, at (e, q): the column at (e, 0). -/
theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

/-- A vector [D] as a row [1, D], at (0, q): the vector at q. -/
theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

/-- A row [1, D] spread over N rows, at (d, q): the row at (0, q). -/
theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

/-! ## The start word of a row lookup: a negative word counts from the end -/

/-- The select on "the word is negative" between the word plus the row count and the word itself. -/
theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

/-! ## The rectifier read at an index -/

/-- The maximum with a zero scalar spread over the shape is the maximum with 0, entry by entry. -/
theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.HostValue.lean ====
/-
  THE ROW LOOKUP BEFORE REGION 0, READ AS A VALUE. The lookup x[src] takes row 0 of the edge index as the source
  words, counts a negative word from the end (adds the row count 100000), gathers the table's row at each start word
  clamped into [0, 99999], and keeps the gathered row only where the start word itself lies in [0, 99999]; elsewhere it
  writes the not-a-number pattern. Under the range hypothesis every mask bit is 1, so the buffer region 0 reads as its
  gathered rows holds, at (e, q), the table at (the row the start word of e names, q).
-/
import proofs.«418350_j18073222382240_3_alg».proof.Proof.Spec
import proofs.«418350_j18073222382240_3_alg».proof.Proof.LibRowGatherScatter
import proofs.«418350_j18073222382240_3_alg».proof.Proof.Gen.KernelIdeal.Frame
import Idealize.ShloMosaic.Lib.Pipeline.Value
import Idealize.ShloMosaic.Lib.StableHlo.Run

noncomputable section

open scoped BigOperators

namespace Cert.KernelIdeal.HostValue

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

namespace Lookup

/-! ## The lookup's operations, as functions of the table and of the source words -/

/-- Row 0 of the edge index as a vector: the source words. -/
def srcRow (idx : IVec S2x1600000 32) : IVec S1600000 32 :=
  shapeCast S1600000 (extractStridedSlice S1x1600000 ![0, 0] idx slices_S2x1600000_S1x1600000_0_0) shapeCasts_S1x1600000_S1600000

/-- The start words: a negative word counted from the end. -/
def startWords (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- The start words as a column. -/
def startCol (s : IVec S1600000 32) : IVec S1600000x1 32 :=
  broadcastInDim S1600000x1 ![0] bcast_S1600000_S1600000x1_0 (startWords s)

/-- The range mask of a column of start words: per edge, "0 ≤ word ≤ 99999", and-ed over the column's one entry. -/
def rangeMask (col : IVec S1600000x1 32) : IVec S1600000 1 :=
  Host.reduce IntOp.andi
    (andi (cmpi .sge col (broadcastInDim S1600000x1 ![] bcast_S_S1600000x1 (constantI S_ 32 0#32)))
      (cmpi .sle col (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The looked-up rows: the gathered row where the mask holds, the not-a-number pattern elsewhere. -/
def lookedUp (x : FVec Ideal S100000x128 .f32) (s : IVec S1600000 32) : FVec Ideal S1600000x128 .f32 :=
  select (broadcastInDim S1600000x128 ![0] bcast_S1600000_S1600000x128_0 (rangeMask (startCol s)))
    (Host.gather gather_S100000x128_S1600000x1_S1600000x128_1_0_n_n_0_1_1128 x (startCol s))
    (broadcastInDim S1600000x128 ![] bcast_S_S1600000x128 (constant (F := Ideal) S_ .f32 0x7FC00000#32))

/-! ## The buffers' contents as those functions -/

/-- A transport there and back is the identity. -/
theorem cast_cast_self {A B : Type} (h : A = B) (h' : B = A) (v : A) : cast h' (cast h v) = v := by
  subst h; rfl

/-- What the lookup's 23 operations leave in its result buffer, from any contents: the looked-up rows of the table
    buffer's contents at the source-word buffer's contents (each read, and the result written, at its buffer's type). -/
theorem take_term (W : Valuation τ sig (Elt Ideal)) :
    StableHlo.after hostOps0_1 W (Proc.devRef .tc main_v6)
      = (StableHlo.TRef.of main_v6 : StableHlo.TRef sig ⟨S1600000x128, .f32⟩).toBuf
          (lookedUp ((StableHlo.TRef.of main_arg0 : StableHlo.TRef sig ⟨S100000x128, .f32⟩).ofBuf (W (Proc.devRef .tc main_arg0)))
            ((StableHlo.TRef.of main_v3 : StableHlo.TRef sig ⟨S1600000, .i32⟩).ofBuf (W (Proc.devRef .tc main_v3)))) := by
  after_results_simp
  simp only [cast_cast_self]
  unfold lookedUp rangeMask startCol startWords
  rfl

/-- At these three buffers the buffer's type is the value's: the transports are the identity. -/
theorem toBuf_v6 (v : FVec Ideal S1600000x128 .f32) :
    (StableHlo.TRef.of main_v6 : StableHlo.TRef sig ⟨S1600000x128, .f32⟩).toBuf (Val := Elt Ideal) v = v := rfl
theorem ofBuf_arg0 (v : FVec Ideal S100000x128 .f32) :
    (StableHlo.TRef.of main_arg0 : StableHlo.TRef sig ⟨S100000x128, .f32⟩).ofBuf (Val := Elt Ideal) v = v := rfl
theorem ofBuf_v3 (v : IVec S1600000 32) :
    (StableHlo.TRef.of main_v3 : StableHlo.TRef sig ⟨S1600000, .i32⟩).ofBuf (Val := Elt Ideal) v = v := rfl

/-- Before the lookup the source-word buffer holds row 0 of the edge index … -/
theorem src_term : W1 m ρ c (Proc.devRef .tc main_v3) = srcRow (m ((c : Thread nD τ).loc main_arg2)) := by
  show StableHlo.after hostOps0 (W0 m ρ c) (Proc.devRef .tc main_v3) = _
  after_results
  rfl

/-- … and the table buffer the table, which no operation before it writes. -/
theorem tab_term : W1 m ρ c (Proc.devRef .tc main_arg0) = m ((c : Thread nD τ).loc main_arg0) := by
  show StableHlo.after hostOps0 (W0 m ρ c) (Proc.devRef .tc main_arg0) = _
  after_results

/-! ## The operations read at an index -/

/-- The source words: entry e is the edge index at (0, e). -/
theorem srcRow_apply (idx : IVec S2x1600000 32) (e : Fin 1600000) : srcRow idx (ix1 e) = idx (ix2 0 e) := by
  unfold srcRow
  refine (shapeCast_apply _ _ (ix1 e) (ix2 0 e) ?_).trans ?_
  · rw [Shape.rowMajor_val_two, Shape.rowMajor_val_one]
    show (0 : ℕ) * 1600000 + e.val = e.val
    omega
  · refine extractStridedSlice_apply _ _ _ _ (ix2 0 e) fun a => ?_
    match a with
    | ⟨0, _⟩ => rfl
    | ⟨1, _⟩ => show e.val = 0 + e.val; omega

/-- The start word of edge e: the word, a negative one with the row count added. -/
theorem startWords_apply (s : IVec S1600000 32) (e : Fin 1600000) :
    startWords s (ix1 e) = if (s (ix1 e)).toInt < 0 then s (ix1 e) + 100000#32 else s (ix1 e) := by
  show Scalar.select (IntOp.cmpi .slt (s (ix1 e)) 0#32) (IntOp.addi (s (ix1 e)) 100000#32) (s (ix1 e)) = _
  exact Cert.ReferenceIdeal.Hand.wrap_select (s (ix1 e)) 100000#32

/-- The column of start words at (e, 0). -/
theorem startCol_apply (s : IVec S1600000 32) (e : Fin 1600000) : startCol s (ix2 e 0) = startWords s (ix1 e) :=
  Cert.ReferenceIdeal.Hand.bcastCol_apply _ _ e 0

/-- A left fold by and over one-bit words that are all 1, from 1, is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, (by decide : IntOp.andi 1#1 1#1 = 1#1)]
    exact foldl_andi_one f hf l

/-- The range mask is 1 at every edge when every start word lies in [0, 99999]. -/
theorem rangeMask_eq_one (col : IVec S1600000x1 32)
    (hcol : ∀ e : Fin 1600000, 0 ≤ (col (ix2 e 0)).toInt ∧ (col (ix2 e 0)).toInt ≤ 99999) (e : Fin 1600000) :
    rangeMask col (ix1 e) = 1#1 := by
  unfold rangeMask
  rw [Host.reduce_eq_foldl]
  refine foldl_andi_one _ (fun i => ?_) _
  obtain ⟨e', z, rfl⟩ : ∃ (e' : Fin 1600000) (z : Fin 1), i = ix2 e' z := ⟨i 0, i 1, eq_ix2 i⟩
  obtain rfl : z = 0 := Subsingleton.elim _ _
  show IntOp.andi (IntOp.cmpi .sge (col (ix2 e' 0)) 0#32) (IntOp.cmpi .sle (col (ix2 e' 0)) 99999#32) = 1#1
  rw [IntOp.andi_eq_one]
  refine ⟨IntOp.cmpi_sge.mpr ?_, IntOp.cmpi_sle.mpr ?_⟩
  · rw [(by decide : (0#32 : BitVec 32).toInt = 0)]; exact (hcol e').1
  · rw [(by decide : (99999#32 : BitVec 32).toInt = 99999)]; exact (hcol e').2

/-- A vector over the edges spread over the features, at (e, q): the vector at e. -/
theorem bcastEdge_apply {α : Type} (hb : S1600000.BroadcastsInDim S1600000x128 ![0]) (v : S1600000.Idx → α)
    (e : Fin 1600000) (q : Fin 128) : broadcastInDim S1600000x128 ![0] hb v (ix2 e q) = v (ix1 e) := by
  refine broadcastInDim_apply _ hb v _ (ix1 e) fun a => ?_
  match a with
  | ⟨0, _⟩ =>
    show e.val = if 1600000 = 1 then 0 else e.val
    exact (if_neg (by decide)).symm

/-- THE LOOKED-UP ROWS UNDER THE RANGE HYPOTHESIS: every mask bit is 1, so entry (e, q) is the gathered one, the
    table at (the start word of e clamped into the rows, q) — and the clamp is the specification's. -/
theorem lookedUp_eq (x : FVec Ideal S100000x128 .f32) (idx : IVec S2x1600000 32) (h : Spec.SrcInRange idx) :
    lookedUp x (srcRow idx) = Spec.xj x idx := by
  have hw : ∀ e : Fin 1600000, startCol (srcRow idx) (ix2 e 0) = Spec.srcWord idx e := fun e => by
    rw [startCol_apply, startWords_apply, srcRow_apply]; rfl
  funext i
  obtain ⟨e, q, rfl⟩ : ∃ (e : Fin 1600000) (q : Fin 128), i = ix2 e q := ⟨i 0, i 1, eq_ix2 i⟩
  have hmask : rangeMask (startCol (srcRow idx)) (ix1 e) = 1#1 :=
    rangeMask_eq_one _ (fun e' => by rw [hw e']; exact h e') e
  have hG : gather_S100000x128_S1600000x1_S1600000x128_1_0_n_n_0_1_1128
      = Cert.ReferenceIdeal.Hand.rowGather 100000 1600000 128 gather_S100000x128_S1600000x1_S1600000x128_1_0_n_n_0_1_1128_wf := rfl
  unfold lookedUp
  rw [select_apply, bcastEdge_apply, hmask, select_one, hG,
    Cert.ReferenceIdeal.Hand.rowGather_apply_of_eq (by decide) _ x (startCol (srcRow idx)) e q _ (hw e)]
  show _ = x (ix2 (Spec.rowOf (Spec.srcWord idx e)) q)
  rfl

end Lookup

/-! ## At the entry of region 0 -/

/-- The looked-up source rows, when every start word names a row. -/
theorem V2_v6 (h : Spec.SrcInRange (m ((c : Thread nD τ).loc main_arg2))) :
    (V2 m ρ c main_v6 : Spec.A2 Spec.EE 128)
      = Spec.xj (m ((c : Thread nD τ).loc main_arg0)) (m ((c : Thread nD τ).loc main_arg2)) := by
  show StableHlo.after hostOps0_1 (W1 m ρ c) (Proc.devRef .tc main_v6) = _
  rw [Lookup.take_term, Lookup.toBuf_v6, Lookup.ofBuf_arg0, Lookup.ofBuf_v3, Lookup.src_term, Lookup.tab_term]
  exact Lookup.lookedUp_eq _ _ h

end Cert.KernelIdeal.HostValue

end
-- ==== Proof.HostValueA.lean ====
/-
  THE HOST OPERATIONS BEFORE REGION 0, READ AS VALUES (all but the row lookup): the two halves of W4 are its rows 0–15
  and 16–31; the edge attributes, the three 8×16 matrices and the convolution weights are arguments that no operation
  before the region writes.
-/
import proofs.«418350_j18073222382240_3_alg».proof.Proof.Spec
import proofs.«418350_j18073222382240_3_alg».proof.Proof.Gen.KernelIdeal.Frame
import Idealize.ShloMosaic.Lib.Pipeline.Value
import Idealize.ShloMosaic.Lib.StableHlo.Run

noncomputable section

open scoped BigOperators

namespace Cert.KernelIdeal.HostValue

open Idealize.ShloMosaic Idealize.ShloMosaic.TcCoe Idealize.ShloMosaic.ValueIdx Idealize.SL.Sem Cert.KernelIdeal Cert.KernelIdeal.Gen
open Idealize.ShloMosaic.StableHlo

variable (m : (ℓ : Loc nD τ sig) → Buf (Elt Ideal) ℓ) (ρ : Dev nD → PrngReg) (c : Dev nD)

/-- A buffer that no operation of a stretch writes keeps its contents across the stretch: each operation's result
    buffer is another reference. -/
local macro "unwritten" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Arguments that nothing writes before region 0 -/

theorem V2_arg1 : V2 m ρ c main_arg1 = m ((c : Thread nD τ).loc main_arg1) :=
  calc V2 m ρ c main_arg1
    _ = W1 m ρ c (Proc.devRef .tc main_arg1) := by
          show StableHlo.after hostOps0_1 (W1 m ρ c) (Proc.devRef .tc main_arg1) = _
          unwritten hostOps0_1
    _ = W0 m ρ c (Proc.devRef .tc main_arg1) := by
          show StableHlo.after hostOps0 (W0 m ρ c) (Proc.devRef .tc main_arg1) = _
          unwritten hostOps0
    _ = m ((c : Thread nD τ).loc main_arg1) := rfl

theorem V2_arg3 : V2 m ρ c main_arg3 = m ((c : Thread nD τ).loc main_arg3) :=
  calc V2 m ρ c main_arg3
    _ = W1 m ρ c (Proc.devRef .tc main_arg3) := by
          show StableHlo.after hostOps0_1 (W1 m ρ c) (Proc.devRef .tc main_arg3) = _
          unwritten hostOps0_1
    _ = W0 m ρ c (Proc.devRef .tc main_arg3) := by
          show StableHlo.after hostOps0 (W0 m ρ c) (Proc.devRef .tc main_arg3) = _
          unwritten hostOps0
    _ = m ((c : Thread nD τ).loc main_arg3) := rfl

theorem V2_arg4 : V2 m ρ c main_arg4 = m ((c : Thread nD τ).loc main_arg4) :=
  calc V2 m ρ c main_arg4
    _ = W1 m ρ c (Proc.devRef .tc main_arg4) := by
          show StableHlo.after hostOps0_1 (W1 m ρ c) (Proc.devRef .tc main_arg4) = _
          unwritten hostOps0_1
    _ = W0 m ρ c (Proc.devRef .tc main_arg4) := by
          show StableHlo.after hostOps0 (W0 m ρ c) (Proc.devRef .tc main_arg4) = _
          unwritten hostOps0
    _ = m ((c : Thread nD τ).loc main_arg4) := rfl

theorem V2_arg5 : V2 m ρ c main_arg5 = m ((c : Thread nD τ).loc main_arg5) :=
  calc V2 m ρ c main_arg5
    _ = W1 m ρ c (Proc.devRef .tc main_arg5) := by
          show StableHlo.after hostOps0_1 (W1 m ρ c) (Proc.devRef .tc main_arg5) = _
          unwritten hostOps0_1
    _ = W0 m ρ c (Proc.devRef .tc main_arg5) := by
          show StableHlo.after hostOps0 (W0 m ρ c) (Proc.devRef .tc main_arg5) = _
          unwritten hostOps0
    _ = m ((c : Thread nD τ).loc main_arg5) := rfl

theorem V2_arg7 : V2 m ρ c main_arg7 = m ((c : Thread nD τ).loc main_arg7) :=
  calc V2 m ρ c main_arg7
    _ = W1 m ρ c (Proc.devRef .tc main_arg7) := by
          show StableHlo.after hostOps0_1 (W1 m ρ c) (Proc.devRef .tc main_arg7) = _
          unwritten hostOps0_1
    _ = W0 m ρ c (Proc.devRef .tc main_arg7) := by
          show StableHlo.after hostOps0 (W0 m ρ c) (Proc.devRef .tc main_arg7) = _
          unwritten hostOps0
    _ = m ((c : Thread nD τ).loc main_arg7) := rfl

/-! ## The two halves of W4 -/

/-- The top half of W4: entry (j, k) is W4 at (j, k). -/
theorem V2_v0 : (V2 m ρ c main_v0 : Spec.A2 16 4) = Spec.w4top (m ((c : Thread nD τ).loc main_arg6)) := by
  have e1 : V2 m ρ c main_v0 = W1 m ρ c (Proc.devRef .tc main_v0) := by
    show StableHlo.after hostOps0_1 (W1 m ρ c) (Proc.devRef .tc main_v0) = _
    unwritten hostOps0_1
  have e0 : W1 m ρ c (Proc.devRef .tc main_v0)
      = extractStridedSlice S16x4 ![0, 0] (m ((c : Thread nD τ).loc main_arg6)) slices_S32x4_S16x4_0_0 := by
    show StableHlo.after hostOps0 (W0 m ρ c) (Proc.devRef .tc main_v0) = _
    after_results
  rw [e1, e0]
  funext i
  unfold Spec.w4top
  refine extractStridedSlice_apply _ _ _ _ _ fun a => ?_
  match a with
  | ⟨0, _⟩ => show (i 0).val = 0 + (i 0).val; omega
  | ⟨1, _⟩ => show (i 1).val = 0 + (i 1).val; omega

/-- The bottom half of W4: entry (j, k) is W4 at (16 + j, k). -/
theorem V2_v1 : (V2 m ρ c main_v1 : Spec.A2 16 4) = Spec.w4bot (m ((c : Thread nD τ).loc main_arg6)) := by
  have e1 : V2 m ρ c main_v1 = W1 m ρ c (Proc.devRef .tc main_v1) := by
    show StableHlo.after hostOps0_1 (W1 m ρ c) (Proc.devRef .tc main_v1) = _
    unwritten hostOps0_1
  have e0 : W1 m ρ c (Proc.devRef .tc main_v1)
      = extractStridedSlice S16x4 ![16, 0] (m ((c : Thread nD τ).loc main_arg6)) slices_S32x4_S16x4_16_0 := by
    show StableHlo.after hostOps0 (W0 m ρ c) (Proc.devRef .tc main_v1) = _
    after_results
  rw [e1, e0]
  funext i
  unfold Spec.w4bot
  refine extractStridedSlice_apply _ _ _ _ _ fun a => ?_
  match a with
  | ⟨0, _⟩ => show 16 + (i 0).val = 16 + (i 0).val; rfl
  | ⟨1, _⟩ => show (i 1).val = 0 + (i 1).val; omega

end Cert.KernelIdeal.HostValue

end
-- ==== Proof.HostValueB.lean ====
/-
  THE HOST OPERATIONS BETWEEN THE TWO REGIONS, READ AS VALUES: the scatter adds message e into the row its destination
  word names, starting from zeros, so row n holds the sum of region 0's output rows of the edges whose destination is n;
  the three biases are reshaped to one-row matrices; the other operands of region 1 (the node features and the two
  skip matrices) are arguments that no operation and no region writes.
-/
import proofs.«418350_j18073222382240_3_alg».proof.Proof.Spec
import proofs.«418350_j18073222382240_3_alg».proof.Proof.LibRowGatherScatter
import proofs.«418350_j18073222382240_3_alg».proof.Proof.Gen.KernelIdeal.Frame
import Idealize.ShloMosaic.Lib.Pipeline.Value
import Idealize.ShloMosaic.Lib.ValueLayout
import Idealize.ShloMosaic.Lib.StableHlo.Run

noncomputable section

open scoped BigOperators

namespace Cert.KernelIdeal.HostValue

open Idealize.ShloMosaic Idealize.ShloMosaic.TcCoe Idealize.ShloMosaic.ValueIdx Idealize.SL.Sem Cert.KernelIdeal Cert.KernelIdeal.Gen
open Idealize.ShloMosaic.StableHlo

variable (m : (ℓ : Loc nD τ sig) → Buf (Elt Ideal) ℓ) (ρ : Dev nD → PrngReg) (c : Dev nD)

/-- A buffer that no operation of a stretch writes keeps its contents across the stretch: each operation's result
    buffer is another reference. -/
local macro "unwritten" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Arguments that nothing writes before region 1

A buffer that is neither written by the two stretches before region 0 nor an array of region 0 holds at region 0's
exit what it held at launch. -/

theorem W3_arg0 : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := by
          show StableHlo.after hostOps0_1 (W1 m ρ c) (Proc.devRef .tc main_arg0) = _
          unwritten hostOps0_1
    _ = W0 m ρ c (Proc.devRef .tc main_arg0) := by
          show StableHlo.after hostOps0 (W0 m ρ c) (Proc.devRef .tc main_arg0) = _
          unwritten hostOps0
    _ = m ((c : Thread nD τ).loc main_arg0) := rfl

theorem W3_arg9 : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := by
          show StableHlo.after hostOps0_1 (W1 m ρ c) (Proc.devRef .tc main_arg9) = _
          unwritten hostOps0_1
    _ = W0 m ρ c (Proc.devRef .tc main_arg9) := by
          show StableHlo.after hostOps0 (W0 m ρ c) (Proc.devRef .tc main_arg9) = _
          unwritten hostOps0
    _ = m ((c : Thread nD τ).loc main_arg9) := rfl

theorem W3_arg11 : W3 m ρ c (Proc.devRef .tc main_arg11) = m ((c : Thread nD τ).loc main_arg11) :=
  calc W3 m ρ c (Proc.devRef .tc main_arg11)
    _ = W2 m ρ c (Proc.devRef .tc main_arg11) := W3_of_ne m ρ c main_arg11 (by decide)
    _ = W1 m ρ c (Proc.devRef .tc main_arg11) := by
          show StableHlo.after hostOps0_1 (W1 m ρ c) (Proc.devRef .tc main_arg11) = _
          unwritten hostOps0_1
    _ = W0 m ρ c (Proc.devRef .tc main_arg11) := by
          show StableHlo.after hostOps0 (W0 m ρ c) (Proc.devRef .tc main_arg11) = _
          unwritten hostOps0
    _ = m ((c : Thread nD τ).loc main_arg11) := rfl

theorem W3_arg8 : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := by
          show StableHlo.after hostOps0_1 (W1 m ρ c) (Proc.devRef .tc main_arg8) = _
          unwritten hostOps0_1
    _ = W0 m ρ c (Proc.devRef .tc main_arg8) := by
          show StableHlo.after hostOps0 (W0 m ρ c) (Proc.devRef .tc main_arg8) = _
          unwritten hostOps0
    _ = m ((c : Thread nD τ).loc main_arg8) := rfl

theorem W3_arg10 : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := by
          show StableHlo.after hostOps0_1 (W1 m ρ c) (Proc.devRef .tc main_arg10) = _
          unwritten hostOps0_1
    _ = W0 m ρ c (Proc.devRef .tc main_arg10) := by
          show StableHlo.after hostOps0 (W0 m ρ c) (Proc.devRef .tc main_arg10) = _
          unwritten hostOps0
    _ = m ((c : Thread nD τ).loc main_arg10) := rfl

theorem W3_arg12 : W3 m ρ c (Proc.devRef .tc main_arg12) = m ((c : Thread nD τ).loc main_arg12) :=
  calc W3 m ρ c (Proc.devRef .tc main_arg12)
    _ = W2 m ρ c (Proc.devRef .tc main_arg12) := W3_of_ne m ρ c main_arg12 (by decide)
    _ = W1 m ρ c (Proc.devRef .tc main_arg12) := by
          show StableHlo.after hostOps0_1 (W1 m ρ c) (Proc.devRef .tc main_arg12) = _
          unwritten hostOps0_1
    _ = W0 m ρ c (Proc.devRef .tc main_arg12) := by
          show StableHlo.after hostOps0 (W0 m ρ c) (Proc.devRef .tc main_arg12) = _
          unwritten hostOps0
    _ = m ((c : Thread nD τ).loc main_arg12) := rfl

theorem V4_arg0 : V4 m ρ c main_arg0 = m ((c : Thread nD τ).loc main_arg0) := by
  refine Eq.trans ?_ (W3_arg0 m ρ c)
  show StableHlo.after hostOps1 (W3 m ρ c) (Proc.devRef .tc main_arg0) = _
  unwritten hostOps1

theorem V4_arg9 : V4 m ρ c main_arg9 = m ((c : Thread nD τ).loc main_arg9) := by
  refine Eq.trans ?_ (W3_arg9 m ρ c)
  show StableHlo.after hostOps1 (W3 m ρ c) (Proc.devRef .tc main_arg9) = _
  unwritten hostOps1

theorem V4_arg11 : V4 m ρ c main_arg11 = m ((c : Thread nD τ).loc main_arg11) := by
  refine Eq.trans ?_ (W3_arg11 m ρ c)
  show StableHlo.after hostOps1 (W3 m ρ c) (Proc.devRef .tc main_arg11) = _
  unwritten hostOps1

/-! ## The destination words -/

/-- The destination column's source: row 1 of the edge index, sliced and reshaped to a vector before region 0 and
    untouched since. At edge e it is the edge index at (1, e). -/
theorem W3_v5_apply (e : Fin 1600000) :
    (W3 m ρ c (Proc.devRef .tc main_v5) : IVec S1600000 32) (ix1 e)
      = (m ((c : Thread nD τ).loc main_arg2) : Spec.I2 2 Spec.EE) (ix2 1 e) := by
  have e3 : W3 m ρ c (Proc.devRef .tc main_v5) = W1 m ρ c (Proc.devRef .tc main_v5) :=
    calc W3 m ρ c (Proc.devRef .tc main_v5)
      _ = W2 m ρ c (Proc.devRef .tc main_v5) := W3_of_ne m ρ c main_v5 (by decide)
      _ = W1 m ρ c (Proc.devRef .tc main_v5) := by
            show StableHlo.after hostOps0_1 (W1 m ρ c) (Proc.devRef .tc main_v5) = _
            unwritten hostOps0_1
  have e1 : W1 m ρ c (Proc.devRef .tc main_v5)
      = shapeCast S1600000 (extractStridedSlice S1x1600000 ![1, 0] (m ((c : Thread nD τ).loc main_arg2)) slices_S2x1600000_S1x1600000_1_0)
          shapeCasts_S1x1600000_S1600000 := by
    show StableHlo.after hostOps0 (W0 m ρ c) (Proc.devRef .tc main_v5) = _
    after_results
    rfl
  rw [e3, e1]
  refine (shapeCast_1a_a_apply _ _ e).trans ?_
  refine extractStridedSlice_apply _ _ _ _ (ix2 1 e) fun a => ?_
  match a with
  | ⟨0, _⟩ => rfl
  | ⟨1, _⟩ => show e.val = 0 + e.val; omega

/-! ## The scattered messages -/

/-- The scattered messages: row n is the sum of region 0's output rows of the edges whose destination is n. -/
theorem V4_v10 : (V4 m ρ c main_v10 : Spec.A2 Spec.NN 128)
    = Spec.segSum (m ((c : Thread nD τ).loc main_arg2)) ((dat0 (F := Ideal) (V2 m ρ) c).arrAt 8 cfg0.N : Spec.A2 Spec.EE 128) := by
  have e : V4 m ρ c main_v10
      = Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (W3 m ρ c (Proc.devRef .tc main_v5)))
          (W3 m ρ c (Proc.devRef .tc main_v7)) := by
    show StableHlo.after hostOps1 (W3 m ρ c) (Proc.devRef .tc main_v10) = _
    after_results
  have e7 : W3 m ρ c (Proc.devRef .tc main_v7) = (dat0 (F := Ideal) (V2 m ρ) c).arrAt 8 cfg0.N := W3_arr m ρ c 8
  rw [e, e7]
  funext i
  obtain ⟨n, q, rfl⟩ : ∃ (n : Fin 100000) (q : Fin 128), i = ix2 n q := ⟨i 0, i 1, eq_ix2 i⟩
  have hrec : scatter_S100000x128_S1600000x1_S1600000x128_1_0_0_1
      = Cert.ReferenceIdeal.Hand.rowScatter 100000 1600000 128 scatter_S100000x128_S1600000x1_S1600000x128_1_0_0_1_wf := rfl
  rw [hrec]
  refine (Cert.ReferenceIdeal.Hand.rowScatterAdd_apply _ _ _ _ n q).trans ?_
  rw [Cert.ReferenceIdeal.Hand.bcastScalar_apply, constant_apply, Ideal.ofBits_zero_f32, zero_add]
  unfold Spec.segSum
  refine Finset.sum_congr ?_ fun e _ => rfl
  refine Finset.filter_congr fun e _ => ?_
  rw [Cert.ReferenceIdeal.Hand.bcastCol_apply, W3_v5_apply m ρ c e]

/-! ## The three biases as one-row matrices -/

theorem V4_v11 : (fun j : Fin 128 => (V4 m ρ c main_v11 : Spec.A2 1 128) (ix2 0 j))
    = fun j => (m ((c : Thread nD τ).loc main_arg8) : Spec.A1 128) (ix1 j) := by
  funext j
  have e : V4 m ρ c main_v11 = shapeCast S1x128 (W3 m ρ c (Proc.devRef .tc main_arg8)) shapeCasts_S128_S1x128 := by
    show StableHlo.after hostOps1 (W3 m ρ c) (Proc.devRef .tc main_v11) = _
    after_results
    rfl
  rw [e, W3_arg8 m ρ c]
  exact shapeCast_a_1a_apply _ _ 0 j

theorem V4_v12 : (fun j : Fin 64 => (V4 m ρ c main_v12 : Spec.A2 1 64) (ix2 0 j))
    = fun j => (m ((c : Thread nD τ).loc main_arg10) : Spec.A1 64) (ix1 j) := by
  funext j
  have e : V4 m ρ c main_v12 = shapeCast S1x64 (W3 m ρ c (Proc.devRef .tc main_arg10)) shapeCasts_S64_S1x64 := by
    show StableHlo.after hostOps1 (W3 m ρ c) (Proc.devRef .tc main_v12) = _
    after_results
    rfl
  rw [e, W3_arg10 m ρ c]
  exact shapeCast_a_1a_apply _ _ 0 j

theorem V4_v13 : (fun j : Fin 64 => (V4 m ρ c main_v13 : Spec.A2 1 64) (ix2 0 j))
    = fun j => (m ((c : Thread nD τ).loc main_arg12) : Spec.A1 64) (ix1 j) := by
  funext j
  have e : V4 m ρ c main_v13 = shapeCast S1x64 (W3 m ρ c (Proc.devRef .tc main_arg12)) shapeCasts_S64_S1x64 := by
    show StableHlo.after hostOps1 (W3 m ρ c) (Proc.devRef .tc main_v13) = _
    after_results
    rfl
  rw [e, W3_arg12 m ρ c]
  exact shapeCast_a_1a_apply _ _ 0 j

end Cert.KernelIdeal.HostValue

end
-- ==== Proof.Region0Pay.lean ====
/-
  THE BODY OF THE FUSED EDGE KERNEL AS A VALUE ON ONE BLOCK of 16000 edges: from the block of edge attributes a (16000×8),
  the block of gathered rows y (16000×128), the three 8×16 matrices, the two 16×4 halves of W4 and the 4×128×128
  convolution weights, the one store of the body writes, at (p, q), the message
    Σ_k c_{p,k} · (Σ_d y_{p,d} · C_{k,d,q}),  c_{p,k} = max(Σ_j lin_{p,j}·W4top_{j,k} + Σ_j gat_{p,j}·W4bot_{j,k}, 0),
  the four terms added left to right from a zero accumulator. Each matrix product into a zero accumulator is the plain
  sum over the contracted axis; the slices of the coefficient columns and of the weight planes, and the broadcasts of a
  column over the 128 features, read at an index.
-/
import proofs.«418350_j18073222382240_3_alg».proof.Proof.Spec
import proofs.«418350_j18073222382240_3_alg».proof.Proof.Gen.KernelIdeal.Frame
import Idealize.ShloMosaic.Lib.Pipeline.Value
import Idealize.ShloMosaic.Lib.ValueLayout
import Idealize.ShloMosaic.PureOps.Ideal.Laws

noncomputable section

open scoped BigOperators

namespace Cert.KernelIdeal.Region0

open Idealize.ShloMosaic Idealize.ShloMosaic.TcCoe Idealize.ShloMosaic.ValueIdx Idealize.SL.Sem Cert.KernelIdeal Cert.KernelIdeal.Gen

variable {α : Type}

/-! ## The zero offsets of a whole-block access -/

theorem off2_zero : (![0, 0] : Fin 2 → Nat) = fun _ => 0 := funext fun a => by
  match a with
  | ⟨0, _⟩ => rfl
  | ⟨1, _⟩ => rfl
theorem off3_zero : (![0, 0, 0] : Fin 3 → Nat) = fun _ => 0 := funext fun a => by
  match a with
  | ⟨0, _⟩ => rfl
  | ⟨1, _⟩ => rfl
  | ⟨2, _⟩ => rfl

/-! ## Layout operations at coordinates -/

/-- A rank-3 array cut along axis 0 from `o` reads, at `(j, b, e)`, the source at `(k, b, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `k` of the coefficients, spread over the 128 features, at `(p, q)`: the coefficient `(p, k)`. -/
theorem coefCol_apply (o : Nat) (k : Fin 4) (hk : k.val = o) (C : FVec Ideal S16000x4 .f32)
    (h1 : S16000x4.Slices ![0, o] S16000x1) (h2 : S16000x1.Broadcasts S16000x128) (p : Fin 16000) (q : Fin 128) :
    broadcastTo S16000x128 (extractStridedSlice S16000x1 ![0, o] C h1) h2 (ix2 p q) = C (ix2 p k) :=
  (broadcastTo_a1_ab_apply _ h2 p q).trans (slice2_axis1_apply o C h1 p (0 : Fin 1) k hk)

/-- Plane `k` of the weights as a 128×128 matrix, at `(d, q)`: the weight `(k, d, q)`. -/
theorem plane_apply (o : Nat) (k : Fin 4) (hk : k.val = o) (cw : FVec Ideal S4x128x128 .f32)
    (h3 : S4x128x128.Slices ![o, 0, 0] S1x128x128) (h4 : S1x128x128.ShapeCasts S128x128) (d q : Fin 128) :
    shapeCast S128x128 (extractStridedSlice S1x128x128 ![o, 0, 0] cw h3) h4 (ix2 d q) = cw (ix3 k d q) :=
  (shapeCast_1ab_ab_apply _ h4 d q).trans (slice3_axis0_apply o cw h3 (0 : Fin 1) d q k hk)

/-! ## The three matrix products at an index -/

theorem lhs_attr_0 (i : S16000x16.Idx) (q : dot_S16000x8_S8x16_S16000x16_1_0_0_1_n_n.contr.Idx) :
    (dot_S16000x8_S8x16_S16000x16_1_0_0_1_n_n.lhsIdx i q 0).val = (i 0).val := by
  unfold DotDims.lhsIdx
  rw [dif_neg (show ¬(0 : Fin S16000x8.rank) ∈ dot_S16000x8_S8x16_S16000x16_1_0_0_1_n_n.lhsBatch by decide), dif_pos (show (0 : Fin S16000x8.rank) ∈ dot_S16000x8_S8x16_S16000x16_1_0_0_1_n_n.lhsNonContracting by decide)]
  rfl
theorem lhs_attr_1 (i : S16000x16.Idx) (q : dot_S16000x8_S8x16_S16000x16_1_0_0_1_n_n.contr.Idx) :
    (dot_S16000x8_S8x16_S16000x16_1_0_0_1_n_n.lhsIdx i q 1).val = (q ⟨0, by decide⟩).val :=
  dot_S16000x8_S8x16_S16000x16_1_0_0_1_n_n.lhsIdx_val_of_single rfl i q
theorem rhs_attr_0 (i : S16000x16.Idx) (q : dot_S16000x8_S8x16_S16000x16_1_0_0_1_n_n.contr.Idx) :
    (dot_S16000x8_S8x16_S16000x16_1_0_0_1_n_n.rhsIdx i q 0).val = (q ⟨0, by decide⟩).val :=
  dot_S16000x8_S8x16_S16000x16_1_0_0_1_n_n.rhsIdx_val_of_single rfl i q
theorem rhs_attr_1 (i : S16000x16.Idx) (q : dot_S16000x8_S8x16_S16000x16_1_0_0_1_n_n.contr.Idx) :
    (dot_S16000x8_S8x16_S16000x16_1_0_0_1_n_n.rhsIdx i q 1).val = (i 1).val := by
  unfold DotDims.rhsIdx
  rw [dif_neg (show ¬(1 : Fin S8x16.rank) ∈ dot_S16000x8_S8x16_S16000x16_1_0_0_1_n_n.rhsBatch by decide), dif_pos (show (1 : Fin S8x16.rank) ∈ dot_S16000x8_S8x16_S16000x16_1_0_0_1_n_n.rhsNonContracting by decide)]
  rfl
/-- The product into a zero accumulator, at `(p, q)`: the sum over the contracted axis. -/
theorem matmul_attr_apply (l : FVec Ideal S16000x8 .f32) (r : FVec Ideal S8x16 .f32) (p : Fin 16000) (q : Fin 16) :
    matmul dot_S16000x8_S8x16_S16000x16_1_0_0_1_n_n none l r (constant (F := Ideal) S16000x16 .f32 0x00000000#32) (ix2 p q)
      = ∑ k : Fin 8, l (ix2 p k) * r (ix2 k q) := by
  refine (Ideal.matmul_constant_zero_apply dot_S16000x8_S8x16_S16000x16_1_0_0_1_n_n none l r (ix2 p q)).trans ?_
  rw [← Equiv.sum_comp (ValueIdx.contrEquiv1 dot_S16000x8_S8x16_S16000x16_1_0_0_1_n_n 8 rfl rfl).symm]
  refine Finset.sum_congr rfl fun k _ => ?_
  have hk := ValueIdx.contrEquiv1_symm_val dot_S16000x8_S8x16_S16000x16_1_0_0_1_n_n 8 rfl rfl k
  have el : dot_S16000x8_S8x16_S16000x16_1_0_0_1_n_n.lhsIdx (ix2 p q) ((ValueIdx.contrEquiv1 dot_S16000x8_S8x16_S16000x16_1_0_0_1_n_n 8 rfl rfl).symm k) = ix2 p k := funext fun a => Fin.ext (by
    match a with
    | ⟨0, _⟩ => exact lhs_attr_0 _ _
    | ⟨1, _⟩ => exact (lhs_attr_1 _ _).trans hk)
  have er : dot_S16000x8_S8x16_S16000x16_1_0_0_1_n_n.rhsIdx (ix2 p q) ((ValueIdx.contrEquiv1 dot_S16000x8_S8x16_S16000x16_1_0_0_1_n_n 8 rfl rfl).symm k) = ix2 k q := funext fun a => Fin.ext (by
    match a with
    | ⟨0, _⟩ => exact (rhs_attr_0 _ _).trans hk
    | ⟨1, _⟩ => exact rhs_attr_1 _ _)
  rw [el, er]

theorem lhs_coef_0 (i : S16000x4.Idx) (q : dot_S16000x16_S16x4_S16000x4_1_0_0_1_n_n.contr.Idx) :
    (dot_S16000x16_S16x4_S16000x4_1_0_0_1_n_n.lhsIdx i q 0).val = (i 0).val := by
  unfold DotDims.lhsIdx
  rw [dif_neg (show ¬(0 : Fin S16000x16.rank) ∈ dot_S16000x16_S16x4_S16000x4_1_0_0_1_n_n.lhsBatch by decide), dif_pos (show (0 : Fin S16000x16.rank) ∈ dot_S16000x16_S16x4_S16000x4_1_0_0_1_n_n.lhsNonContracting by decide)]
  rfl
theorem lhs_coef_1 (i : S16000x4.Idx) (q : dot_S16000x16_S16x4_S16000x4_1_0_0_1_n_n.contr.Idx) :
    (dot_S16000x16_S16x4_S16000x4_1_0_0_1_n_n.lhsIdx i q 1).val = (q ⟨0, by decide⟩).val :=
  dot_S16000x16_S16x4_S16000x4_1_0_0_1_n_n.lhsIdx_val_of_single rfl i q
theorem rhs_coef_0 (i : S16000x4.Idx) (q : dot_S16000x16_S16x4_S16000x4_1_0_0_1_n_n.contr.Idx) :
    (dot_S16000x16_S16x4_S16000x4_1_0_0_1_n_n.rhsIdx i q 0).val = (q ⟨0, by decide⟩).val :=
  dot_S16000x16_S16x4_S16000x4_1_0_0_1_n_n.rhsIdx_val_of_single rfl i q
theorem rhs_coef_1 (i : S16000x4.Idx) (q : dot_S16000x16_S16x4_S16000x4_1_0_0_1_n_n.contr.Idx) :
    (dot_S16000x16_S16x4_S16000x4_1_0_0_1_n_n.rhsIdx i q 1).val = (i 1).val := by
  unfold DotDims.rhsIdx
  rw [dif_neg (show ¬(1 : Fin S16x4.rank) ∈ dot_S16000x16_S16x4_S16000x4_1_0_0_1_n_n.rhsBatch by decide), dif_pos (show (1 : Fin S16x4.rank) ∈ dot_S16000x16_S16x4_S16000x4_1_0_0_1_n_n.rhsNonContracting by decide)]
  rfl
/-- The product into a zero accumulator, at `(p, q)`: the sum over the contracted axis. -/
theorem matmul_coef_apply (l : FVec Ideal S16000x16 .f32) (r : FVec Ideal S16x4 .f32) (p : Fin 16000) (q : Fin 4) :
    matmul dot_S16000x16_S16x4_S16000x4_1_0_0_1_n_n none l r (constant (F := Ideal) S16000x4 .f32 0x00000000#32) (ix2 p q)
      = ∑ k : Fin 16, l (ix2 p k) * r (ix2 k q) := by
  refine (Ideal.matmul_constant_zero_apply dot_S16000x16_S16x4_S16000x4_1_0_0_1_n_n none l r (ix2 p q)).trans ?_
  rw [← Equiv.sum_comp (ValueIdx.contrEquiv1 dot_S16000x16_S16x4_S16000x4_1_0_0_1_n_n 16 rfl rfl).symm]
  refine Finset.sum_congr rfl fun k _ => ?_
  have hk := ValueIdx.contrEquiv1_symm_val dot_S16000x16_S16x4_S16000x4_1_0_0_1_n_n 16 rfl rfl k
  have el : dot_S16000x16_S16x4_S16000x4_1_0_0_1_n_n.lhsIdx (ix2 p q) ((ValueIdx.contrEquiv1 dot_S16000x16_S16x4_S16000x4_1_0_0_1_n_n 16 rfl rfl).symm k) = ix2 p k := funext fun a => Fin.ext (by
    match a with
    | ⟨0, _⟩ => exact lhs_coef_0 _ _
    | ⟨1, _⟩ => exact (lhs_coef_1 _ _).trans hk)
  have er : dot_S16000x16_S16x4_S16000x4_1_0_0_1_n_n.rhsIdx (ix2 p q) ((ValueIdx.contrEquiv1 dot_S16000x16_S16x4_S16000x4_1_0_0_1_n_n 16 rfl rfl).symm k) = ix2 k q := funext fun a => Fin.ext (by
    match a with
    | ⟨0, _⟩ => exact (rhs_coef_0 _ _).trans hk
    | ⟨1, _⟩ => exact rhs_coef_1 _ _)
  rw [el, er]

theorem lhs_feat_0 (i : S16000x128.Idx) (q : dot_S16000x128_S128x128_S16000x128_1_0_0_1_n_n.contr.Idx) :
    (dot_S16000x128_S128x128_S16000x128_1_0_0_1_n_n.lhsIdx i q 0).val = (i 0).val := by
  unfold DotDims.lhsIdx
  rw [dif_neg (show ¬(0 : Fin S16000x128.rank) ∈ dot_S16000x128_S128x128_S16000x128_1_0_0_1_n_n.lhsBatch by decide), dif_pos (show (0 : Fin S16000x128.rank) ∈ dot_S16000x128_S128x128_S16000x128_1_0_0_1_n_n.lhsNonContracting by decide)]
  rfl
theorem lhs_feat_1 (i : S16000x128.Idx) (q : dot_S16000x128_S128x128_S16000x128_1_0_0_1_n_n.contr.Idx) :
    (dot_S16000x128_S128x128_S16000x128_1_0_0_1_n_n.lhsIdx i q 1).val = (q ⟨0, by decide⟩).val :=
  dot_S16000x128_S128x128_S16000x128_1_0_0_1_n_n.lhsIdx_val_of_single rfl i q
theorem rhs_feat_0 (i : S16000x128.Idx) (q : dot_S16000x128_S128x128_S16000x128_1_0_0_1_n_n.contr.Idx) :
    (dot_S16000x128_S128x128_S16000x128_1_0_0_1_n_n.rhsIdx i q 0).val = (q ⟨0, by decide⟩).val :=
  dot_S16000x128_S128x128_S16000x128_1_0_0_1_n_n.rhsIdx_val_of_single rfl i q
theorem rhs_feat_1 (i : S16000x128.Idx) (q : dot_S16000x128_S128x128_S16000x128_1_0_0_1_n_n.contr.Idx) :
    (dot_S16000x128_S128x128_S16000x128_1_0_0_1_n_n.rhsIdx i q 1).val = (i 1).val := by
  unfold DotDims.rhsIdx
  rw [dif_neg (show ¬(1 : Fin S128x128.rank) ∈ dot_S16000x128_S128x128_S16000x128_1_0_0_1_n_n.rhsBatch by decide), dif_pos (show (1 : Fin S128x128.rank) ∈ dot_S16000x128_S128x128_S16000x128_1_0_0_1_n_n.rhsNonContracting by decide)]
  rfl
/-- The product into a zero accumulator, at `(p, q)`: the sum over the contracted axis. -/
theorem matmul_feat_apply (l : FVec Ideal S16000x128 .f32) (r : FVec Ideal S128x128 .f32) (p : Fin 16000) (q : Fin 128) :
    matmul dot_S16000x128_S128x128_S16000x128_1_0_0_1_n_n none l r (constant (F := Ideal) S16000x128 .f32 0x00000000#32) (ix2 p q)
      = ∑ k : Fin 128, l (ix2 p k) * r (ix2 k q) := by
  refine (Ideal.matmul_constant_zero_apply dot_S16000x128_S128x128_S16000x128_1_0_0_1_n_n none l r (ix2 p q)).trans ?_
  rw [← Equiv.sum_comp (ValueIdx.contrEquiv1 dot_S16000x128_S128x128_S16000x128_1_0_0_1_n_n 128 rfl rfl).symm]
  refine Finset.sum_congr rfl fun k _ => ?_
  have hk := ValueIdx.contrEquiv1_symm_val dot_S16000x128_S128x128_S16000x128_1_0_0_1_n_n 128 rfl rfl k
  have el : dot_S16000x128_S128x128_S16000x128_1_0_0_1_n_n.lhsIdx (ix2 p q) ((ValueIdx.contrEquiv1 dot_S16000x128_S128x128_S16000x128_1_0_0_1_n_n 128 rfl rfl).symm k) = ix2 p k := funext fun a => Fin.ext (by
    match a with
    | ⟨0, _⟩ => exact lhs_feat_0 _ _
    | ⟨1, _⟩ => exact (lhs_feat_1 _ _).trans hk)
  have er : dot_S16000x128_S128x128_S16000x128_1_0_0_1_n_n.rhsIdx (ix2 p q) ((ValueIdx.contrEquiv1 dot_S16000x128_S128x128_S16000x128_1_0_0_1_n_n 128 rfl rfl).symm k) = ix2 k q := funext fun a => Fin.ext (by
    match a with
    | ⟨0, _⟩ => exact (rhs_feat_0 _ _).trans hk
    | ⟨1, _⟩ => exact rhs_feat_1 _ _)
  rw [el, er]

/-! ## The coefficients -/

/-- The linear part: the product with a weight matrix, clipped below at zero. -/
theorem lin_apply (a : FVec Ideal S16000x8 .f32) (w : FVec Ideal S8x16 .f32) (p : Fin 16000) (j : Fin 16) :
    maximumf (matmul dot_S16000x8_S8x16_S16000x16_1_0_0_1_n_n none a w (constant (F := Ideal) S16000x16 .f32 0x00000000#32))
        (broadcast S16000x16 (Scalar.ofBits (F := Ideal) .f32 0x00000000#32)) (ix2 p j)
      = Spec.lin (a : Spec.A2 16000 8) w p j := by
  show max (matmul dot_S16000x8_S8x16_S16000x16_1_0_0_1_n_n none a w (constant (F := Ideal) S16000x16 .f32 0x00000000#32) (ix2 p j))
      (Ideal.ofBits .f32 0x00000000#32) = _
  rw [matmul_attr_apply, Ideal.ofBits_zero_f32]
  rfl

/-- The gated part: the product of the hyperbolic tangents of two products. -/
theorem gat_apply (a : FVec Ideal S16000x8 .f32) (w2 w3 : FVec Ideal S8x16 .f32) (p : Fin 16000) (j : Fin 16) :
    mulf (tanh (matmul dot_S16000x8_S8x16_S16000x16_1_0_0_1_n_n none a w2 (constant (F := Ideal) S16000x16 .f32 0x00000000#32)))
        (tanh (matmul dot_S16000x8_S8x16_S16000x16_1_0_0_1_n_n none a w3 (constant (F := Ideal) S16000x16 .f32 0x00000000#32))) (ix2 p j)
      = Spec.gat (a : Spec.A2 16000 8) w2 w3 p j := by
  show Ideal.tanh (matmul dot_S16000x8_S8x16_S16000x16_1_0_0_1_n_n none a w2 (constant (F := Ideal) S16000x16 .f32 0x00000000#32) (ix2 p j))
      * Ideal.tanh (matmul dot_S16000x8_S8x16_S16000x16_1_0_0_1_n_n none a w3 (constant (F := Ideal) S16000x16 .f32 0x00000000#32) (ix2 p j)) = _
  rw [matmul_attr_apply, matmul_attr_apply]
  rfl

/-- The coefficients the body computes, at `(p, k)`. -/
theorem pay2_apply (x0 : FVec Ideal S16000x8 .f32) (x2 x3 x4 : FVec Ideal S8x16 .f32) (x5 x6 : FVec Ideal S16x4 .f32)
    (p : Fin 16000) (k : Fin 4) :
    k0_pay2 (F := Ideal) x0 x2 x3 x4 x5 x6 (ix2 p k) = Spec.coefHalves (x0 : Spec.A2 16000 8) x2 x3 x4 x5 x6 p k := by
  unfold k0_pay2
  rw [shapeCast_self, shapeCast_self]
  show max (matmul dot_S16000x16_S16x4_S16000x4_1_0_0_1_n_n none _ x5 _ (ix2 p k)
      + matmul dot_S16000x16_S16x4_S16000x4_1_0_0_1_n_n none _ x6 _ (ix2 p k)) (Ideal.ofBits .f32 0x00000000#32) = _
  rw [matmul_coef_apply, matmul_coef_apply, Ideal.ofBits_zero_f32]
  unfold Spec.coefHalves
  refine congrArg₂ max (congrArg₂ (· + ·) (Finset.sum_congr rfl fun j _ => ?_) (Finset.sum_congr rfl fun j _ => ?_)) rfl
  · rw [lin_apply]
  · rw [gat_apply]

/-! ## The message -/

/-- One of the four terms at `(p, q)`: coefficient `k` of edge `p` times the row of `p` against plane `k` of the weights. -/
theorem term_apply (o : Nat) (k : Fin 4) (hk : k.val = o) (C : FVec Ideal S16000x4 .f32) (Y : FVec Ideal S16000x128 .f32)
    (cw : FVec Ideal S4x128x128 .f32) (h1 : S16000x4.Slices ![0, o] S16000x1) (h2 : S16000x1.Broadcasts S16000x128)
    (h3 : S4x128x128.Slices ![o, 0, 0] S1x128x128) (h4 : S1x128x128.ShapeCasts S128x128) (p : Fin 16000) (q : Fin 128) :
    mulf (broadcastTo S16000x128 (extractStridedSlice S16000x1 ![0, o] C h1) h2)
        (matmul dot_S16000x128_S128x128_S16000x128_1_0_0_1_n_n none Y (shapeCast S128x128 (extractStridedSlice S1x128x128 ![o, 0, 0] cw h3) h4)
          (constant (F := Ideal) S16000x128 .f32 0x00000000#32)) (ix2 p q)
      = C (ix2 p k) * ∑ d : Fin 128, Y (ix2 p d) * cw (ix3 k d q) := by
  show broadcastTo S16000x128 (extractStridedSlice S16000x1 ![0, o] C h1) h2 (ix2 p q)
      * matmul dot_S16000x128_S128x128_S16000x128_1_0_0_1_n_n none Y (shapeCast S128x128 (extractStridedSlice S1x128x128 ![o, 0, 0] cw h3) h4)
          (constant (F := Ideal) S16000x128 .f32 0x00000000#32) (ix2 p q) = _
  rw [coefCol_apply o k hk, matmul_feat_apply]
  exact congrArg (C (ix2 p k) * ·) (Finset.sum_congr rfl fun d _ => congrArg (Y (ix2 p d) * ·) (plane_apply o k hk cw h3 h4 d q))

/-- The rows as the body reads them: themselves. -/
theorem pay3_eq (Y : FVec Ideal S16000x128 .f32) : k0_pay3 (F := Ideal) Y = Y := by
  unfold k0_pay3
  exact shapeCast_self _ _

/-- The first term, added to the zero the accumulator starts from. -/
theorem pay4_apply (x0 : FVec Ideal S16000x8 .f32) (x2 x3 x4 : FVec Ideal S8x16 .f32) (x5 x6 : FVec Ideal S16x4 .f32)
    (Y : FVec Ideal S16000x128 .f32) (cw : FVec Ideal S4x128x128 .f32) (p : Fin 16000) (q : Fin 128) :
    k0_pay4 (F := Ideal) x0 x2 x3 x4 x5 x6 Y cw (ix2 p q)
      = k0_pay2 (F := Ideal) x0 x2 x3 x4 x5 x6 (ix2 p 0) * ∑ d : Fin 128, Y (ix2 p d) * cw (ix3 0 d q) := by
  unfold k0_pay4
  rw [pay3_eq]
  refine (addf_apply _ _ _).trans ?_
  show Ideal.ofBits .f32 0x00000000#32 + _ = _
  rw [Ideal.ofBits_zero_f32, zero_add]
  exact term_apply 0 0 rfl _ Y cw _ _ _ _ p q

/-- The body's one stored value at `(p, q)`, from the coefficients `C`, the rows `Y`, the weights and the first term `A`. -/
theorem pay1_apply (C : FVec Ideal S16000x4 .f32) (Y : FVec Ideal S16000x128 .f32) (cw : FVec Ideal S4x128x128 .f32)
    (A : FVec Ideal S16000x128 .f32) (p : Fin 16000) (q : Fin 128) :
    k0_pay1 (F := Ideal) C Y cw A (k0_pay5 (F := Ideal) cw) (ix2 p q)
      = A (ix2 p q) + C (ix2 p 1) * (∑ d : Fin 128, Y (ix2 p d) * cw (ix3 1 d q))
          + C (ix2 p 2) * (∑ d : Fin 128, Y (ix2 p d) * cw (ix3 2 d q))
          + C (ix2 p 3) * (∑ d : Fin 128, Y (ix2 p d) * cw (ix3 3 d q)) := by
  unfold k0_pay1 k0_pay5
  simp only [addf_apply]
  rw [term_apply 1 1 rfl, term_apply 2 2 rfl, term_apply 3 3 rfl]

/-- What the body leaves in the output window's buffer, from the input windows' blocks: the block's messages. -/
theorem out0_8_eq (x0 : Vec Ideal S16000x8 .f32) (x1 : Vec Ideal S16000x128 .f32) (x2 x3 x4 : Vec Ideal S8x16 .f32)
    (x5 x6 : Vec Ideal S16x4 .f32) (x7 : Vec Ideal S4x128x128 .f32) :
    (out0_8 (F := Ideal) x0 x1 x2 x3 x4 x5 x6 x7 : Spec.A2 16000 128)
      = Spec.msg (Spec.coefHalves (x0 : Spec.A2 16000 8) x2 x3 x4 x5 x6) (x1 : Spec.A2 16000 128) x7 := by
  unfold out0_8
  rw [View.canon_unit_zero off2_zero]
  simp only [View.ld_unit_zero (S := S16000x8) off2_zero, View.ld_unit_zero (S := S8x16) off2_zero,
    View.ld_unit_zero (S := S16x4) off2_zero, View.ld_unit_zero (S := S16000x128) off2_zero,
    View.ld_unit_zero (S := S4x128x128) off3_zero]
  funext i
  obtain ⟨p, q, rfl⟩ : ∃ (p : Fin 16000) (q : Fin 128), i = ix2 p q := ⟨i 0, i 1, eq_ix2 i⟩
  rw [pay3_eq]
  refine (pay1_apply _ x1 x7 _ p q).trans ?_
  rw [pay4_apply, pay2_apply, pay2_apply, pay2_apply, pay2_apply]
  rfl

end Cert.KernelIdeal.Region0

end
-- ==== Proof.Region0Value.lean ====
/-
  REGION 0 (the fused edge kernel) AS A VALUE: whatever the TensorCore's buffers hold when the region is entered, the
  array its output window leaves is, entry (e, j), the message Σ_k c_{e,k} · (Σ_d y_{e,d} · C_{k,d,j}) of edge e, where
  the coefficients c come from the edge attributes and the four small weight matrices (the two halves of W4 as two
  arrays), y is the array of gathered source rows and C the convolution weights. Grid point t writes rows
  16000·t … 16000·t + 15999; the 100 blocks tile the 1 600 000 rows.

  The steps. The block indices of the nine windows at a grid point, decided once over the 100 points: the attributes,
  the gathered rows and the output sit at block (t, 0), the six weight arrays at block 0. A block's element (p, q) sits
  in its array at (block index · block size + p, …), so the attribute and gathered-row blocks at point t are rows
  16000·t + p of their arrays and each weight block is its whole array. The message of an edge reads only that edge's
  row of attributes and of gathered rows, so the block of messages computed from the blocks at point t is the
  restriction to rows 16000·t … 16000·t + 15999 of ONE array of messages; row r lies in the block of point r / 16000, so
  the blocks cover the array, which therefore ends holding that array of messages.
-/
import proofs.«418350_j18073222382240_3_alg».proof.Proof.Spec
import proofs.«418350_j18073222382240_3_alg».proof.Proof.Gen.KernelIdeal.Frame
import proofs.«418350_j18073222382240_3_alg».proof.Proof.Region0Pay
import Idealize.ShloMosaic.Lib.Pipeline.Value
import Idealize.ShloMosaic.PureOps.Ideal.Laws

noncomputable section

open scoped BigOperators

namespace Cert.KernelIdeal.Region0.Rows

open Idealize.ShloMosaic Idealize.ShloMosaic.TcCoe Idealize.ShloMosaic.ValueIdx Idealize.SL.Sem Cert.KernelIdeal Cert.KernelIdeal.Gen
open Idealize.ShloMosaic.Pipeline (Dat Cfg Window)

/-! ## Where each window's block sits -/

/-- The block indices at grid point t: the edge attributes (window 0), the gathered rows (window 1) and the output
    (window 8) are at block (t, 0); the six weight arrays (windows 2 to 7) at block 0 on every axis. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = 0 ∧ win0_7.index t (1 : Fin 3) = 0 ∧ win0_7.index t (2 : Fin 3) = 0
    ∧ win0_8.index t (0 : Fin 2) = t.val ∧ win0_8.index t (1 : Fin 2) = 0 :=
  (by decide +kernel : ∀ t : Fin grid0.N, _)

/-- An entry of the output array is in grid point t's block iff each coordinate is in the block's range on its axis. -/
theorem mem_out_block (t : Fin cfg0.N) (i : S1600000x128.Idx) :
    i ∈ ((cfg0.win 8).blk t).view.set ↔ ∀ a : Fin 2, win0_8.index t a * S16000x128.size a ≤ (i a).val ∧ (i a).val < win0_8.index t a * S16000x128.size a + S16000x128.size a := by
  show i ∈ ((View.whole main_v7).slice (win0_8.rect t)).set ↔ _
  rw [View.set_slice_whole, Rect.mem_set_unit]
  exact Iff.rfl

/-- Row r of the output array lies in the block of grid point r / 16000: the 100 blocks cover the array. -/
theorem rows_covered (i : S1600000x128.Idx) :
    ∃ t : Fin cfg0.N, (cfg0.win 8).flush t = true ∧ i ∈ ((cfg0.win 8).blk t).view.set := by
  have hi0 : (i 0).val < 1600000 := idx2_lt0 i
  have hi1 : (i 1).val < 128 := idx2_lt1 i
  have hN : cfg0.N = 100 := N_0
  have ht : (i 0).val / 16000 < cfg0.N := by rw [hN]; omega
  obtain ⟨-, -, -, -, -, -, -, -, -, -, -, -, -, -, -, -, -, h80, h81⟩ := block_index ⟨(i 0).val / 16000, ht⟩
  refine ⟨⟨(i 0).val / 16000, ht⟩, flush0_8 _, ?_⟩
  rw [mem_out_block]
  intro a
  match a with
  | ⟨0, _⟩ =>
    show win0_8.index ⟨(i 0).val / 16000, ht⟩ (0 : Fin 2) * 16000 ≤ (i 0).val ∧ (i 0).val < win0_8.index ⟨(i 0).val / 16000, ht⟩ (0 : Fin 2) * 16000 + 16000
    rw [h80]; show (i 0).val / 16000 * 16000 ≤ (i 0).val ∧ (i 0).val < (i 0).val / 16000 * 16000 + 16000; omega
  | ⟨1, _⟩ =>
    show win0_8.index ⟨(i 0).val / 16000, ht⟩ (1 : Fin 2) * 128 ≤ (i 1).val ∧ (i 1).val < win0_8.index ⟨(i 0).val / 16000, ht⟩ (1 : Fin 2) * 128 + 128
    rw [h81]; omega

/-! ## The message of an edge reads only that edge's rows -/

/-- The message at an entry, written out. -/
theorem msg_apply {R : Nat} (cf : Fin R → Fin 4 → EReal) (y : Spec.A2 R 128) (cw : Spec.A3 4 128 128) (p : Fin R) (q : Fin 128) :
    Spec.msg cf y cw (ix2 p q)
      = cf p 0 * (∑ d : Fin 128, y (ix2 p d) * cw (ix3 0 d q))
        + cf p 1 * (∑ d : Fin 128, y (ix2 p d) * cw (ix3 1 d q))
        + cf p 2 * (∑ d : Fin 128, y (ix2 p d) * cw (ix3 2 d q))
        + cf p 3 * (∑ d : Fin 128, y (ix2 p d) * cw (ix3 3 d q)) := rfl

/-- The coefficients of an edge depend only on that edge's row of attributes: if row p of one attribute array is row e
    of another, the coefficients of p from the first are those of e from the second. -/
theorem coef_row {R R' : Nat} (ea : Spec.A2 R 8) (eab : Spec.A2 R' 8) (w1 w2 w3 : Spec.A2 8 16) (w4t w4b : Spec.A2 16 4)
    (p : Fin R') (e : Fin R) (hea : ∀ q : Fin 8, eab (ix2 p q) = ea (ix2 e q)) (k : Fin 4) :
    Spec.coefHalves eab w1 w2 w3 w4t w4b p k = Spec.coefHalves ea w1 w2 w3 w4t w4b e k := by
  unfold Spec.coefHalves Spec.lin Spec.gat
  simp only [hea]

/-- The message of an edge depends only on that edge's rows of attributes and of gathered features. -/
theorem msg_row {R R' : Nat} (ea : Spec.A2 R 8) (y : Spec.A2 R 128) (eab : Spec.A2 R' 8) (yb : Spec.A2 R' 128)
    (w1 w2 w3 : Spec.A2 8 16) (w4t w4b : Spec.A2 16 4) (cw : Spec.A3 4 128 128)
    (p : Fin R') (e : Fin R) (hea : ∀ q : Fin 8, eab (ix2 p q) = ea (ix2 e q))
    (hy : ∀ q : Fin 128, yb (ix2 p q) = y (ix2 e q)) (q : Fin 128) :
    Spec.msg (Spec.coefHalves eab w1 w2 w3 w4t w4b) yb cw (ix2 p q)
      = Spec.msg (Spec.coefHalves ea w1 w2 w3 w4t w4b) y cw (ix2 e q) := by
  rw [msg_apply, msg_apply]
  simp only [hy, coef_row ea eab w1 w2 w3 w4t w4b p e hea]

/-! ## The input blocks at a grid point, read off their arrays

An element of a block sits in the array, on each axis, at block index · block size + its coordinate in the block. -/

variable (V : (c : Dev nD) → (b : Ref sig .tc) → Buf (Elt Ideal) ((c : Thread nD τ).loc b))

/-- Row p of the block of edge attributes at grid point t is row 16000·t + p of the array. -/
theorem attr_block (c : Dev nD) (t : Fin cfg0.N) (p : Fin 16000) (q : Fin 8) (e : Fin Spec.EE)
    (he : e.val = 16000 * t.val + p.val) :
    (iblk0 (F := Ideal) V c 0 t : Spec.A2 16000 8) (ix2 p q) = (V c main_arg1 : Spec.A2 Spec.EE 8) (ix2 e q) := by
  obtain ⟨h0, h1, -⟩ := block_index t
  unfold iblk0
  rw [View.read_apply]
  show V c main_arg1 _ = V c main_arg1 _
  congr 1
  funext a
  apply Fin.ext
  match a with
  | ⟨0, _⟩ => show win0_0.index t (0 : Fin 2) * 16000 + 1 * p.val = e.val; rw [h0, he]; omega
  | ⟨1, _⟩ => show win0_0.index t (1 : Fin 2) * 8 + 1 * q.val = q.val; rw [h1]; omega

/-- Row p of the block of gathered rows at grid point t is row 16000·t + p of the array. -/
theorem rows_block (c : Dev nD) (t : Fin cfg0.N) (p : Fin 16000) (q : Fin 128) (e : Fin Spec.EE)
    (he : e.val = 16000 * t.val + p.val) :
    (iblk0 (F := Ideal) V c 1 t : Spec.A2 16000 128) (ix2 p q) = (V c main_v6 : Spec.A2 Spec.EE 128) (ix2 e q) := by
  obtain ⟨-, -, h0, h1, -⟩ := block_index t
  unfold iblk0
  rw [View.read_apply]
  show V c main_v6 _ = V c main_v6 _
  congr 1
  funext a
  apply Fin.ext
  match a with
  | ⟨0, _⟩ => show win0_1.index t (0 : Fin 2) * 16000 + 1 * p.val = e.val; rw [h0, he]; omega
  | ⟨1, _⟩ => show win0_1.index t (1 : Fin 2) * 128 + 1 * q.val = q.val; rw [h1]; omega

/-! The six weight windows hold their whole arrays at every grid point. -/

/-- The block of W1 is W1. -/
theorem w1_block (c : Dev nD) (t : Fin cfg0.N) :
    (iblk0 (F := Ideal) V c 2 t : Spec.A2 8 16) = (V c main_arg3 : Spec.A2 8 16) := by
  obtain ⟨-, -, -, -, h0, h1, -⟩ := block_index t
  funext j
  unfold iblk0
  rw [View.read_apply]
  show V c main_arg3 _ = V c main_arg3 _
  congr 1
  funext a
  apply Fin.ext
  match a with
  | ⟨0, _⟩ => show win0_2.index t (0 : Fin 2) * 8 + 1 * (j 0).val = (j 0).val; rw [h0]; omega
  | ⟨1, _⟩ => show win0_2.index t (1 : Fin 2) * 16 + 1 * (j 1).val = (j 1).val; rw [h1]; omega

/-- The block of W2 is W2. -/
theorem w2_block (c : Dev nD) (t : Fin cfg0.N) :
    (iblk0 (F := Ideal) V c 3 t : Spec.A2 8 16) = (V c main_arg4 : Spec.A2 8 16) := by
  obtain ⟨-, -, -, -, -, -, h0, h1, -⟩ := block_index t
  funext j
  unfold iblk0
  rw [View.read_apply]
  show V c main_arg4 _ = V c main_arg4 _
  congr 1
  funext a
  apply Fin.ext
  match a with
  | ⟨0, _⟩ => show win0_3.index t (0 : Fin 2) * 8 + 1 * (j 0).val = (j 0).val; rw [h0]; omega
  | ⟨1, _⟩ => show win0_3.index t (1 : Fin 2) * 16 + 1 * (j 1).val = (j 1).val; rw [h1]; omega

/-- The block of W3 is W3. -/
theorem w3_block (c : Dev nD) (t : Fin cfg0.N) :
    (iblk0 (F := Ideal) V c 4 t : Spec.A2 8 16) = (V c main_arg5 : Spec.A2 8 16) := by
  obtain ⟨-, -, -, -, -, -, -, -, h0, h1, -⟩ := block_index t
  funext j
  unfold iblk0
  rw [View.read_apply]
  show V c main_arg5 _ = V c main_arg5 _
  congr 1
  funext a
  apply Fin.ext
  match a with
  | ⟨0, _⟩ => show win0_4.index t (0 : Fin 2) * 8 + 1 * (j 0).val = (j 0).val; rw [h0]; omega
  | ⟨1, _⟩ => show win0_4.index t (1 : Fin 2) * 16 + 1 * (j 1).val = (j 1).val; rw [h1]; omega

/-- The block of the top half of W4 is that half. -/
theorem w4top_block (c : Dev nD) (t : Fin cfg0.N) :
    (iblk0 (F := Ideal) V c 5 t : Spec.A2 16 4) = (V c main_v0 : Spec.A2 16 4) := by
  obtain ⟨-, -, -, -, -, -, -, -, -, -, h0, h1, -⟩ := block_index t
  funext j
  unfold iblk0
  rw [View.read_apply]
  show V c main_v0 _ = V c main_v0 _
  congr 1
  funext a
  apply Fin.ext
  match a with
  | ⟨0, _⟩ => show win0_5.index t (0 : Fin 2) * 16 + 1 * (j 0).val = (j 0).val; rw [h0]; omega
  | ⟨1, _⟩ => show win0_5.index t (1 : Fin 2) * 4 + 1 * (j 1).val = (j 1).val; rw [h1]; omega

/-- The block of the bottom half of W4 is that half. -/
theorem w4bot_block (c : Dev nD) (t : Fin cfg0.N) :
    (iblk0 (F := Ideal) V c 6 t : Spec.A2 16 4) = (V c main_v1 : Spec.A2 16 4) := by
  obtain ⟨-, -, -, -, -, -, -, -, -, -, -, -, h0, h1, -⟩ := block_index t
  funext j
  unfold iblk0
  rw [View.read_apply]
  show V c main_v1 _ = V c main_v1 _
  congr 1
  funext a
  apply Fin.ext
  match a with
  | ⟨0, _⟩ => show win0_6.index t (0 : Fin 2) * 16 + 1 * (j 0).val = (j 0).val; rw [h0]; omega
  | ⟨1, _⟩ => show win0_6.index t (1 : Fin 2) * 4 + 1 * (j 1).val = (j 1).val; rw [h1]; omega

/-- The block of the convolution weights is the whole 4×128×128 array. -/
theorem cw_block (c : Dev nD) (t : Fin cfg0.N) :
    (iblk0 (F := Ideal) V c 7 t : Spec.A3 4 128 128) = (V c main_arg7 : Spec.A3 4 128 128) := by
  obtain ⟨-, -, -, -, -, -, -, -, -, -, -, -, -, -, h0, h1, h2, -⟩ := block_index t
  funext j
  unfold iblk0
  rw [View.read_apply]
  show V c main_arg7 _ = V c main_arg7 _
  congr 1
  funext a
  apply Fin.ext
  match a with
  | ⟨0, _⟩ => show win0_7.index t (0 : Fin 3) * 4 + 1 * (j 0).val = (j 0).val; rw [h0]; omega
  | ⟨1, _⟩ => show win0_7.index t (1 : Fin 3) * 128 + 1 * (j 1).val = (j 1).val; rw [h1]; omega
  | ⟨2, _⟩ => show win0_7.index t (2 : Fin 3) * 128 + 1 * (j 2).val = (j 2).val; rw [h2]; omega

/-! ## Blocks to the array -/

/-- The array of messages, from the arrays the region is entered with. -/
abbrev msgs (c : Dev nD) : Spec.A2 Spec.EE 128 :=
  Spec.msg (Spec.coefHalves (V c main_arg1) (V c main_arg3) (V c main_arg4) (V c main_arg5) (V c main_v0) (V c main_v1))
    (V c main_v6) (V c main_arg7)

/-- Entry (p, q) of the block of messages computed from the input blocks at grid point t is entry (16000·t + p, q) of
    the array of messages. -/
theorem msg_block (c : Dev nD) (t : Fin cfg0.N) (j : S16000x128.Idx) (i : S1600000x128.Idx)
    (hi0 : (i 0).val = 16000 * t.val + (j 0).val) (hi1 : (i 1).val = (j 1).val) :
    (out0_8 (F := Ideal) (iblk0 V c 0 t) (iblk0 V c 1 t) (iblk0 V c 2 t) (iblk0 V c 3 t) (iblk0 V c 4 t) (iblk0 V c 5 t)
        (iblk0 V c 6 t) (iblk0 V c 7 t) : Spec.A2 16000 128) j = msgs V c i := by
  obtain ⟨p, q, rfl⟩ : ∃ (p : Fin 16000) (q : Fin 128), j = ix2 p q := ⟨j 0, j 1, eq_ix2 j⟩
  obtain ⟨e, q', rfl⟩ : ∃ (e : Fin Spec.EE) (q' : Fin 128), i = ix2 e q' := ⟨i 0, i 1, eq_ix2 i⟩
  obtain rfl : q' = q := Fin.ext hi1
  refine (congrFun (out0_8_eq (iblk0 V c 0 t) (iblk0 V c 1 t) (iblk0 V c 2 t) (iblk0 V c 3 t) (iblk0 V c 4 t) (iblk0 V c 5 t)
        (iblk0 V c 6 t) (iblk0 V c 7 t)) (ix2 p q')).trans ?_
  rw [w1_block V c t, w2_block V c t, w3_block V c t, w4top_block V c t, w4bot_block V c t, cw_block V c t]
  exact msg_row _ _ _ _ _ _ _ _ _ _ p e (fun k => attr_block V c t p k e hi0) (fun k => rows_block V c t p k e hi0) q'

/-- What grid point t writes back is block t of the array of messages. -/
theorem written_back (c : Dev nD) (t : Fin cfg0.N) :
    (dat0 (F := Ideal) V c).flushed 8 t = ((cfg0.win 8).blk t).view.read (Elt Ideal) (msgs V c) := by
  show (cfg0.win 8).cut (grid0.coords t) ((dat0 V c).after 8 t) = _
  rw [after0_8]
  obtain ⟨-, -, -, -, -, -, -, -, -, -, -, -, -, -, -, -, -, h0, h1⟩ := block_index t
  funext j
  rw [View.read_apply]
  refine msg_block V c t j (((cfg0.win 8).blk t).view.emb j) ?_ ?_
  · show win0_8.index t (0 : Fin 2) * 16000 + 1 * (j 0).val = 16000 * t.val + (j 0).val; rw [h0]; omega
  · show win0_8.index t (1 : Fin 2) * 128 + 1 * (j 1).val = (j 1).val; rw [h1]; omega

end Cert.KernelIdeal.Region0.Rows

namespace Cert.KernelIdeal.Region0

open Idealize.ShloMosaic Idealize.ShloMosaic.TcCoe Idealize.ShloMosaic.ValueIdx Idealize.SL.Sem Cert.KernelIdeal Cert.KernelIdeal.Gen
open Idealize.ShloMosaic.Pipeline (Dat Cfg Window)

/-- The output array of region 0 after its last grid point, as a function of the arrays the region is entered with. -/
theorem arr_eq (V : (c : Dev nD) → (b : Ref sig .tc) → Buf (Elt Ideal) ((c : Thread nD τ).loc b)) (c : Dev nD) :
    ((dat0 (F := Ideal) V c).arrAt 8 cfg0.N : Spec.A2 Spec.EE 128)
      = Spec.msg (Spec.coefHalves (V c main_arg1) (V c main_arg3) (V c main_arg4) (V c main_arg5) (V c main_v0) (V c main_v1))
          (V c main_v6) (V c main_arg7) :=
  (dat0 (F := Ideal) V c).arrAt_eq_of_cover 8 (Rows.msgs V c) (fun t _ => Rows.written_back V c t) Rows.rows_covered

end Cert.KernelIdeal.Region0

end
-- ==== Proof.Region1Pay.lean ====
/-
  THE BODY OF THE FINALIZE KERNEL AS A VALUE ON ONE BLOCK of 10000 nodes: from the block of node features x (10000×128),
  the block of scattered messages (10000×128), the bias rows (1×128, 1×64, 1×64) and the two 128×64 skip matrices, the
  body's two stores leave in the output block, at (p, q): for q < 128 the rectified sum max(pre_{p,q} + b_q, 0); for
  q ≥ 128 the gated skip tanh(x_p·S1 + s1)·tanh(x_p·S2 + s2) at column q − 128. The two stored rectangles (columns
  0–127 and 128–191) tile the block, so reading the stores back gives one function of the index.

  The argument in three steps. (1) The stores the body's run finds are two pieces over two payloads, and each payload's
  loads read a whole input block, so the payloads are functions of the blocks themselves. (2) Each payload is read at an
  index (p, q): the pointwise operations read through, a 1×n row broadcast over the 10000 rows reads its column, and a
  product into a zero accumulator is the sum over the 128 contracted coordinates of x_{p,d}·S_{d,q}. (3) Each piece is the
  specification restricted to its rectangle (column q of the second rectangle is column 128 + q of the block), and every
  block index lies in one of the two rectangles; a list of pieces that are restrictions of ONE function reads back as
  that function wherever a piece covers.
-/
import proofs.«418350_j18073222382240_3_alg».proof.Proof.Spec
import proofs.«418350_j18073222382240_3_alg».proof.Proof.Gen.KernelIdeal.Frame
import Idealize.ShloMosaic.Lib.Pipeline.Value
import Idealize.ShloMosaic.Lib.ValueLayout
import Idealize.ShloMosaic.PureOps.Ideal.Laws

noncomputable section

open scoped BigOperators

namespace Cert.KernelIdeal.Region1

open Idealize.ShloMosaic Idealize.ShloMosaic.TcCoe Idealize.ShloMosaic.ValueIdx Idealize.SL.Sem Cert.KernelIdeal Cert.KernelIdeal.Gen

namespace Pay

/-! ## The stores the body's run finds -/

/-- The zero offsets of a whole-buffer access, however they are spelt. -/
theorem off00 : (![0, 0] : Fin 2 → Nat) = fun _ => 0 := funext fun a => by fin_cases a <;> rfl

section Pieces
variable {F : FTy → Type} [FloatOps F]

/-- The body's run finds two stores into the output block, the later one first: columns 128–191 take the gated-skip
    payload of the node features, the two skip matrices and their bias rows; columns 0–127 take the rectified payload of
    the scattered messages and the bias row. Each payload's loads read a whole input block, so they are the blocks. -/
theorem out1_A_7_canon (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S10000x192 .f32) (harg8 : arg8.IsWhole)
    (x0 x1 : Vec F S10000x128 .f32) (x2 : Vec F S1x128 .f32) (x3 : Vec F S128x64 .f32) (x4 : Vec F S1x64 .f32)
    (x5 : Vec F S128x64 .f32) (x6 : Vec F S1x64 .f32) :
    out1_A_7 (F := F) c i arg1 harg1 arg2 harg2 arg3 harg3 arg4 harg4 arg5 harg5 arg6 harg6 arg7 harg7 arg8 harg8 x0 x1 x2 x3 x4 x5 x6
      = View.canon ([⟨Rect.unit (s := S10000x192) ![0, 128] S10000x64.size inb_S10000x192_S10000x64_0_128, k1_pay2 x0 x3 x4 x5 x6⟩,
          ⟨Rect.unit (s := S10000x192) ![0, 0] S10000x128.size inb_S10000x192_S10000x128_0_0, k1_pay1 x1 x2⟩] : List (View.Piece (Elt F) S10000x192 .f32)) := by
  unfold out1_A_7
  rw [View.read_writes_eq_canon _ _ _ (cover1_A_7 c i arg1 harg1 arg2 harg2 arg3 harg3 arg4 harg4 arg5 harg5 arg6 harg6 arg7 harg7 arg8 harg8 x0 x1 x2 x3 x4 x5 x6)]
  unfold kernelRun1_A
  dsimp only
  sl_unfold_words
  simp only [View.readAt_eq_ld, harg1.read_unread, harg2.read_unread, harg3.read_unread, harg4.read_unread, harg5.read_unread,
    harg6.read_unread, harg7.read_unread, View.ld_unit_zero (S := S10000x128) off00, View.ld_unit_zero (S := S1x128) off00,
    View.ld_unit_zero (S := S128x64) off00, View.ld_unit_zero (S := S1x64) off00]

end Pieces

/-! ## The payloads at an index -/

/-- Columns 0–127: the scattered message plus the bias of its column, rectified. -/
theorem pay1_at (x1 : Vec Ideal S10000x128 .f32) (x2 : Vec Ideal S1x128 .f32) (p : Fin 10000) (q : Fin 128) :
    k1_pay1 (F := Ideal) x1 x2 (ix2 p q) = max (x1 (ix2 p q) + x2 (ix2 0 q)) 0 := by
  unfold k1_pay1
  simp only [shapeCast_self]
  rw [maximumf_apply, addf_apply, broadcast_apply, broadcastTo_1b_ab_apply]
  show max (x1 (ix2 p q) + x2 (ix2 0 q)) (Ideal.ofBits .f32 0x00000000#32) = _
  rw [Ideal.ofBits_zero_f32]

/-! The operand indices of the product of a 10000×128 block with a 128×64 matrix, axis by axis: at output index (p, q)
    and contraction index k they are (p, k) and (k, q). -/

theorem lhs_axis0 (i : S10000x64.Idx) (k : dot_S10000x128_S128x64_S10000x64_1_0_0_1_n_n.contr.Idx) :
    (dot_S10000x128_S128x64_S10000x64_1_0_0_1_n_n.lhsIdx i k 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_axis1 (i : S10000x64.Idx) (k : dot_S10000x128_S128x64_S10000x64_1_0_0_1_n_n.contr.Idx) :
    (dot_S10000x128_S128x64_S10000x64_1_0_0_1_n_n.lhsIdx i k 1).val = (k ⟨0, by decide⟩).val :=
  dot_S10000x128_S128x64_S10000x64_1_0_0_1_n_n.lhsIdx_val_of_single rfl i k
theorem rhs_axis0 (i : S10000x64.Idx) (k : dot_S10000x128_S128x64_S10000x64_1_0_0_1_n_n.contr.Idx) :
    (dot_S10000x128_S128x64_S10000x64_1_0_0_1_n_n.rhsIdx i k 0).val = (k ⟨0, by decide⟩).val :=
  dot_S10000x128_S128x64_S10000x64_1_0_0_1_n_n.rhsIdx_val_of_single rfl i k
theorem rhs_axis1 (i : S10000x64.Idx) (k : dot_S10000x128_S128x64_S10000x64_1_0_0_1_n_n.contr.Idx) :
    (dot_S10000x128_S128x64_S10000x64_1_0_0_1_n_n.rhsIdx i k 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The product into a zero accumulator, at (p, q): the row p of the block against the column q of the matrix. -/
theorem matmul_at (x : FVec Ideal S10000x128 .f32) (w : FVec Ideal S128x64 .f32) (p : Fin 10000) (q : Fin 64) :
    matmul (F := Ideal) dot_S10000x128_S128x64_S10000x64_1_0_0_1_n_n none x w (constant (F := Ideal) S10000x64 .f32 0x00000000#32) (ix2 p q)
      = ∑ d : Fin 128, x (ix2 p d) * w (ix2 d q) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- A hyperbolic tangent at an index is the extended reals' one of the element. -/
theorem tanh_at {s : Shape} {φ : FTy} (a : FVec Ideal s φ) (i : s.Idx) : tanh a i = Ideal.tanh (a i) := rfl

/-- Columns 128–191: the gated skip of node p at column q. -/
theorem pay2_at (x0 : Vec Ideal S10000x128 .f32) (x3 : Vec Ideal S128x64 .f32) (x4 : Vec Ideal S1x64 .f32)
    (x5 : Vec Ideal S128x64 .f32) (x6 : Vec Ideal S1x64 .f32) (p : Fin 10000) (q : Fin 64) :
    k1_pay2 (F := Ideal) x0 x3 x4 x5 x6 (ix2 p q)
      = Spec.skip (x0 : Spec.A2 10000 128) x3 (fun j => (x4 : Spec.A2 1 64) (ix2 0 j)) x5 (fun j => (x6 : Spec.A2 1 64) (ix2 0 j)) p q := by
  unfold k1_pay2 Spec.skip
  simp only [shapeCast_self]
  rw [mulf_apply, tanh_at, tanh_at, addf_apply, addf_apply, matmul_at, matmul_at, broadcastTo_1b_ab_apply, broadcastTo_1b_ab_apply]

/-! ## The two stored rectangles, and the specification on each -/

/-- The rectangle of columns 0–127 places its own index (p, q) at (p, q) of the block. -/
theorem emb_lo (p : Fin 10000) (q : Fin 128) :
    (Rect.unit (s := S10000x192) ![0, 0] S10000x128.size inb_S10000x192_S10000x128_0_0).emb (ix2 p q) = ix2 p (⟨q.val, by omega⟩ : Fin 192) :=
  funext fun a => Fin.ext (by
    match a with
    | ⟨0, _⟩ => show 0 + 1 * p.val = p.val; omega
    | ⟨1, _⟩ => show 0 + 1 * q.val = q.val; omega)

/-- The rectangle of columns 128–191 places its own index (p, q) at (p, 128 + q) of the block. -/
theorem emb_hi (p : Fin 10000) (q : Fin 64) :
    (Rect.unit (s := S10000x192) ![0, 128] S10000x64.size inb_S10000x192_S10000x64_0_128).emb (ix2 p q) = ix2 p (⟨128 + q.val, by omega⟩ : Fin 192) :=
  funext fun a => Fin.ext (by
    match a with
    | ⟨0, _⟩ => show 0 + 1 * p.val = p.val; omega
    | ⟨1, _⟩ => show 128 + 1 * q.val = 128 + q.val; omega)

/-- The specification at a column below 128: the rectified sum. -/
theorem fin_lo (x pre : Spec.A2 10000 128) (cb : Fin 128 → EReal) (sw1 : Spec.A2 128 64) (sb1 : Fin 64 → EReal)
    (sw2 : Spec.A2 128 64) (sb2 : Fin 64 → EReal) (p : Fin 10000) (q : Fin 128) :
    Spec.fin x pre cb sw1 sb1 sw2 sb2 (ix2 p (⟨q.val, by omega⟩ : Fin 192)) = max (pre (ix2 p q) + cb q) 0 := by
  unfold Spec.fin
  rw [dif_pos (show ((ix2 p (⟨q.val, by omega⟩ : Fin 192)) 1).val < 128 from q.isLt)]

/-- The specification at column 128 + q: the gated skip at column q. -/
theorem fin_hi (x pre : Spec.A2 10000 128) (cb : Fin 128 → EReal) (sw1 : Spec.A2 128 64) (sb1 : Fin 64 → EReal)
    (sw2 : Spec.A2 128 64) (sb2 : Fin 64 → EReal) (p : Fin 10000) (q : Fin 64) :
    Spec.fin x pre cb sw1 sb1 sw2 sb2 (ix2 p (⟨128 + q.val, by omega⟩ : Fin 192)) = Spec.skip x sw1 sb1 sw2 sb2 p q := by
  unfold Spec.fin
  rw [dif_neg (show ¬((ix2 p (⟨128 + q.val, by omega⟩ : Fin 192)) 1).val < 128 from by show ¬(128 + q.val < 128); omega)]
  exact congrArg (Spec.skip x sw1 sb1 sw2 sb2 p) (Fin.ext (by show 128 + q.val - 128 = q.val; omega))

/-- The store of columns 0–127 is the specification restricted to its rectangle. -/
theorem piece_lo (x0 x1 : Vec Ideal S10000x128 .f32) (x2 : Vec Ideal S1x128 .f32) (x3 : Vec Ideal S128x64 .f32) (x4 : Vec Ideal S1x64 .f32)
    (x5 : Vec Ideal S128x64 .f32) (x6 : Vec Ideal S1x64 .f32) (x : (Rect.unit (s := S10000x192) ![0, 0] S10000x128.size inb_S10000x192_S10000x128_0_0).shape.Idx) :
    k1_pay1 (F := Ideal) x1 x2 x = Spec.fin (x0 : Spec.A2 10000 128) (x1 : Spec.A2 10000 128) (fun j => (x2 : Spec.A2 1 128) (ix2 0 j)) x3
          (fun j => (x4 : Spec.A2 1 64) (ix2 0 j)) x5 (fun j => (x6 : Spec.A2 1 64) (ix2 0 j)) ((Rect.unit (s := S10000x192) ![0, 0] S10000x128.size inb_S10000x192_S10000x128_0_0).emb x) := by
  obtain ⟨p, q, rfl⟩ : ∃ (p : Fin 10000) (q : Fin 128), x = ix2 p q := ⟨x 0, x 1, eq_ix2 x⟩
  rw [emb_lo, fin_lo, pay1_at]

/-- The store of columns 128–191 is the specification restricted to its rectangle. -/
theorem piece_hi (x0 x1 : Vec Ideal S10000x128 .f32) (x2 : Vec Ideal S1x128 .f32) (x3 : Vec Ideal S128x64 .f32) (x4 : Vec Ideal S1x64 .f32)
    (x5 : Vec Ideal S128x64 .f32) (x6 : Vec Ideal S1x64 .f32) (x : (Rect.unit (s := S10000x192) ![0, 128] S10000x64.size inb_S10000x192_S10000x64_0_128).shape.Idx) :
    k1_pay2 (F := Ideal) x0 x3 x4 x5 x6 x = Spec.fin (x0 : Spec.A2 10000 128) (x1 : Spec.A2 10000 128) (fun j => (x2 : Spec.A2 1 128) (ix2 0 j)) x3
          (fun j => (x4 : Spec.A2 1 64) (ix2 0 j)) x5 (fun j => (x6 : Spec.A2 1 64) (ix2 0 j)) ((Rect.unit (s := S10000x192) ![0, 128] S10000x64.size inb_S10000x192_S10000x64_0_128).emb x) := by
  obtain ⟨p, q, rfl⟩ : ∃ (p : Fin 10000) (q : Fin 64), x = ix2 p q := ⟨x 0, x 1, eq_ix2 x⟩
  rw [emb_hi, fin_hi, pay2_at]

/-- A block index lies in the rectangle of columns 0–127 when its column is below 128. -/
theorem mem_lo (p : Fin 10000) (q : Fin 192) (h : q.val < 128) : ix2 p q ∈ (Rect.unit (s := S10000x192) ![0, 0] S10000x128.size inb_S10000x192_S10000x128_0_0).set := by
  rw [Rect.mem_set_unit]
  intro a
  match a with
  | ⟨0, _⟩ => show 0 ≤ p.val ∧ p.val < 0 + 10000; omega
  | ⟨1, _⟩ => show 0 ≤ q.val ∧ q.val < 0 + 128; omega

/-- … and in the rectangle of columns 128–191 otherwise. -/
theorem mem_hi (p : Fin 10000) (q : Fin 192) (h : ¬q.val < 128) : ix2 p q ∈ (Rect.unit (s := S10000x192) ![0, 128] S10000x64.size inb_S10000x192_S10000x64_0_128).set := by
  rw [Rect.mem_set_unit]
  intro a
  match a with
  | ⟨0, _⟩ => show 0 ≤ p.val ∧ p.val < 0 + 10000; omega
  | ⟨1, _⟩ => show 128 ≤ q.val ∧ q.val < 128 + 64; omega

end Pay

/-! ## The block after the body -/

/-- What the body's run leaves in the output window's staging buffer, from the input windows' blocks. -/
theorem out1_A_7_eq (c : Dev nD) (i : grid1.Coords) (arg1 : Memref sig .tc .vmem S10000x128 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S10000x192 .f32) (harg8 : arg8.IsWhole)
    (x0 x1 : Vec Ideal S10000x128 .f32) (x2 : Vec Ideal S1x128 .f32) (x3 : Vec Ideal S128x64 .f32) (x4 : Vec Ideal S1x64 .f32)
    (x5 : Vec Ideal S128x64 .f32) (x6 : Vec Ideal S1x64 .f32) :
    (out1_A_7 (F := Ideal) c i arg1 harg1 arg2 harg2 arg3 harg3 arg4 harg4 arg5 harg5 arg6 harg6 arg7 harg7 arg8 harg8 x0 x1 x2 x3 x4 x5 x6 : Spec.A2 10000 192)
      = Spec.fin (x0 : Spec.A2 10000 128) (x1 : Spec.A2 10000 128) (fun j => (x2 : Spec.A2 1 128) (ix2 0 j)) x3
          (fun j => (x4 : Spec.A2 1 64) (ix2 0 j)) x5 (fun j => (x6 : Spec.A2 1 64) (ix2 0 j)) := by
  rw [Pay.out1_A_7_canon]
  funext y
  obtain ⟨p, q, rfl⟩ : ∃ (p : Fin 10000) (q : Fin 192), y = ix2 p q := ⟨y 0, y 1, eq_ix2 y⟩
  refine View.canon_apply_of_pieces (Val := Elt Ideal) (S := S10000x192) (e := .f32) (Spec.fin (x0 : Spec.A2 10000 128) (x1 : Spec.A2 10000 128) (fun j => (x2 : Spec.A2 1 128) (ix2 0 j)) x3
          (fun j => (x4 : Spec.A2 1 64) (ix2 0 j)) x5 (fun j => (x6 : Spec.A2 1 64) (ix2 0 j))) _ ?_ (ix2 p q) ?_
  · intro pc hpc
    rcases List.mem_cons.mp hpc with rfl | hpc
    · exact Pay.piece_hi x0 x1 x2 x3 x4 x5 x6
    · obtain rfl := List.mem_singleton.mp hpc
      exact Pay.piece_lo x0 x1 x2 x3 x4 x5 x6
  · by_cases h : q.val < 128
    · exact ⟨_, List.mem_cons_of_mem _ (List.mem_singleton.mpr rfl), Pay.mem_lo p q h⟩
    · exact ⟨_, List.mem_cons_self, Pay.mem_hi p q h⟩

end Cert.KernelIdeal.Region1

end
-- ==== Proof.Region1Value.lean ====
/-
  REGION 1 (the finalize kernel) AS A VALUE: whatever the TensorCore's buffers hold when the region is entered, the
  array its output window leaves is, entry (n, q): for q < 128 the rectified sum max(pre_{n,q} + b_q, 0) of the
  scattered messages and the bias row; for q ≥ 128 the gated skip tanh(x_n·S1 + s1)·tanh(x_n·S2 + s2) at column
  q − 128. Grid point t writes rows 10000·t … 10000·t + 9999 by two stores, columns 0–127 and 128–191; the 10 blocks
  tile the 100 000 rows.
-/
import proofs.«418350_j18073222382240_3_alg».proof.Proof.Spec
import proofs.«418350_j18073222382240_3_alg».proof.Proof.Gen.KernelIdeal.Frame
import proofs.«418350_j18073222382240_3_alg».proof.Proof.Region1Pay
import Idealize.ShloMosaic.Lib.Pipeline.Value
import Idealize.ShloMosaic.PureOps.Ideal.Laws

noncomputable section

open scoped BigOperators

namespace Cert.KernelIdeal.Region1

open Idealize.ShloMosaic Idealize.ShloMosaic.TcCoe Idealize.ShloMosaic.ValueIdx Idealize.SL.Sem Cert.KernelIdeal Cert.KernelIdeal.Gen
open Idealize.ShloMosaic.Pipeline (Dat Cfg Window)

namespace Blocks

/-- The block index of every window at every grid point, decided over the 10 points: the node features, the scattered
    messages and the output move with the point along the rows; the bias rows and the two skip matrices stay at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row 10000·t + p of the finalize function reads only row p of a block of the node features and of the scattered
    messages that holds rows 10000·t … 10000·t + 9999 of the arrays. -/
theorem fin_rows (t : Nat) (ht : t < 10)
    (X P : Spec.A2 100000 128) (xb pb : Spec.A2 10000 128)
    (cb cb' : Fin 128 → EReal) (sw1 sw1' : Spec.A2 128 64) (sb1 sb1' : Fin 64 → EReal) (sw2 sw2' : Spec.A2 128 64)
    (sb2 sb2' : Fin 64 → EReal)
    (hx : ∀ (p : Fin 10000) (q : Fin 128), xb (ix2 p q) = X (ix2 (⟨10000 * t + p.val, by omega⟩ : Fin 100000) q))
    (hp : ∀ (p : Fin 10000) (q : Fin 128), pb (ix2 p q) = P (ix2 (⟨10000 * t + p.val, by omega⟩ : Fin 100000) q))
    (hcb : cb' = cb) (hsw1 : sw1' = sw1) (hsb1 : sb1' = sb1) (hsw2 : sw2' = sw2) (hsb2 : sb2' = sb2)
    (p : Fin 10000) (q : Fin 192) :
    Spec.fin xb pb cb' sw1' sb1' sw2' sb2' (ix2 p q)
      = Spec.fin X P cb sw1 sb1 sw2 sb2 (ix2 (⟨10000 * t + p.val, by omega⟩ : Fin 100000) q) := by
  subst hcb hsw1 hsb1 hsw2 hsb2
  unfold Spec.fin
  dsimp only
  split
  · rw [hp]
  · unfold Spec.skip
    simp only [hx]

variable (V : (c : Dev nD) → (b : Ref sig .tc) → Buf (Elt Ideal) ((c : Thread nD τ).loc b))

/-- The node features' block at point t is rows 10000·t … of the array. -/
theorem xblk_apply (c : Dev nD) (t : Fin cfg1.N) (ht : t.val < 10) (p : Fin 10000) (q : Fin 128) :
    (iblk1 V c 0 t : Spec.A2 10000 128) (ix2 p q)
      = (V c main_arg0 : Spec.A2 100000 128) (ix2 (⟨10000 * t.val + p.val, by omega⟩ : Fin 100000) q) := by
  obtain ⟨e0, e1, -⟩ := idx_facts t
  unfold iblk1
  rw [View.read_apply]
  show V c main_arg0 _ = V c main_arg0 _
  congr 1
  funext a; apply Fin.ext
  match a with
  | ⟨0, _⟩ => show win1_0.index t (0 : Fin 2) * 10000 + 1 * p.val = 10000 * t.val + p.val; rw [e0]; omega
  | ⟨1, _⟩ => show win1_0.index t (1 : Fin 2) * 128 + 1 * q.val = q.val; rw [e1]; omega

/-- The scattered messages' block at point t is rows 10000·t … of the array. -/
theorem pblk_apply (c : Dev nD) (t : Fin cfg1.N) (ht : t.val < 10) (p : Fin 10000) (q : Fin 128) :
    (iblk1 V c 1 t : Spec.A2 10000 128) (ix2 p q)
      = (V c main_v10 : Spec.A2 100000 128) (ix2 (⟨10000 * t.val + p.val, by omega⟩ : Fin 100000) q) := by
  obtain ⟨-, -, e0, e1, -⟩ := idx_facts t
  unfold iblk1
  rw [View.read_apply]
  show V c main_v10 _ = V c main_v10 _
  congr 1
  funext a; apply Fin.ext
  match a with
  | ⟨0, _⟩ => show win1_1.index t (0 : Fin 2) * 10000 + 1 * p.val = 10000 * t.val + p.val; rw [e0]; omega
  | ⟨1, _⟩ => show win1_1.index t (1 : Fin 2) * 128 + 1 * q.val = q.val; rw [e1]; omega

/-- The five whole-array windows' blocks are their arrays, at every point. -/
theorem cbblk_eq (c : Dev nD) (t : Fin cfg1.N) : (iblk1 V c 2 t : Spec.A2 1 128) = V c main_v11 := by
  obtain ⟨-, -, -, -, e0, e1, -⟩ := idx_facts t
  funext i
  obtain ⟨p, q, rfl⟩ : ∃ (p : Fin 1) (q : Fin 128), i = ix2 p q := ⟨i 0, i 1, eq_ix2 i⟩
  unfold iblk1
  rw [View.read_apply]
  show V c main_v11 _ = V c main_v11 _
  congr 1
  funext a; apply Fin.ext
  match a with
  | ⟨0, _⟩ => show win1_2.index t (0 : Fin 2) * 1 + 1 * p.val = p.val; rw [e0]; omega
  | ⟨1, _⟩ => show win1_2.index t (1 : Fin 2) * 128 + 1 * q.val = q.val; rw [e1]; omega

theorem sw1blk_eq (c : Dev nD) (t : Fin cfg1.N) : (iblk1 V c 3 t : Spec.A2 128 64) = V c main_arg9 := by
  obtain ⟨-, -, -, -, -, -, e0, e1, -⟩ := idx_facts t
  funext i
  obtain ⟨p, q, rfl⟩ : ∃ (p : Fin 128) (q : Fin 64), i = ix2 p q := ⟨i 0, i 1, eq_ix2 i⟩
  unfold iblk1
  rw [View.read_apply]
  show V c main_arg9 _ = V c main_arg9 _
  congr 1
  funext a; apply Fin.ext
  match a with
  | ⟨0, _⟩ => show win1_3.index t (0 : Fin 2) * 128 + 1 * p.val = p.val; rw [e0]; omega
  | ⟨1, _⟩ => show win1_3.index t (1 : Fin 2) * 64 + 1 * q.val = q.val; rw [e1]; omega

theorem sb1blk_eq (c : Dev nD) (t : Fin cfg1.N) : (iblk1 V c 4 t : Spec.A2 1 64) = V c main_v12 := by
  obtain ⟨-, -, -, -, -, -, -, -, e0, e1, -⟩ := idx_facts t
  funext i
  obtain ⟨p, q, rfl⟩ : ∃ (p : Fin 1) (q : Fin 64), i = ix2 p q := ⟨i 0, i 1, eq_ix2 i⟩
  unfold iblk1
  rw [View.read_apply]
  show V c main_v12 _ = V c main_v12 _
  congr 1
  funext a; apply Fin.ext
  match a with
  | ⟨0, _⟩ => show win1_4.index t (0 : Fin 2) * 1 + 1 * p.val = p.val; rw [e0]; omega
  | ⟨1, _⟩ => show win1_4.index t (1 : Fin 2) * 64 + 1 * q.val = q.val; rw [e1]; omega

theorem sw2blk_eq (c : Dev nD) (t : Fin cfg1.N) : (iblk1 V c 5 t : Spec.A2 128 64) = V c main_arg11 := by
  obtain ⟨-, -, -, -, -, -, -, -, -, -, e0, e1, -⟩ := idx_facts t
  funext i
  obtain ⟨p, q, rfl⟩ : ∃ (p : Fin 128) (q : Fin 64), i = ix2 p q := ⟨i 0, i 1, eq_ix2 i⟩
  unfold iblk1
  rw [View.read_apply]
  show V c main_arg11 _ = V c main_arg11 _
  congr 1
  funext a; apply Fin.ext
  match a with
  | ⟨0, _⟩ => show win1_5.index t (0 : Fin 2) * 128 + 1 * p.val = p.val; rw [e0]; omega
  | ⟨1, _⟩ => show win1_5.index t (1 : Fin 2) * 64 + 1 * q.val = q.val; rw [e1]; omega

theorem sb2blk_eq (c : Dev nD) (t : Fin cfg1.N) : (iblk1 V c 6 t : Spec.A2 1 64) = V c main_v13 := by
  obtain ⟨-, -, -, -, -, -, -, -, -, -, -, -, e0, e1, -⟩ := idx_facts t
  funext i
  obtain ⟨p, q, rfl⟩ : ∃ (p : Fin 1) (q : Fin 64), i = ix2 p q := ⟨i 0, i 1, eq_ix2 i⟩
  unfold iblk1
  rw [View.read_apply]
  show V c main_v13 _ = V c main_v13 _
  congr 1
  funext a; apply Fin.ext
  match a with
  | ⟨0, _⟩ => show win1_6.index t (0 : Fin 2) * 1 + 1 * p.val = p.val; rw [e0]; omega
  | ⟨1, _⟩ => show win1_6.index t (1 : Fin 2) * 64 + 1 * q.val = q.val; rw [e1]; omega

/-- The array the region leaves: the finalize function of the arrays the region is entered with. -/
abbrev finArr (c : Dev nD) : Spec.A2 100000 192 :=
  Spec.fin (V c main_arg0) (V c main_v10) (fun j => (V c main_v11 : Spec.A2 1 128) (ix2 0 j)) (V c main_arg9)
    (fun j => (V c main_v12 : Spec.A2 1 64) (ix2 0 j)) (V c main_arg11)
    (fun j => (V c main_v13 : Spec.A2 1 64) (ix2 0 j))

/-- Where entry (p, q) of the output's block at point t sits in the array: row 10000·t + p, column q. -/
theorem oblk_emb (t : Fin cfg1.N) (ht : t.val < 10) (p : Fin 10000) (q : Fin 192) :
    ((cfg1.win 7).blk t).view.emb (ix2 p q) = ix2 (⟨10000 * t.val + p.val, by omega⟩ : Fin 100000) q := by
  obtain ⟨-, -, -, -, -, -, -, -, -, -, -, -, -, -, e0, e1⟩ := idx_facts t
  funext a; apply Fin.ext
  match a with
  | ⟨0, _⟩ => show win1_7.index t (0 : Fin 2) * 10000 + 1 * p.val = 10000 * t.val + p.val; rw [e0]; omega
  | ⟨1, _⟩ => show win1_7.index t (1 : Fin 2) * 192 + 1 * q.val = q.val; rw [e1]; omega

/-- What point t writes back is block t of the finalize function of the arrays. -/
theorem flushed_eq (c : Dev nD) (t : Fin cfg1.N) :
    (dat1 (F := Ideal) V c).flushed 7 t = ((cfg1.win 7).blk t).view.read (Elt Ideal) (finArr V c) := by
  have ht : t.val < 10 := lt_of_lt_of_eq t.isLt N_1
  show (cfg1.win 7).cut (grid1.coords t) ((dat1 V c).after 7 t) = _
  rw [after1_7]
  unfold outsAt1
  rw [out1_A_7_eq]
  funext j
  obtain ⟨p, q, rfl⟩ : ∃ (p : Fin 10000) (q : Fin 192), j = ix2 p q := ⟨j 0, j 1, eq_ix2 j⟩
  rw [View.read_apply]
  show Spec.fin _ _ _ _ _ _ _ (ix2 p q) = finArr V c (((cfg1.win 7).blk t).view.emb (ix2 p q))
  rw [oblk_emb t ht p q]
  exact fin_rows t.val ht (V c main_arg0) (V c main_v10) (iblk1 V c 0 t) (iblk1 V c 1 t)
    _ _ _ _ _ _ _ _ _ _
    (xblk_apply V c t ht) (pblk_apply V c t ht)
    (by rw [cbblk_eq]) (sw1blk_eq V c t) (by rw [sb1blk_eq]) (sw2blk_eq V c t) (by rw [sb2blk_eq]) p q

/-- A row of the array lies in point t's block iff it is one of rows 10000·t … 10000·t + 9999. -/
theorem mem_blk (t : Fin cfg1.N) (i : S100000x192.Idx) :
    i ∈ ((cfg1.win 7).blk t).view.set ↔ ∀ a : Fin 2, win1_7.index t a * S10000x192.size a ≤ (i a).val ∧ (i a).val < win1_7.index t a * S10000x192.size a + S10000x192.size a := by
  show i ∈ ((View.whole main_v14).slice (win1_7.rect t)).set ↔ _
  rw [View.set_slice_whole, Rect.mem_set_unit]
  exact Iff.rfl

/-- Every entry of the array is in some point's block: row r in that of point r / 10000. -/
theorem cover (i : S100000x192.Idx) : ∃ t : Fin cfg1.N, (cfg1.win 7).flush t = true ∧ i ∈ ((cfg1.win 7).blk t).view.set := by
  have hi0 : (i 0).val < 100000 := idx2_lt0 i
  have hi1 : (i 1).val < 192 := idx2_lt1 i
  have hN : cfg1.N = 10 := N_1
  let t : Fin cfg1.N := ⟨(i 0).val / 10000, by rw [hN]; omega⟩
  obtain ⟨-, -, -, -, -, -, -, -, -, -, -, -, -, -, e0, e1⟩ := idx_facts t
  have e0' : win1_7.index t (0 : Fin 2) = (i 0).val / 10000 := e0
  refine ⟨t, flush1_7 t, ?_⟩
  rw [mem_blk]
  intro a
  match a with
  | ⟨0, _⟩ => show win1_7.index t (0 : Fin 2) * 10000 ≤ (i 0).val ∧ (i 0).val < win1_7.index t (0 : Fin 2) * 10000 + 10000; rw [e0']; omega
  | ⟨1, _⟩ => show win1_7.index t (1 : Fin 2) * 192 ≤ (i 1).val ∧ (i 1).val < win1_7.index t (1 : Fin 2) * 192 + 192; rw [e1]; omega

end Blocks

/-- The output array of region 1 after its last grid point, as a function of the arrays the region is entered with. -/
theorem arr_eq (V : (c : Dev nD) → (b : Ref sig .tc) → Buf (Elt Ideal) ((c : Thread nD τ).loc b)) (c : Dev nD) :
    ((dat1 (F := Ideal) V c).arrAt 7 cfg1.N : Spec.A2 Spec.NN 192)
      = Spec.fin (V c main_arg0) (V c main_v10) (fun j => (V c main_v11 : Spec.A2 1 128) (ix2 0 j)) (V c main_arg9)
          (fun j => (V c main_v12 : Spec.A2 1 64) (ix2 0 j)) (V c main_arg11)
          (fun j => (V c main_v13 : Spec.A2 1 64) (ix2 0 j)) :=
  (dat1 (F := Ideal) V c).arrAt_eq_of_cover 7 (Blocks.finArr V c) (fun t _ => Blocks.flushed_eq V c t) Blocks.cover

end Cert.KernelIdeal.Region1

end
-- ==== Proof.KernelValue.lean ====
/-
  THE KERNEL PROGRAM'S RESULT IS THE SPECIFICATION (the kernel's arrangement). The result array is what region 1's
  write-backs leave; region 1 reads the node features, the scattered messages and the three bias rows; the scattered
  messages are the sum by destination of what region 0's write-backs leave; region 0 reads the edge attributes, the
  looked-up source rows, the three small matrices, the two halves of W4 and the convolution weights. Under the range
  hypothesis on the source indices the looked-up rows are the table's rows, and the chain composes to `Spec.outK`.
-/
import proofs.«418350_j18073222382240_3_alg».proof.Proof.Spec
import proofs.«418350_j18073222382240_3_alg».proof.Proof.HostValue
import proofs.«418350_j18073222382240_3_alg».proof.Proof.HostValueA
import proofs.«418350_j18073222382240_3_alg».proof.Proof.HostValueB
import proofs.«418350_j18073222382240_3_alg».proof.Proof.Region0Value
import proofs.«418350_j18073222382240_3_alg».proof.Proof.Region1Value

noncomputable section

open scoped BigOperators

namespace Cert.KernelIdeal.KernelValue

open Idealize.ShloMosaic Idealize.ShloMosaic.TcCoe Idealize.ShloMosaic.ValueIdx Idealize.SL.Sem Cert.KernelIdeal Cert.KernelIdeal.Gen
open Cert.KernelIdeal.HostValue

variable (m : (ℓ : Loc nD τ sig) → Buf (Elt Ideal) ℓ) (ρ : Dev nD → PrngReg) (c : Dev nD)

/-- The contents of the result array at the last boundary of @main, as the kernel's arrangement of the specification. -/
theorem result_eq (h : Spec.SrcInRange (m ((c : Thread nD τ).loc main_arg2))) :
    (W5 (F := Ideal) m ρ c (Proc.devRef .tc main_v14) : Spec.A2 Spec.NN 192)
      = Spec.outK (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12)) := by
  -- the result array is window 7 of region 1
  refine (W5_arr m ρ c 7).trans ?_
  refine (Cert.KernelIdeal.Region1.arr_eq (V4 m ρ) c).trans ?_
  -- region 1's operands
  rw [V4_arg0 m ρ c, V4_v10 m ρ c, V4_v11 m ρ c, V4_arg9 m ρ c, V4_v12 m ρ c, V4_arg11 m ρ c, V4_v13 m ρ c]
  -- region 0's output and operands
  rw [Cert.KernelIdeal.Region0.arr_eq (V2 m ρ) c, V2_arg1 m ρ c, V2_arg3 m ρ c, V2_arg4 m ρ c, V2_arg5 m ρ c,
    V2_v0 m ρ c, V2_v1 m ρ c, V2_v6 m ρ c h, V2_arg7 m ρ c]
  rfl

end Cert.KernelIdeal.KernelValue

end
-- ==== Proof.RefValue.lean ====
/-
  THE REFERENCE'S RESULT IS THE SPECIFICATION: the composed term of the reference's 88 host operations, read at an
  index (n, q), is the reference arrangement of the specification: for q < 128 the rectified sum of the bias and the
  four products of scattered, coefficient-weighted gathered rows with the convolution weights; for q ≥ 128 the gated
  skip. The gather reads the clamped signed start word; the scatter adds update e to the row its destination word
  names, or nowhere.
-/
import proofs.«418350_j18073222382240_3_alg».proof.Proof.Spec
import proofs.«418350_j18073222382240_3_alg».proof.Proof.LibRowGatherScatter
import proofs.«418350_j18073222382240_3_alg».proof.Proof.Gen.ReferenceIdeal.Read

noncomputable section

open scoped BigOperators

namespace Cert.ReferenceIdeal.RefValue

open Idealize.ShloMosaic Idealize.ShloMosaic.TcCoe Idealize.ShloMosaic.ValueIdx Idealize.SL.Sem Cert.ReferenceIdeal
open Cert.ReferenceIdeal.Read

/-! ## The edge coefficients -/

/-- The rectified linear part, entry (e, j). -/
theorem lin_eq (x1 : Spec.A2 1600000 8) (x3 : Spec.A2 8 16) (e : Fin 1600000) (j : Fin 16) :
    val_main_v1 (F := Ideal) x1 x3 (ix2 e j) = Spec.lin x1 x3 e j := by
  have el : ∀ k : Fin 8, lidx_main_v0 (ix2 e j) k = ix2 e k := fun k =>
    funext fun a => Fin.ext (by match a with | ⟨0, _⟩ => rfl | ⟨1, _⟩ => rfl)
  have er : ∀ k : Fin 8, ridx_main_v0 (ix2 e j) k = ix2 k j := fun k =>
    funext fun a => Fin.ext (by match a with | ⟨0, _⟩ => rfl | ⟨1, _⟩ => rfl)
  rw [val_main_v1_apply, val_main_v0_apply, val_main_call0_v0_apply, val_main_call0_cst_apply]
  simp only [el, er, Ideal.maximumf_def, Ideal.ofBits_def, Ideal.ofBits_zero_f32]
  rfl

/-- The gated part, entry (e, j). -/
theorem gat_eq (x1 : Spec.A2 1600000 8) (x4 x5 : Spec.A2 8 16) (e : Fin 1600000) (j : Fin 16) :
    val_main_v6 (F := Ideal) x1 x4 x5 (ix2 e j) = Spec.gat x1 x4 x5 e j := by
  have el2 : ∀ k : Fin 8, lidx_main_v2 (ix2 e j) k = ix2 e k := fun k =>
    funext fun a => Fin.ext (by match a with | ⟨0, _⟩ => rfl | ⟨1, _⟩ => rfl)
  have er2 : ∀ k : Fin 8, ridx_main_v2 (ix2 e j) k = ix2 k j := fun k =>
    funext fun a => Fin.ext (by match a with | ⟨0, _⟩ => rfl | ⟨1, _⟩ => rfl)
  have el4 : ∀ k : Fin 8, lidx_main_v4 (ix2 e j) k = ix2 e k := fun k =>
    funext fun a => Fin.ext (by match a with | ⟨0, _⟩ => rfl | ⟨1, _⟩ => rfl)
  have er4 : ∀ k : Fin 8, ridx_main_v4 (ix2 e j) k = ix2 k j := fun k =>
    funext fun a => Fin.ext (by match a with | ⟨0, _⟩ => rfl | ⟨1, _⟩ => rfl)
  rw [val_main_v6_apply, val_main_v3_apply, val_main_v5_apply, val_main_v2_apply, val_main_v4_apply]
  simp only [el2, er2, el4, er4, Ideal.mulf_def, Ideal.hostUnary_tanh_def]
  rfl

/-- The 32 concatenated columns, entry (e, j): the linear part below 16, the gated part from 16 on. -/
theorem cat_eq (x1 : Spec.A2 1600000 8) (x3 x4 x5 : Spec.A2 8 16) (e : Fin 1600000) (j : Fin 32) :
    val_main_v7 (F := Ideal) x1 x3 x4 x5 (ix2 e j) = Spec.cat x1 x3 x4 x5 e j := by
  unfold val_main_v7 Spec.cat
  by_cases h : j.val < 16
  · rw [dif_pos h, ← lin_eq]
    refine concatenate_pair_apply_left (t := S1600000x32) (s₁ := S1600000x16) (s₂ := S1600000x16) (1 : Fin 2) _ _ _ (ix2 e j) rfl
      (ix2 e ⟨j.val, h⟩) (fun b => ?_)
    match b with
    | ⟨0, _⟩ => rfl
    | ⟨1, _⟩ => rfl
  · rw [dif_neg h, ← gat_eq]
    have hj : j.val - 16 < 16 := by have := j.isLt; omega
    refine concatenate_pair_apply_right (t := S1600000x32) (s₁ := S1600000x16) (s₂ := S1600000x16) (1 : Fin 2) _ _ _ (ix2 e j) rfl rfl
      (ix2 e ⟨j.val - 16, hj⟩) (fun b hb => ?_) ?_
    · match b with
      | ⟨0, _⟩ => rfl
      | ⟨1, _⟩ => exact absurd rfl hb
    · show j.val - 16 + 16 = j.val
      omega

/-- The coefficients, entry (e, k). -/
theorem coef_eq (x1 : Spec.A2 1600000 8) (x3 x4 x5 : Spec.A2 8 16) (x6 : Spec.A2 32 4) (e : Fin 1600000) (k : Fin 4) :
    val_main_v9 (F := Ideal) x1 x3 x4 x5 x6 (ix2 e k) = Spec.coef x1 x3 x4 x5 x6 e k := by
  have el : ∀ j : Fin 32, lidx_main_v8 (ix2 e k) j = ix2 e j := fun j =>
    funext fun a => Fin.ext (by match a with | ⟨0, _⟩ => rfl | ⟨1, _⟩ => rfl)
  have er : ∀ j : Fin 32, ridx_main_v8 (ix2 e k) j = ix2 j k := fun j =>
    funext fun a => Fin.ext (by match a with | ⟨0, _⟩ => rfl | ⟨1, _⟩ => rfl)
  rw [val_main_v9_apply, val_main_v8_apply, val_main_call1_v0_apply, val_main_call1_cst_apply]
  simp only [el, er, cat_eq, Ideal.maximumf_def, Ideal.ofBits_def, Ideal.ofBits_zero_f32]
  rfl

/-! ## The source rows -/

/-- Row 0 of the edge index, as a vector: entry e. -/
theorem src0_eq (x2 : Spec.I2 2 1600000) (e : Fin 1600000) :
    val_main_v11 (F := Ideal) x2 (ix1 e) = x2 (ix2 0 e) := by
  rw [val_main_v11_apply, val_main_v10_apply]
  refine congrArg x2 (funext fun a => Fin.ext ?_)
  match a with
  | ⟨0, _⟩ => rfl
  | ⟨1, _⟩ =>
    show e.val % 1600000 = e.val
    have := e.isLt
    omega

/-- The start word of edge e's row lookup. -/
theorem srcWord_eq (x2 : Spec.I2 2 1600000) (e : Fin 1600000) :
    val_main_v18 (F := Ideal) x2 (ix1 e) = Spec.srcWord x2 e := by
  rw [val_main_v18_apply, val_main_v15_apply, val_main_v17_apply, val_main_v14_apply, val_main_v16_apply,
    val_main_c_apply, val_main_c_0_apply, src0_eq]
  exact Hand.wrap_select _ _

/-- The gathered source features, entry (e, q). -/
theorem xj_eq (x0 : Spec.A2 100000 128) (x2 : Spec.I2 2 1600000) (e : Fin 1600000) (q : Fin 128) :
    val_main_v20 (F := Ideal) x0 x2 (ix2 e q) = Spec.xj x0 x2 (ix2 e q) := by
  unfold val_main_v20
  have hs : val_main_v19 (F := Ideal) x2 (ix2 e 0) = Spec.srcWord x2 e := by
    rw [val_main_v19_apply, ← srcWord_eq]
    refine congrArg _ (funext fun a => Fin.ext ?_)
    match a with
    | ⟨0, _⟩ => rfl
  exact Hand.rowGather_apply_of_eq (N := 100000) (E := 1600000) (D := 128) (by decide) _ x0 _ e q _ hs

/-! ## The accumulating scatter by destination -/

/-- Row 1 of the edge index as a column: entry (e, 0) is the destination word of e. -/
theorem dst25_eq (x2 : Spec.I2 2 1600000) (e : Fin 1600000) :
    val_main_v25 (F := Ideal) x2 (ix2 e 0) = x2 (ix2 1 e) := by
  rw [val_main_v25_apply, val_main_v13_apply, val_main_v12_apply]
  refine congrArg x2 (funext fun a => Fin.ext ?_)
  match a with
  | ⟨0, _⟩ => rfl
  | ⟨1, _⟩ =>
    show e.val % 1600000 = e.val
    have := e.isLt
    omega

/-- Row 1 of the edge index as a column: entry (e, 0) is the destination word of e. -/
theorem dst37_eq (x2 : Spec.I2 2 1600000) (e : Fin 1600000) :
    val_main_v37 (F := Ideal) x2 (ix2 e 0) = x2 (ix2 1 e) := by
  rw [val_main_v37_apply, val_main_v13_apply, val_main_v12_apply]
  refine congrArg x2 (funext fun a => Fin.ext ?_)
  match a with
  | ⟨0, _⟩ => rfl
  | ⟨1, _⟩ =>
    show e.val % 1600000 = e.val
    have := e.isLt
    omega

/-- Row 1 of the edge index as a column: entry (e, 0) is the destination word of e. -/
theorem dst47_eq (x2 : Spec.I2 2 1600000) (e : Fin 1600000) :
    val_main_v47 (F := Ideal) x2 (ix2 e 0) = x2 (ix2 1 e) := by
  rw [val_main_v47_apply, val_main_v13_apply, val_main_v12_apply]
  refine congrArg x2 (funext fun a => Fin.ext ?_)
  match a with
  | ⟨0, _⟩ => rfl
  | ⟨1, _⟩ =>
    show e.val % 1600000 = e.val
    have := e.isLt
    omega

/-- Row 1 of the edge index as a column: entry (e, 0) is the destination word of e. -/
theorem dst57_eq (x2 : Spec.I2 2 1600000) (e : Fin 1600000) :
    val_main_v57 (F := Ideal) x2 (ix2 e 0) = x2 (ix2 1 e) := by
  rw [val_main_v57_apply, val_main_v13_apply, val_main_v12_apply]
  refine congrArg x2 (funext fun a => Fin.ext ?_)
  match a with
  | ⟨0, _⟩ => rfl
  | ⟨1, _⟩ =>
    show e.val % 1600000 = e.val
    have := e.isLt
    omega

/-- The update of spectral coefficient 0, entry (e, q): the coefficient times the gathered feature. -/
theorem upd0_eq (x0 : Spec.A2 100000 128) (x1 : Spec.A2 1600000 8) (x2 : Spec.I2 2 1600000) (x3 x4 x5 : Spec.A2 8 16)
    (x6 : Spec.A2 32 4) (e : Fin 1600000) (q : Fin 128) :
    val_main_v23 (F := Ideal) x0 x1 x2 x3 x4 x5 x6 (ix2 e q)
      = Spec.coef x1 x3 x4 x5 x6 e 0 * Spec.xj x0 x2 (ix2 e q) := by
  rw [val_main_v23_apply, val_main_v22_apply, val_main_v21_apply, xj_eq, ← coef_eq, Ideal.mulf_def]
  refine congrArg (fun z => val_main_v9 (F := Ideal) x1 x3 x4 x5 x6 z * _) (funext fun a => Fin.ext ?_)
  match a with
  | ⟨0, _⟩ => rfl
  | ⟨1, _⟩ => rfl

/-- The update of spectral coefficient 1, entry (e, q): the coefficient times the gathered feature. -/
theorem upd1_eq (x0 : Spec.A2 100000 128) (x1 : Spec.A2 1600000 8) (x2 : Spec.I2 2 1600000) (x3 x4 x5 : Spec.A2 8 16)
    (x6 : Spec.A2 32 4) (e : Fin 1600000) (q : Fin 128) :
    val_main_v35 (F := Ideal) x0 x1 x2 x3 x4 x5 x6 (ix2 e q)
      = Spec.coef x1 x3 x4 x5 x6 e 1 * Spec.xj x0 x2 (ix2 e q) := by
  rw [val_main_v35_apply, val_main_v34_apply, val_main_v33_apply, xj_eq, ← coef_eq, Ideal.mulf_def]
  refine congrArg (fun z => val_main_v9 (F := Ideal) x1 x3 x4 x5 x6 z * _) (funext fun a => Fin.ext ?_)
  match a with
  | ⟨0, _⟩ => rfl
  | ⟨1, _⟩ => rfl

/-- The update of spectral coefficient 2, entry (e, q): the coefficient times the gathered feature. -/
theorem upd2_eq (x0 : Spec.A2 100000 128) (x1 : Spec.A2 1600000 8) (x2 : Spec.I2 2 1600000) (x3 x4 x5 : Spec.A2 8 16)
    (x6 : Spec.A2 32 4) (e : Fin 1600000) (q : Fin 128) :
    val_main_v45 (F := Ideal) x0 x1 x2 x3 x4 x5 x6 (ix2 e q)
      = Spec.coef x1 x3 x4 x5 x6 e 2 * Spec.xj x0 x2 (ix2 e q) := by
  rw [val_main_v45_apply, val_main_v44_apply, val_main_v43_apply, xj_eq, ← coef_eq, Ideal.mulf_def]
  refine congrArg (fun z => val_main_v9 (F := Ideal) x1 x3 x4 x5 x6 z * _) (funext fun a => Fin.ext ?_)
  match a with
  | ⟨0, _⟩ => rfl
  | ⟨1, _⟩ => rfl

/-- The update of spectral coefficient 3, entry (e, q): the coefficient times the gathered feature. -/
theorem upd3_eq (x0 : Spec.A2 100000 128) (x1 : Spec.A2 1600000 8) (x2 : Spec.I2 2 1600000) (x3 x4 x5 : Spec.A2 8 16)
    (x6 : Spec.A2 32 4) (e : Fin 1600000) (q : Fin 128) :
    val_main_v55 (F := Ideal) x0 x1 x2 x3 x4 x5 x6 (ix2 e q)
      = Spec.coef x1 x3 x4 x5 x6 e 3 * Spec.xj x0 x2 (ix2 e q) := by
  rw [val_main_v55_apply, val_main_v54_apply, val_main_v53_apply, xj_eq, ← coef_eq, Ideal.mulf_def]
  refine congrArg (fun z => val_main_v9 (F := Ideal) x1 x3 x4 x5 x6 z * _) (funext fun a => Fin.ext ?_)
  match a with
  | ⟨0, _⟩ => rfl
  | ⟨1, _⟩ => rfl

/-- The scattered sum of spectral coefficient 0, entry (n, d): the sum over the edges whose destination is n. -/
theorem agg0_eq (x0 : Spec.A2 100000 128) (x1 : Spec.A2 1600000 8) (x2 : Spec.I2 2 1600000) (x3 x4 x5 : Spec.A2 8 16)
    (x6 : Spec.A2 32 4) (n : Fin 100000) (d : Fin 128) :
    val_main_v26 (F := Ideal) x0 x1 x2 x3 x4 x5 x6 (ix2 n d)
      = Spec.agg (Spec.coef x1 x3 x4 x5 x6) (Spec.xj x0 x2) x2 0 (ix2 n d) := by
  unfold val_main_v26
  refine (Hand.rowScatterAdd_apply (N := 100000) (E := 1600000) (D := 128) _ (val_main_v25 (F := Ideal) x2)
    (val_main_v24 (F := Ideal)) (val_main_v23 (F := Ideal) x0 x1 x2 x3 x4 x5 x6) n d).trans ?_
  rw [val_main_v24_apply, val_main_cst_apply, Ideal.ofBits_def, Ideal.ofBits_zero_f32, zero_add]
  simp only [dst25_eq, upd0_eq]
  rfl

/-- The scattered sum of spectral coefficient 1, entry (n, d): the sum over the edges whose destination is n. -/
theorem agg1_eq (x0 : Spec.A2 100000 128) (x1 : Spec.A2 1600000 8) (x2 : Spec.I2 2 1600000) (x3 x4 x5 : Spec.A2 8 16)
    (x6 : Spec.A2 32 4) (n : Fin 100000) (d : Fin 128) :
    val_main_v38 (F := Ideal) x0 x1 x2 x3 x4 x5 x6 (ix2 n d)
      = Spec.agg (Spec.coef x1 x3 x4 x5 x6) (Spec.xj x0 x2) x2 1 (ix2 n d) := by
  unfold val_main_v38
  refine (Hand.rowScatterAdd_apply (N := 100000) (E := 1600000) (D := 128) _ (val_main_v37 (F := Ideal) x2)
    (val_main_v36 (F := Ideal)) (val_main_v35 (F := Ideal) x0 x1 x2 x3 x4 x5 x6) n d).trans ?_
  rw [val_main_v36_apply, val_main_cst_1_apply, Ideal.ofBits_def, Ideal.ofBits_zero_f32, zero_add]
  simp only [dst37_eq, upd1_eq]
  rfl

/-- The scattered sum of spectral coefficient 2, entry (n, d): the sum over the edges whose destination is n. -/
theorem agg2_eq (x0 : Spec.A2 100000 128) (x1 : Spec.A2 1600000 8) (x2 : Spec.I2 2 1600000) (x3 x4 x5 : Spec.A2 8 16)
    (x6 : Spec.A2 32 4) (n : Fin 100000) (d : Fin 128) :
    val_main_v48 (F := Ideal) x0 x1 x2 x3 x4 x5 x6 (ix2 n d)
      = Spec.agg (Spec.coef x1 x3 x4 x5 x6) (Spec.xj x0 x2) x2 2 (ix2 n d) := by
  unfold val_main_v48
  refine (Hand.rowScatterAdd_apply (N := 100000) (E := 1600000) (D := 128) _ (val_main_v47 (F := Ideal) x2)
    (val_main_v46 (F := Ideal)) (val_main_v45 (F := Ideal) x0 x1 x2 x3 x4 x5 x6) n d).trans ?_
  rw [val_main_v46_apply, val_main_cst_2_apply, Ideal.ofBits_def, Ideal.ofBits_zero_f32, zero_add]
  simp only [dst47_eq, upd2_eq]
  rfl

/-- The scattered sum of spectral coefficient 3, entry (n, d): the sum over the edges whose destination is n. -/
theorem agg3_eq (x0 : Spec.A2 100000 128) (x1 : Spec.A2 1600000 8) (x2 : Spec.I2 2 1600000) (x3 x4 x5 : Spec.A2 8 16)
    (x6 : Spec.A2 32 4) (n : Fin 100000) (d : Fin 128) :
    val_main_v58 (F := Ideal) x0 x1 x2 x3 x4 x5 x6 (ix2 n d)
      = Spec.agg (Spec.coef x1 x3 x4 x5 x6) (Spec.xj x0 x2) x2 3 (ix2 n d) := by
  unfold val_main_v58
  refine (Hand.rowScatterAdd_apply (N := 100000) (E := 1600000) (D := 128) _ (val_main_v57 (F := Ideal) x2)
    (val_main_v56 (F := Ideal)) (val_main_v55 (F := Ideal) x0 x1 x2 x3 x4 x5 x6) n d).trans ?_
  rw [val_main_v56_apply, val_main_cst_3_apply, Ideal.ofBits_def, Ideal.ofBits_zero_f32, zero_add]
  simp only [dst57_eq, upd3_eq]
  rfl

/-! ## The products with the convolution weights -/

/-- Slab 0 of the convolution weights as a matrix: entry (d, j). -/
theorem cw0_eq (x7 : Spec.A3 4 128 128) (d j : Fin 128) :
    val_main_v28 (F := Ideal) x7 (ix2 d j) = x7 (ix3 0 d j) := by
  rw [val_main_v28_apply, val_main_v27_apply]
  refine congrArg x7 (funext fun a => Fin.ext ?_)
  match a with
  | ⟨0, _⟩ => rfl
  | ⟨1, _⟩ =>
    show (d.val * 128 + j.val) / 128 % 128 = d.val
    have := d.isLt; have := j.isLt
    omega
  | ⟨2, _⟩ =>
    show (d.val * 128 + j.val) % 128 = j.val
    have := d.isLt; have := j.isLt
    omega

/-- Slab 1 of the convolution weights as a matrix: entry (d, j). -/
theorem cw1_eq (x7 : Spec.A3 4 128 128) (d j : Fin 128) :
    val_main_v40 (F := Ideal) x7 (ix2 d j) = x7 (ix3 1 d j) := by
  rw [val_main_v40_apply, val_main_v39_apply]
  refine congrArg x7 (funext fun a => Fin.ext ?_)
  match a with
  | ⟨0, _⟩ => rfl
  | ⟨1, _⟩ =>
    show (d.val * 128 + j.val) / 128 % 128 = d.val
    have := d.isLt; have := j.isLt
    omega
  | ⟨2, _⟩ =>
    show (d.val * 128 + j.val) % 128 = j.val
    have := d.isLt; have := j.isLt
    omega

/-- Slab 2 of the convolution weights as a matrix: entry (d, j). -/
theorem cw2_eq (x7 : Spec.A3 4 128 128) (d j : Fin 128) :
    val_main_v50 (F := Ideal) x7 (ix2 d j) = x7 (ix3 2 d j) := by
  rw [val_main_v50_apply, val_main_v49_apply]
  refine congrArg x7 (funext fun a => Fin.ext ?_)
  match a with
  | ⟨0, _⟩ => rfl
  | ⟨1, _⟩ =>
    show (d.val * 128 + j.val) / 128 % 128 = d.val
    have := d.isLt; have := j.isLt
    omega
  | ⟨2, _⟩ =>
    show (d.val * 128 + j.val) % 128 = j.val
    have := d.isLt; have := j.isLt
    omega

/-- Slab 3 of the convolution weights as a matrix: entry (d, j). -/
theorem cw3_eq (x7 : Spec.A3 4 128 128) (d j : Fin 128) :
    val_main_v60 (F := Ideal) x7 (ix2 d j) = x7 (ix3 3 d j) := by
  rw [val_main_v60_apply, val_main_v59_apply]
  refine congrArg x7 (funext fun a => Fin.ext ?_)
  match a with
  | ⟨0, _⟩ => rfl
  | ⟨1, _⟩ =>
    show (d.val * 128 + j.val) / 128 % 128 = d.val
    have := d.isLt; have := j.isLt
    omega
  | ⟨2, _⟩ =>
    show (d.val * 128 + j.val) % 128 = j.val
    have := d.isLt; have := j.isLt
    omega

/-- The product of the scattered sum 0 with slab 0, entry (n, j). -/
theorem dot0_eq (x0 : Spec.A2 100000 128) (x1 : Spec.A2 1600000 8) (x2 : Spec.I2 2 1600000) (x3 x4 x5 : Spec.A2 8 16)
    (x6 : Spec.A2 32 4) (x7 : Spec.A3 4 128 128) (n : Fin 100000) (j : Fin 128) :
    val_main_v29 (F := Ideal) x0 x1 x2 x3 x4 x5 x6 x7 (ix2 n j)
      = ∑ d : Fin 128, Spec.agg (Spec.coef x1 x3 x4 x5 x6) (Spec.xj x0 x2) x2 0 (ix2 n d) * x7 (ix3 0 d j) := by
  have el : ∀ d : Fin 128, lidx_main_v29 (ix2 n j) d = ix2 n d := fun d =>
    funext fun a => Fin.ext (by match a with | ⟨0, _⟩ => rfl | ⟨1, _⟩ => rfl)
  have er : ∀ d : Fin 128, ridx_main_v29 (ix2 n j) d = ix2 d j := fun d =>
    funext fun a => Fin.ext (by match a with | ⟨0, _⟩ => rfl | ⟨1, _⟩ => rfl)
  rw [val_main_v29_apply]
  simp only [el, er, agg0_eq, cw0_eq]

/-- The product of the scattered sum 1 with slab 1, entry (n, j). -/
theorem dot1_eq (x0 : Spec.A2 100000 128) (x1 : Spec.A2 1600000 8) (x2 : Spec.I2 2 1600000) (x3 x4 x5 : Spec.A2 8 16)
    (x6 : Spec.A2 32 4) (x7 : Spec.A3 4 128 128) (n : Fin 100000) (j : Fin 128) :
    val_main_v41 (F := Ideal) x0 x1 x2 x3 x4 x5 x6 x7 (ix2 n j)
      = ∑ d : Fin 128, Spec.agg (Spec.coef x1 x3 x4 x5 x6) (Spec.xj x0 x2) x2 1 (ix2 n d) * x7 (ix3 1 d j) := by
  have el : ∀ d : Fin 128, lidx_main_v41 (ix2 n j) d = ix2 n d := fun d =>
    funext fun a => Fin.ext (by match a with | ⟨0, _⟩ => rfl | ⟨1, _⟩ => rfl)
  have er : ∀ d : Fin 128, ridx_main_v41 (ix2 n j) d = ix2 d j := fun d =>
    funext fun a => Fin.ext (by match a with | ⟨0, _⟩ => rfl | ⟨1, _⟩ => rfl)
  rw [val_main_v41_apply]
  simp only [el, er, agg1_eq, cw1_eq]

/-- The product of the scattered sum 2 with slab 2, entry (n, j). -/
theorem dot2_eq (x0 : Spec.A2 100000 128) (x1 : Spec.A2 1600000 8) (x2 : Spec.I2 2 1600000) (x3 x4 x5 : Spec.A2 8 16)
    (x6 : Spec.A2 32 4) (x7 : Spec.A3 4 128 128) (n : Fin 100000) (j : Fin 128) :
    val_main_v51 (F := Ideal) x0 x1 x2 x3 x4 x5 x6 x7 (ix2 n j)
      = ∑ d : Fin 128, Spec.agg (Spec.coef x1 x3 x4 x5 x6) (Spec.xj x0 x2) x2 2 (ix2 n d) * x7 (ix3 2 d j) := by
  have el : ∀ d : Fin 128, lidx_main_v51 (ix2 n j) d = ix2 n d := fun d =>
    funext fun a => Fin.ext (by match a with | ⟨0, _⟩ => rfl | ⟨1, _⟩ => rfl)
  have er : ∀ d : Fin 128, ridx_main_v51 (ix2 n j) d = ix2 d j := fun d =>
    funext fun a => Fin.ext (by match a with | ⟨0, _⟩ => rfl | ⟨1, _⟩ => rfl)
  rw [val_main_v51_apply]
  simp only [el, er, agg2_eq, cw2_eq]

/-- The product of the scattered sum 3 with slab 3, entry (n, j). -/
theorem dot3_eq (x0 : Spec.A2 100000 128) (x1 : Spec.A2 1600000 8) (x2 : Spec.I2 2 1600000) (x3 x4 x5 : Spec.A2 8 16)
    (x6 : Spec.A2 32 4) (x7 : Spec.A3 4 128 128) (n : Fin 100000) (j : Fin 128) :
    val_main_v61 (F := Ideal) x0 x1 x2 x3 x4 x5 x6 x7 (ix2 n j)
      = ∑ d : Fin 128, Spec.agg (Spec.coef x1 x3 x4 x5 x6) (Spec.xj x0 x2) x2 3 (ix2 n d) * x7 (ix3 3 d j) := by
  have el : ∀ d : Fin 128, lidx_main_v61 (ix2 n j) d = ix2 n d := fun d =>
    funext fun a => Fin.ext (by match a with | ⟨0, _⟩ => rfl | ⟨1, _⟩ => rfl)
  have er : ∀ d : Fin 128, ridx_main_v61 (ix2 n j) d = ix2 d j := fun d =>
    funext fun a => Fin.ext (by match a with | ⟨0, _⟩ => rfl | ⟨1, _⟩ => rfl)
  rw [val_main_v61_apply]
  simp only [el, er, agg3_eq, cw3_eq]

/-! ## The reference's pre-activation and its rectified value -/

/-- The bias as a row over the nodes, entry (n, j). -/
theorem bias_eq (x8 : Spec.A1 128) (n : Fin 100000) (j : Fin 128) :
    val_main_v31 (F := Ideal) x8 (ix2 n j) = x8 (ix1 j) := by
  rw [val_main_v31_apply, val_main_v30_apply]
  refine congrArg x8 (funext fun a => Fin.ext ?_)
  match a with
  | ⟨0, _⟩ => rfl

/-- The pre-activation, entry (n, j): the bias and the four products, added left to right. -/
theorem pre_eq (x0 : Spec.A2 100000 128) (x1 : Spec.A2 1600000 8) (x2 : Spec.I2 2 1600000) (x3 x4 x5 : Spec.A2 8 16)
    (x6 : Spec.A2 32 4) (x7 : Spec.A3 4 128 128) (x8 : Spec.A1 128) (n : Fin 100000) (j : Fin 128) :
    val_main_v62 (F := Ideal) x0 x1 x2 x3 x4 x5 x6 x7 x8 (ix2 n j)
      = Spec.preR (Spec.coef x1 x3 x4 x5 x6) (Spec.xj x0 x2) x2 x7 (fun j => x8 (ix1 j)) n j := by
  rw [val_main_v62_apply, val_main_v52_apply, val_main_v42_apply, val_main_v32_apply, bias_eq, dot0_eq, dot1_eq,
    dot2_eq, dot3_eq]
  simp only [Ideal.addf_def]
  rfl

/-- The rectified pre-activation, entry (n, j). -/
theorem conv_eq (x0 : Spec.A2 100000 128) (x1 : Spec.A2 1600000 8) (x2 : Spec.I2 2 1600000) (x3 x4 x5 : Spec.A2 8 16)
    (x6 : Spec.A2 32 4) (x7 : Spec.A3 4 128 128) (x8 : Spec.A1 128) (n : Fin 100000) (j : Fin 128) :
    val_main_v63 (F := Ideal) x0 x1 x2 x3 x4 x5 x6 x7 x8 (ix2 n j)
      = max (Spec.preR (Spec.coef x1 x3 x4 x5 x6) (Spec.xj x0 x2) x2 x7 (fun j => x8 (ix1 j)) n j) 0 := by
  rw [val_main_v63_apply, val_main_call2_v0_apply, val_main_call2_cst_apply, pre_eq, Ideal.maximumf_def, Ideal.ofBits_def,
    Ideal.ofBits_zero_f32]

/-! ## The gated skip -/

/-- The gated skip, entry (n, j). -/
theorem skip_eq (x0 : Spec.A2 100000 128) (x9 : Spec.A2 128 64) (x10 : Spec.A1 64) (x11 : Spec.A2 128 64) (x12 : Spec.A1 64)
    (n : Fin 100000) (j : Fin 64) :
    val_main_v74 (F := Ideal) x0 x9 x10 x11 x12 (ix2 n j)
      = Spec.skip x0 x9 (fun j => x10 (ix1 j)) x11 (fun j => x12 (ix1 j)) n j := by
  have el64 : ∀ d : Fin 128, lidx_main_v64 (ix2 n j) d = ix2 n d := fun d =>
    funext fun a => Fin.ext (by match a with | ⟨0, _⟩ => rfl | ⟨1, _⟩ => rfl)
  have er64 : ∀ d : Fin 128, ridx_main_v64 (ix2 n j) d = ix2 d j := fun d =>
    funext fun a => Fin.ext (by match a with | ⟨0, _⟩ => rfl | ⟨1, _⟩ => rfl)
  have el69 : ∀ d : Fin 128, lidx_main_v69 (ix2 n j) d = ix2 n d := fun d =>
    funext fun a => Fin.ext (by match a with | ⟨0, _⟩ => rfl | ⟨1, _⟩ => rfl)
  have er69 : ∀ d : Fin 128, ridx_main_v69 (ix2 n j) d = ix2 d j := fun d =>
    funext fun a => Fin.ext (by match a with | ⟨0, _⟩ => rfl | ⟨1, _⟩ => rfl)
  have b66 : val_main_v66 (F := Ideal) x10 (ix2 n j) = x10 (ix1 j) := by
    rw [val_main_v66_apply, val_main_v65_apply]
    refine congrArg x10 (funext fun a => Fin.ext ?_)
    match a with
    | ⟨0, _⟩ => rfl
  have b71 : val_main_v71 (F := Ideal) x12 (ix2 n j) = x12 (ix1 j) := by
    rw [val_main_v71_apply, val_main_v70_apply]
    refine congrArg x12 (funext fun a => Fin.ext ?_)
    match a with
    | ⟨0, _⟩ => rfl
  rw [val_main_v74_apply, val_main_v68_apply, val_main_v73_apply, val_main_v67_apply, val_main_v72_apply,
    val_main_v64_apply, val_main_v69_apply, b66, b71]
  simp only [el64, er64, el69, er69, Ideal.mulf_def, Ideal.addf_def, Ideal.hostUnary_tanh_def]
  rfl

/-! ## The result -/

/-- The last stage is the reference arrangement of the specification. -/
theorem out_eq (x0 : Spec.A2 100000 128) (x1 : Spec.A2 1600000 8) (x2 : Spec.I2 2 1600000) (x3 x4 x5 : Spec.A2 8 16)
    (x6 : Spec.A2 32 4) (x7 : Spec.A3 4 128 128) (x8 : Spec.A1 128) (x9 : Spec.A2 128 64) (x10 : Spec.A1 64)
    (x11 : Spec.A2 128 64) (x12 : Spec.A1 64) :
    val_main_v75 (F := Ideal) x0 x1 x2 x3 x4 x5 x6 x7 x8 x9 x10 x11 x12
      = Spec.outR x0 x1 x2 x3 x4 x5 x6 x7 x8 x9 x10 x11 x12 := by
  funext i
  obtain ⟨n, q, rfl⟩ : ∃ (n : Fin 100000) (q : Fin 192), i = ix2 n q := ⟨i 0, i 1, eq_ix2 i⟩
  unfold val_main_v75 Spec.outR
  by_cases h : q.val < 128
  · rw [dif_pos (show ((ix2 n q : (⟨2, ![100000, 192]⟩ : Shape).Idx) 1).val < 128 from h)]
    refine (concatenate_pair_apply_left (t := S100000x192) (s₁ := S100000x128) (s₂ := S100000x64) (1 : Fin 2) _ _ _
      (ix2 n q) rfl (ix2 n ⟨q.val, h⟩) (fun b => ?_)).trans ?_
    · match b with
      | ⟨0, _⟩ => rfl
      | ⟨1, _⟩ => rfl
    · exact conv_eq x0 x1 x2 x3 x4 x5 x6 x7 x8 n ⟨q.val, h⟩
  · rw [dif_neg (show ¬((ix2 n q : (⟨2, ![100000, 192]⟩ : Shape).Idx) 1).val < 128 from h)]
    have hq : q.val - 128 < 64 := by have := q.isLt; omega
    refine (concatenate_pair_apply_right (t := S100000x192) (s₁ := S100000x128) (s₂ := S100000x64) (1 : Fin 2) _ _ _
      (ix2 n q) rfl rfl (ix2 n ⟨q.val - 128, hq⟩) (fun b hb => ?_) ?_).trans ?_
    · match b with
      | ⟨0, _⟩ => rfl
      | ⟨1, _⟩ => exact absurd rfl hb
    · show q.val - 128 + 128 = q.val
      omega
    · exact skip_eq x0 x9 x10 x11 x12 n ⟨q.val - 128, hq⟩

/-- The reference run's result term is `Spec.outR` of the argument arrays. -/
theorem res_eq (m : (ℓ : Loc nD τ sig) → Buf (Elt Ideal) ℓ) (c : Dev nD) :
    (Cert.ReferenceIdeal.Value.res_main_v75 (F := Ideal) m c : Spec.A2 Spec.NN 192)
      = Spec.outR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) :=
  (val_main_v75_eq (F := Ideal) m c).trans (out_eq _ _ _ _ _ _ _ _ _ _ _ _ _)

end Cert.ReferenceIdeal.RefValue

end
-- ==== Proof.lean ====
/-
  The certificate of the edge-weighted spectral graph convolution: the fused Pallas program (a row lookup, a fused
  edge kernel, one scatter-add by destination, a finalize kernel) against the plain reference (four scatter-adds of
  coefficient-weighted rows, each multiplied by its convolution matrix).

  Over the extended reals both compute, for node n and output feature j < 128,
      max( b_j + Σ_k Σ_d ( Σ_{e : dst_e = n} c_{e,k} · x[src_e]_d ) · C_{k,d,j} , 0 ),
  and for 128 ≤ j < 192 the gated skip tanh(x_n·S1 + s1)·tanh(x_n·S2 + s2): the kernel pushes the product with
  C_k down to the edges and scatters once, Σ_{e : dst_e = n} Σ_k c_{e,k} · (Σ_d x[src_e]_d · C_{k,d,j}), which is the
  same number when the factors are finite (products distribute over finite sums of reals; on the extended reals
  they do not at infinities, which is why the precondition's finiteness is used). The precondition also keeps every
  source index in the range of the node table: outside it the kernel's lookup fills the row with a not-a-number
  pattern where the reference's lookup clamps, and the two results differ.

  The three frames are the generated ones (the reference's is its generated run with the result dropped); the ideal
  pass rewrote nothing, so the kernel and its idealization are one program and that conjunct is trivial.
-/
import proofs.«418350_j18073222382240_3_alg».proof.Defs
import proofs.«418350_j18073222382240_3_alg».proof.Proof.Gen.Kernel
import proofs.«418350_j18073222382240_3_alg».proof.Proof.Gen.Kernel.Skeleton
import proofs.«418350_j18073222382240_3_alg».proof.Proof.Gen.Kernel.Launch
import proofs.«418350_j18073222382240_3_alg».proof.Proof.Gen.Kernel.Points
import proofs.«418350_j18073222382240_3_alg».proof.Proof.Gen.Kernel.Frame
import proofs.«418350_j18073222382240_3_alg».proof.Proof.Gen.KernelIdeal
import proofs.«418350_j18073222382240_3_alg».proof.Proof.Gen.KernelIdeal.Skeleton
import proofs.«418350_j18073222382240_3_alg».proof.Proof.Gen.KernelIdeal.Launch
import proofs.«418350_j18073222382240_3_alg».proof.Proof.Gen.KernelIdeal.Points
import proofs.«418350_j18073222382240_3_alg».proof.Proof.Gen.KernelIdeal.Frame
import proofs.«418350_j18073222382240_3_alg».proof.Proof.Gen.ReferenceIdeal
import proofs.«418350_j18073222382240_3_alg».proof.Proof.Gen.ReferenceIdeal.Run
import proofs.«418350_j18073222382240_3_alg».proof.Proof.Gen.ReferenceIdeal.Read
import proofs.«418350_j18073222382240_3_alg».proof.Proof.Gen.Pre_finite_inputs
import proofs.«418350_j18073222382240_3_alg».proof.Proof.Pre
import proofs.«418350_j18073222382240_3_alg».proof.Proof.Bridge
import proofs.«418350_j18073222382240_3_alg».proof.Proof.KernelRun
import proofs.«418350_j18073222382240_3_alg».proof.Proof.KernelValue
import proofs.«418350_j18073222382240_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the reference arrangement of the specification:
    the kernel's result is its own arrangement (the value of its two regions and the host operations around them),
    which is the reference's on finite inputs with source indices in range; the reference's is it by its run. -/
theorem algebraic : Cert.algebraic_KernelIdeal_ReferenceIdeal := by
  intro m ρ m' ρ' hpre hagree
  refine ⟨fun c => Cert.Spec.outR
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12)), ?_, ?_⟩
  · refine (θ_run Cert.KernelIdeal.defs _ _).mono (fun r h c => ⟨(h c).1.trans ?_, (h c).2⟩)
      (Cert.KernelIdeal.Run.run_result (F := Ideal) m ρ)
    obtain ⟨hx, hea, hw1, hw2, hw3, hw4, hcw, hsrc⟩ := Cert.PreFacts.of_pre _ _ _ _ _ _ _ _ _ _ _ _ _ (hpre c)
    exact (Cert.KernelIdeal.KernelValue.result_eq m ρ c hsrc).trans
      (Cert.Spec.outK_eq_outR _ _ _ _ _ _ _ _ _ _ _ _ _ hx hea hw1 hw2 hw3 hw4 hcw)
  · refine (θ_run Cert.ReferenceIdeal.defs _ _).mono (fun r h c => ⟨(h c).1.trans ?_, (h c).2⟩)
      (Cert.ReferenceIdeal.Value.run (F := Ideal) m' ρ')
    refine (Cert.ReferenceIdeal.RefValue.res_eq m' c).trans ?_
    obtain ⟨h0, h1, h2, h3, h4, h5, h6, h7, h8, h9, h10, h11, h12⟩ := hagree c
    rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
